-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v61)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v61) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v95) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1024x2 : Shape := ⟨2, ![1024, 2]⟩
abbrev S10000x16 : Shape := ⟨2, ![10000, 16]⟩
abbrev S10000x16x8 : Shape := ⟨3, ![10000, 16, 8]⟩
abbrev S10000x8 : Shape := ⟨2, ![10000, 8]⟩
abbrev S100000x128 : Shape := ⟨2, ![100000, 128]⟩
abbrev S128x128 : Shape := ⟨2, ![128, 128]⟩
abbrev S128x256 : Shape := ⟨2, ![128, 256]⟩
abbrev S128 : Shape := ⟨1, ![128]⟩
abbrev S2x128 : Shape := ⟨2, ![2, 128]⟩
abbrev S2 : Shape := ⟨1, ![2]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128x256 : S_.BroadcastsInDim S128x256 (![] : Fin 0 → Fin S128x256.rank)
  reducesTo_S128x256_S_d0_1 : S128x256.ReducesTo [0, 1] S_
  bcast_S_S128 : S_.BroadcastsInDim S128 (![] : Fin 0 → Fin S128.rank)
  reducesTo_S128_S_d0 : S128.ReducesTo [0] S_
  bcast_S_S2x128 : S_.BroadcastsInDim S2x128 (![] : Fin 0 → Fin S2x128.rank)
  reducesTo_S2x128_S_d0_1 : S2x128.ReducesTo [0, 1] S_
  bcast_S_S2 : S_.BroadcastsInDim S2 (![] : Fin 0 → Fin S2.rank)
  reducesTo_S2_S_d0 : S2.ReducesTo [0] S_

variable [Facts]

def fn_part2 {F : FTy → Type} [FloatOps F] (main_arg11 : FVec F S2x128 .f32) (main_arg12 : FVec F S2 .f32) (main_v33 : IVec S_ 1) : IVec S_ 1 :=
  let main_v34 : FVec F S2x128 .f32 := Host.absf main_arg11
  let main_cst_12 : FVec F S_ .f32 := constant S_ .f32 0x7F800000#32
  let main_v35 : FVec F S2x128 .f32 := broadcastInDim S2x128 ![] bcast_S_S2x128 main_cst_12
  let main_v36 : IVec S2x128 1 := cmpf .olt main_v34 main_v35
  let main_c_13 : IVec S_ 1 := constantI S_ 1 1#1
  let main_v37 : IVec S_ 1 := (fun x v => Host.reduce IntOp.andi x v reducesTo_S2x128_S_d0_1 h_S_) main_v36 main_c_13
  let main_v38 : IVec S_ 1 := andi main_v33 main_v37
  let main_v39 : FVec F S2 .f32 := Host.absf main_arg12
  let main_cst_14 : FVec F S_ .f32 := constant S_ .f32 0x7F800000#32
  let main_v40 : FVec F S2 .f32 := broadcastInDim S2 ![] bcast_S_S2 main_cst_14
  let main_v41 : IVec S2 1 := cmpf .olt main_v39 main_v40
  let main_c_15 : IVec S_ 1 := constantI S_ 1 1#1
  let main_v42 : IVec S_ 1 := (fun x v => Host.reduce IntOp.andi x v reducesTo_S2_S_d0 h_S_) main_v41 main_c_15
  let main_v43 : IVec S_ 1 := andi main_v38 main_v42
  main_v43

def fn_part1 {F : FTy → Type} [FloatOps F] (main_arg8 : FVec F S128x128 .f32) (main_arg9 : FVec F S128x256 .f32) (main_arg10 : FVec F S128 .f32) (main_arg11 : FVec F S2x128 .f32) (main_arg12 : FVec F S2 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128x128 .f32 := Host.absf main_arg8
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128x256 .f32 := Host.absf main_arg9
  let main_cst_8 : FVec F S_ .f32 := constant S_ .f32 0x7F800000#32
  let main_v25 : FVec F S128x256 .f32 := broadcastInDim S128x256 ![] bcast_S_S128x256 main_cst_8
  let main_v26 : IVec S128x256 1 := cmpf .olt main_v24 main_v25
  let main_c_9 : IVec S_ 1 := constantI S_ 1 1#1
  let main_v27 : IVec S_ 1 := (fun x v => Host.reduce IntOp.andi x v reducesTo_S128x256_S_d0_1 h_S_) main_v26 main_c_9
  let main_v28 : IVec S_ 1 := andi main_v23 main_v27
  let main_v29 : FVec F S128 .f32 := Host.absf main_arg10
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg11 main_arg12 main_v33

def fn {F : FTy → Type} [FloatOps F] (main_arg0 : IVec S1024x2 32) (main_arg1 : IVec S10000x16 32) (main_arg2 : IVec S10000x16x8 32) (main_arg3 : IVec S10000x8 32) (main_arg4 : FVec F S100000x128 .f32) (main_arg5 : FVec F S128x128 .f32) (main_arg6 : FVec F S128x128 .f32) (main_arg7 : FVec F S128x128 .f32) (main_arg8 : FVec F S128x128 .f32) (main_arg9 : FVec F S128x256 .f32) (main_arg10 : FVec F S128 .f32) (main_arg11 : FVec F S2x128 .f32) (main_arg12 : FVec F S2 .f32) : IVec S_ 1 :=
  let main_v0 : FVec F S100000x128 .f32 := Host.absf main_arg4
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg5
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128x128 .f32 := Host.absf main_arg6
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128x128 .f32 := Host.absf main_arg7
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg8 main_arg9 main_arg10 main_arg11 main_arg12 main_v13 main_v16
-- ==== Kernel.lean ====
abbrev S1024x2 : Shape := ⟨2, ![1024, 2]⟩
abbrev S10000x16 : Shape := ⟨2, ![10000, 16]⟩
abbrev S10000x16x8 : Shape := ⟨3, ![10000, 16, 8]⟩
abbrev S10000x8 : Shape := ⟨2, ![10000, 8]⟩
abbrev S100000x128 : Shape := ⟨2, ![100000, 128]⟩
abbrev S128x128 : Shape := ⟨2, ![128, 128]⟩
abbrev S128x256 : Shape := ⟨2, ![128, 256]⟩
abbrev S128 : Shape := ⟨1, ![128]⟩
abbrev S2x128 : Shape := ⟨2, ![2, 128]⟩
abbrev S2 : Shape := ⟨1, ![2]⟩
abbrev S_ : Shape := ⟨0, ![]⟩
abbrev S10000x16x1 : Shape := ⟨3, ![10000, 16, 1]⟩
abbrev S10000x16x128 : Shape := ⟨3, ![10000, 16, 128]⟩
abbrev S10000x16x8x1 : Shape := ⟨4, ![10000, 16, 8, 1]⟩
abbrev S10000x16x8x128 : Shape := ⟨4, ![10000, 16, 8, 128]⟩
abbrev S10000x128 : Shape := ⟨2, ![10000, 128]⟩
abbrev S1000x16x128 : Shape := ⟨3, ![1000, 16, 128]⟩
abbrev S1000x128 : Shape := ⟨2, ![1000, 128]⟩
abbrev S1000x1x128 : Shape := ⟨3, ![1000, 1, 128]⟩
abbrev S1000 : Shape := ⟨1, ![1000]⟩
abbrev S1000x1 : Shape := ⟨2, ![1000, 1]⟩
abbrev S10000x8x1 : Shape := ⟨3, ![10000, 8, 1]⟩
abbrev S10000x8x128 : Shape := ⟨3, ![10000, 8, 128]⟩
abbrev S2000x128 : Shape := ⟨2, ![2000, 128]⟩
abbrev S2000 : Shape := ⟨1, ![2000]⟩
abbrev S2000x1 : Shape := ⟨2, ![2000, 1]⟩
abbrev S1024x1 : Shape := ⟨2, ![1024, 1]⟩
abbrev S1024 : Shape := ⟨1, ![1024]⟩
abbrev S1024x128 : Shape := ⟨2, ![1024, 128]⟩
abbrev S256x128 : Shape := ⟨2, ![256, 128]⟩
abbrev S128x2 : Shape := ⟨2, ![128, 2]⟩
abbrev S1024x256 : Shape := ⟨2, ![1024, 256]⟩
abbrev S1x128 : Shape := ⟨2, ![1, 128]⟩
abbrev S1x2 : Shape := ⟨2, ![1, 2]⟩

abbrev nBuf : Space → Nat
  | .hbm => 87
  | .vmem => 23
  | .smem => 0
  | _ => 0

abbrev bufTy : (tb : Table) → Fin (tcTables nBuf tb) → BufTy
  | .hbm, ⟨0, _⟩ => ⟨S1024x2, .i32⟩
  | .hbm, ⟨1, _⟩ => ⟨S10000x16, .i32⟩
  | .hbm, ⟨2, _⟩ => ⟨S10000x16x8, .i32⟩
  | .hbm, ⟨3, _⟩ => ⟨S10000x8, .i32⟩
  | .hbm, ⟨4, _⟩ => ⟨S100000x128, .f32⟩
  | .hbm, ⟨5, _⟩ => ⟨S128x128, .f32⟩
  | .hbm, ⟨6, _⟩ => ⟨S128x128, .f32⟩
  | .hbm, ⟨7, _⟩ => ⟨S128x128, .f32⟩
  | .hbm, ⟨8, _⟩ => ⟨S128x128, .f32⟩
  | .hbm, ⟨9, _⟩ => ⟨S128x256, .f32⟩
  | .hbm, ⟨10, _⟩ => ⟨S128, .f32⟩
  | .hbm, ⟨11, _⟩ => ⟨S2x128, .f32⟩
  | .hbm, ⟨12, _⟩ => ⟨S2, .f32⟩
  | .hbm, ⟨13, _⟩ => ⟨S_, .i32⟩
  | .hbm, ⟨14, _⟩ => ⟨S10000x16, .i32⟩
  | .hbm, ⟨15, _⟩ => ⟨S10000x16, .i1⟩
  | .hbm, ⟨16, _⟩ => ⟨S_, .i32⟩
  | .hbm, ⟨17, _⟩ => ⟨S10000x16, .i32⟩
  | .hbm, ⟨18, _⟩ => ⟨S10000x16, .i32⟩
  | .hbm, ⟨19, _⟩ => ⟨S10000x16, .i32⟩
  | .hbm, ⟨20, _⟩ => ⟨S10000x16x1, .i32⟩
  | .hbm, ⟨21, _⟩ => ⟨S10000x16x128, .f32⟩
  | .hbm, ⟨22, _⟩ => ⟨S10000x16x128, .bf16⟩
  | .hbm, ⟨23, _⟩ => ⟨S_, .i32⟩
  | .hbm, ⟨24, _⟩ => ⟨S10000x16x8, .i32⟩
  | .hbm, ⟨25, _⟩ => ⟨S10000x16x8, .i1⟩
  | .hbm, ⟨26, _⟩ => ⟨S_, .i32⟩
  | .hbm, ⟨27, _⟩ => ⟨S10000x16x8, .i32⟩
  | .hbm, ⟨28, _⟩ => ⟨S10000x16x8, .i32⟩
  | .hbm, ⟨29, _⟩ => ⟨S10000x16x8, .i32⟩
  | .hbm, ⟨30, _⟩ => ⟨S10000x16x8x1, .i32⟩
  | .hbm, ⟨31, _⟩ => ⟨S10000x16x8x128, .f32⟩
  | .hbm, ⟨32, _⟩ => ⟨S_, .f32⟩
  | .hbm, ⟨33, _⟩ => ⟨S10000x16x128, .f32⟩
  | .hbm, ⟨34, _⟩ => ⟨S10000x16x128, .bf16⟩
  | .hbm, ⟨35, _⟩ => ⟨S128x128, .f32⟩
  | .hbm, ⟨36, _⟩ => ⟨S128x128, .bf16⟩
  | .hbm, ⟨37, _⟩ => ⟨S128x128, .f32⟩
  | .hbm, ⟨38, _⟩ => ⟨S128x128, .bf16⟩
  | .hbm, ⟨39, _⟩ => ⟨S10000x128, .f32⟩
  | .hbm, ⟨40, _⟩ => ⟨S_, .i32⟩
  | .hbm, ⟨41, _⟩ => ⟨S10000x8, .i32⟩
  | .hbm, ⟨42, _⟩ => ⟨S10000x8, .i1⟩
  | .hbm, ⟨43, _⟩ => ⟨S_, .i32⟩
  | .hbm, ⟨44, _⟩ => ⟨S10000x8, .i32⟩
  | .hbm, ⟨45, _⟩ => ⟨S10000x8, .i32⟩
  | .hbm, ⟨46, _⟩ => ⟨S10000x8, .i32⟩
  | .hbm, ⟨47, _⟩ => ⟨S10000x8x1, .i32⟩
  | .hbm, ⟨48, _⟩ => ⟨S10000x8x128, .f32⟩
  | .hbm, ⟨49, _⟩ => ⟨S_, .f32⟩
  | .hbm, ⟨50, _⟩ => ⟨S10000x128, .f32⟩
  | .hbm, ⟨51, _⟩ => ⟨S10000x128, .bf16⟩
  | .hbm, ⟨52, _⟩ => ⟨S10000x128, .bf16⟩
  | .hbm, ⟨53, _⟩ => ⟨S128x128, .f32⟩
  | .hbm, ⟨54, _⟩ => ⟨S128x128, .bf16⟩
  | .hbm, ⟨55, _⟩ => ⟨S128x128, .f32⟩
  | .hbm, ⟨56, _⟩ => ⟨S128x128, .bf16⟩
  | .hbm, ⟨57, _⟩ => ⟨S10000x128, .f32⟩
  | .hbm, ⟨58, _⟩ => ⟨S1024x1, .i32⟩
  | .hbm, ⟨59, _⟩ => ⟨S1024, .i32⟩
  | .hbm, ⟨60, _⟩ => ⟨S_, .i32⟩
  | .hbm, ⟨61, _⟩ => ⟨S1024, .i32⟩
  | .hbm, ⟨62, _⟩ => ⟨S1024, .i1⟩
  | .hbm, ⟨63, _⟩ => ⟨S_, .i32⟩
  | .hbm, ⟨64, _⟩ => ⟨S1024, .i32⟩
  | .hbm, ⟨65, _⟩ => ⟨S1024, .i32⟩
  | .hbm, ⟨66, _⟩ => ⟨S1024, .i32⟩
  | .hbm, ⟨67, _⟩ => ⟨S1024x1, .i32⟩
  | .hbm, ⟨68, _⟩ => ⟨S1024x128, .f32⟩
  | .hbm, ⟨69, _⟩ => ⟨S1024x128, .bf16⟩
  | .hbm, ⟨70, _⟩ => ⟨S1024x1, .i32⟩
  | .hbm, ⟨71, _⟩ => ⟨S1024, .i32⟩
  | .hbm, ⟨72, _⟩ => ⟨S_, .i32⟩
  | .hbm, ⟨73, _⟩ => ⟨S1024, .i32⟩
  | .hbm, ⟨74, _⟩ => ⟨S1024, .i1⟩
  | .hbm, ⟨75, _⟩ => ⟨S_, .i32⟩
  | .hbm, ⟨76, _⟩ => ⟨S1024, .i32⟩
  | .hbm, ⟨77, _⟩ => ⟨S1024, .i32⟩
  | .hbm, ⟨78, _⟩ => ⟨S1024, .i32⟩
  | .hbm, ⟨79, _⟩ => ⟨S1024x1, .i32⟩
  | .hbm, ⟨80, _⟩ => ⟨S1024x128, .f32⟩
  | .hbm, ⟨81, _⟩ => ⟨S1024x128, .bf16⟩
  | .hbm, ⟨82, _⟩ => ⟨S256x128, .f32⟩
  | .hbm, ⟨83, _⟩ => ⟨S256x128, .bf16⟩
  | .hbm, ⟨84, _⟩ => ⟨S128x2, .f32⟩
  | .hbm, ⟨85, _⟩ => ⟨S128x2, .bf16⟩
  | .hbm, ⟨86, _⟩ => ⟨S1024x2, .f32⟩
  | .local _ .vmem, ⟨0, _⟩ => ⟨S1000x16x128, .bf16⟩
  | .local _ .vmem, ⟨1, _⟩ => ⟨S1000x16x128, .bf16⟩
  | .local _ .vmem, ⟨2, _⟩ => ⟨S1000x16x128, .bf16⟩
  | .local _ .vmem, ⟨3, _⟩ => ⟨S1000x16x128, .bf16⟩
  | .local _ .vmem, ⟨4, _⟩ => ⟨S128x128, .bf16⟩
  | .local _ .vmem, ⟨5, _⟩ => ⟨S128x128, .bf16⟩
  | .local _ .vmem, ⟨6, _⟩ => ⟨S1000x128, .f32⟩
  | .local _ .vmem, ⟨7, _⟩ => ⟨S1000x128, .f32⟩
  | .local _ .vmem, ⟨8, _⟩ => ⟨S2000x128, .bf16⟩
  | .local _ .vmem, ⟨9, _⟩ => ⟨S2000x128, .bf16⟩
  | .local _ .vmem, ⟨10, _⟩ => ⟨S2000x128, .bf16⟩
  | .local _ .vmem, ⟨11, _⟩ => ⟨S2000x128, .bf16⟩
  | .local _ .vmem, ⟨12, _⟩ => ⟨S128x128, .bf16⟩
  | .local _ .vmem, ⟨13, _⟩ => ⟨S128x128, .bf16⟩
  | .local _ .vmem, ⟨14, _⟩ => ⟨S2000x128, .f32⟩
  | .local _ .vmem, ⟨15, _⟩ => ⟨S2000x128, .f32⟩
  | .local _ .vmem, ⟨16, _⟩ => ⟨S1024x128, .bf16⟩
  | .local _ .vmem, ⟨17, _⟩ => ⟨S1024x128, .bf16⟩
  | .local _ .vmem, ⟨18, _⟩ => ⟨S256x128, .bf16⟩
  | .local _ .vmem, ⟨19, _⟩ => ⟨S128, .f32⟩
  | .local _ .vmem, ⟨20, _⟩ => ⟨S128x2, .bf16⟩
  | .local _ .vmem, ⟨21, _⟩ => ⟨S2, .f32⟩
  | .local _ .vmem, ⟨22, _⟩ => ⟨S1024x2, .f32⟩
  | _, _ => ⟨S1024x2, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_c : Ref sig .tc := ⟨.hbm, 13, rfl⟩
abbrev main_v0 : Ref sig .tc := ⟨.hbm, 14, rfl⟩
abbrev main_v1 : Ref sig .tc := ⟨.hbm, 15, rfl⟩
abbrev main_c_0 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_c_1 : Ref sig .tc := ⟨.hbm, 23, rfl⟩
abbrev main_v8 : Ref sig .tc := ⟨.hbm, 24, rfl⟩
abbrev main_v9 : Ref sig .tc := ⟨.hbm, 25, rfl⟩
abbrev main_c_2 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_cst : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_c_3 : Ref sig .tc := ⟨.hbm, 40, rfl⟩
abbrev main_v22 : Ref sig .tc := ⟨.hbm, 41, rfl⟩
abbrev main_v23 : Ref sig .tc := ⟨.hbm, 42, rfl⟩
abbrev main_c_4 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_cst_5 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_c_6 : Ref sig .tc := ⟨.hbm, 60, rfl⟩
abbrev main_v39 : Ref sig .tc := ⟨.hbm, 61, rfl⟩
abbrev main_v40 : Ref sig .tc := ⟨.hbm, 62, rfl⟩
abbrev main_c_7 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_c_8 : Ref sig .tc := ⟨.hbm, 72, rfl⟩
abbrev main_v49 : Ref sig .tc := ⟨.hbm, 73, rfl⟩
abbrev main_v50 : Ref sig .tc := ⟨.hbm, 74, rfl⟩
abbrev main_c_9 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg3_0 : Ref sig .tc := ⟨.vmem, 13, rfl⟩
abbrev cc1_stg4_0 : Ref sig .tc := ⟨.vmem, 14, rfl⟩
abbrev cc1_stg4_1 : Ref sig .tc := ⟨.vmem, 15, rfl⟩
abbrev cc2_stg0_0 : Ref sig .tc := ⟨.vmem, 16, rfl⟩
abbrev cc2_stg1_0 : Ref sig .tc := ⟨.vmem, 17, rfl⟩
abbrev cc2_stg2_0 : Ref sig .tc := ⟨.vmem, 18, rfl⟩
abbrev cc2_stg3_0 : Ref sig .tc := ⟨.vmem, 19, rfl⟩
abbrev cc2_stg4_0 : Ref sig .tc := ⟨.vmem, 20, rfl⟩
abbrev cc2_stg5_0 : Ref sig .tc := ⟨.vmem, 21, rfl⟩
abbrev cc2_stg6_0 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem3_0 : DmaSem sig := 13
abbrev cc1_sem4_0 : DmaSem sig := 14
abbrev cc1_sem4_1 : DmaSem sig := 15
abbrev cc2_sem0_0 : DmaSem sig := 16
abbrev cc2_sem1_0 : DmaSem sig := 17
abbrev cc2_sem2_0 : DmaSem sig := 18
abbrev cc2_sem3_0 : DmaSem sig := 19
abbrev cc2_sem4_0 : DmaSem sig := 20
abbrev cc2_sem5_0 : DmaSem sig := 21
abbrev cc2_sem6_0 : DmaSem sig := 22

abbrev nD : Nat := 1
abbrev τ : Topo := Topo.v7x

variable {F : FTy → Type} [FloatOps F]

abbrev grid0 : Pipeline.Grid := ⟨1, ![10], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1000x16x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1000x16x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1000x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![5], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x128 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x128 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S2000x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![1], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage2_0 : Fin 1 → Memref sig .tc .vmem S1024x128 .bf16 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))
abbrev reads2_0 : Fin grid2.rank → Bool := ![false]

abbrev stage2_1 : Fin 1 → Memref sig .tc .vmem S1024x128 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S256x128 .bf16 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S128x2 .bf16 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S2 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S1024x2 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

class Facts₀ : Prop where
  bcast_S_S10000x16 : S_.BroadcastsInDim S10000x16 (![] : Fin 0 → Fin S10000x16.rank)
  bcast_S10000x16_S10000x16x1_0_1 : S10000x16.BroadcastsInDim S10000x16x1 (![0, 1] : Fin 2 → Fin S10000x16x1.rank)
  bitsLt_bf16_f32 : FTy.bits .bf16 < FTy.bits .f32
  bcast_S_S10000x16x8 : S_.BroadcastsInDim S10000x16x8 (![] : Fin 0 → Fin S10000x16x8.rank)
  bcast_S10000x16x8_S10000x16x8x1_0_1_2 : S10000x16x8.BroadcastsInDim S10000x16x8x1 (![0, 1, 2] : Fin 3 → Fin S10000x16x8x1.rank)
  reducesTo_S10000x16x8x128_S10000x16x128_d2 : S10000x16x8x128.ReducesTo [2] S10000x16x128
  h_S_ : 0 < S_.numel
  transposes_S128x128_S128x128_1_0 : S128x128.Transposes [1, 0] S128x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1000x16x128_S1000x16x128_0_0_0 : ∀ a, (![0, 0, 0] : Fin 3 → Nat) a + S1000x16x128.size a ≤ S1000x16x128.size a
  h_S1000x16x128 : 0 < S1000x16x128.numel
  shapeCasts_S1000x16x128_S1000x16x128 : S1000x16x128.ShapeCasts S1000x16x128
  slices_S1000x16x128_o0_0_0_S1000x1x128 : S1000x16x128.Slices ![0, 0, 0] S1000x1x128
  shapeCasts_S1000x1x128_S1000x128 : S1000x1x128.ShapeCasts S1000x128
  slices_S1000x16x128_o0_1_0_S1000x1x128 : S1000x16x128.Slices ![0, 1, 0] S1000x1x128
  slices_S1000x16x128_o0_2_0_S1000x1x128 : S1000x16x128.Slices ![0, 2, 0] S1000x1x128
  slices_S1000x16x128_o0_3_0_S1000x1x128 : S1000x16x128.Slices ![0, 3, 0] S1000x1x128
  slices_S1000x16x128_o0_4_0_S1000x1x128 : S1000x16x128.Slices ![0, 4, 0] S1000x1x128
  slices_S1000x16x128_o0_5_0_S1000x1x128 : S1000x16x128.Slices ![0, 5, 0] S1000x1x128
  slices_S1000x16x128_o0_6_0_S1000x1x128 : S1000x16x128.Slices ![0, 6, 0] S1000x1x128
  slices_S1000x16x128_o0_7_0_S1000x1x128 : S1000x16x128.Slices ![0, 7, 0] S1000x1x128
  slices_S1000x16x128_o0_8_0_S1000x1x128 : S1000x16x128.Slices ![0, 8, 0] S1000x1x128
  slices_S1000x16x128_o0_9_0_S1000x1x128 : S1000x16x128.Slices ![0, 9, 0] S1000x1x128
  slices_S1000x16x128_o0_10_0_S1000x1x128 : S1000x16x128.Slices ![0, 10, 0] S1000x1x128
  slices_S1000x16x128_o0_11_0_S1000x1x128 : S1000x16x128.Slices ![0, 11, 0] S1000x1x128
  slices_S1000x16x128_o0_12_0_S1000x1x128 : S1000x16x128.Slices ![0, 12, 0] S1000x1x128
  slices_S1000x16x128_o0_13_0_S1000x1x128 : S1000x16x128.Slices ![0, 13, 0] S1000x1x128
  slices_S1000x16x128_o0_14_0_S1000x1x128 : S1000x16x128.Slices ![0, 14, 0] S1000x1x128
  slices_S1000x16x128_o0_15_0_S1000x1x128 : S1000x16x128.Slices ![0, 15, 0] S1000x1x128
  reduces_S1000x128_S1000 : S1000x128.Reduces [1] S1000
  shapeCasts_S1000_S1000x1 : S1000.ShapeCasts S1000x1
  broadcasts_S1000x1_S1000x128 : S1000x1.Broadcasts S1000x128
  inb_S1000x128_S1000x128_0_0 : ∀ a, (![0, 0] : Fin 2 → Nat) a + S1000x128.size a ≤ S1000x128.size a
  h_S1000x128 : 0 < S1000x128.numel
  bcast_S_S10000x8 : S_.BroadcastsInDim S10000x8 (![] : Fin 0 → Fin S10000x8.rank)
  bcast_S10000x8_S10000x8x1_0_1 : S10000x8.BroadcastsInDim S10000x8x1 (![0, 1] : Fin 2 → Fin S10000x8x1.rank)
  reducesTo_S10000x8x128_S10000x128_d1 : S10000x8x128.ReducesTo [1] S10000x128
  inb_S2000x128_S2000x128_0_0 : ∀ a, (![0, 0] : Fin 2 → Nat) a + S2000x128.size a ≤ S2000x128.size a
  h_S2000x128 : 0 < S2000x128.numel
  shapeCasts_S2000x128_S2000x128 : S2000x128.ShapeCasts S2000x128
  reduces_S2000x128_S2000 : S2000x128.Reduces [1] S2000
  shapeCasts_S2000_S2000x1 : S2000.ShapeCasts S2000x1
  broadcasts_S2000x1_S2000x128 : S2000x1.Broadcasts S2000x128
  slices_S1024x2_S1024x1_0_0 : S1024x2.Slices ![0, 0] S1024x1
  shapeCasts_S1024x1_S1024 : S1024x1.ShapeCasts S1024
  bcast_S_S1024 : S_.BroadcastsInDim S1024 (![] : Fin 0 → Fin S1024.rank)
  bcast_S1024_S1024x1_0 : S1024.BroadcastsInDim S1024x1 (![0] : Fin 1 → Fin S1024x1.rank)
  slices_S1024x2_S1024x1_0_1 : S1024x2.Slices ![0, 1] S1024x1
  transposes_S128x256_S256x128_1_0 : S128x256.Transposes [1, 0] S256x128
  transposes_S2x128_S128x2_1_0 : S2x128.Transposes [1, 0] S128x2
  inb_S1024x128_S1024x128_0_0 : ∀ a, (![0, 0] : Fin 2 → Nat) a + S1024x128.size a ≤ S1024x128.size a
  h_S1024x128 : 0 < S1024x128.numel
  shapeCasts_S1024x128_S1024x128 : S1024x128.ShapeCasts S1024x128
  concatenates_S1024x128_S1024x128_S1024x256_d1 : Shape.Concatenates [S1024x128, S1024x128] S1024x256 1
  inb_S256x128_S256x128_0_0 : ∀ a, (![0, 0] : Fin 2 → Nat) a + S256x128.size a ≤ S256x128.size a
  h_S256x128 : 0 < S256x128.numel
  shapeCasts_S256x128_S256x128 : S256x128.ShapeCasts S256x128
  inb_S128_S128_0 : ∀ a, (![0] : Fin 1 → Nat) a + S128.size a ≤ S128.size a
  h_S128 : 0 < S128.numel
  shapeCasts_S128_S1x128 : S128.ShapeCasts S1x128
  broadcasts_S1x128_S1024x128 : S1x128.Broadcasts S1024x128
  inb_S128x2_S128x2_0_0 : ∀ a, (![0, 0] : Fin 2 → Nat) a + S128x2.size a ≤ S128x2.size a
  h_S128x2 : 0 < S128x2.numel
  shapeCasts_S128x2_S128x2 : S128x2.ShapeCasts S128x2
  inb_S2_S2_0 : ∀ a, (![0] : Fin 1 → Nat) a + S2.size a ≤ S2.size a
  h_S2 : 0 < S2.numel
  shapeCasts_S2_S1x2 : S2.ShapeCasts S1x2
  broadcasts_S1x2_S1024x2 : S1x2.Broadcasts S1024x2
  reduces_S1024x2_S1024 : S1024x2.Reduces [1] S1024
  shapeCasts_S1024_S1024x1 : S1024.ShapeCasts S1024x1
  broadcasts_S1024x1_S1024x2 : S1024x1.Broadcasts S1024x2
  inb_S1024x2_S1024x2_0_0 : ∀ a, (![0, 0] : Fin 2 → Nat) a + S1024x2.size a ≤ S1024x2.size a
  h_S1024x2 : 0 < S1024x2.numel
  gather_S100000x128_S10000x16x1_S10000x16x128_2_0_n_n_0_2_1128_wf : GatherDims.WF S100000x128 S10000x16x1 S10000x16x128 [2] [0] [] [0] [] 2 ![1, 128]
  gather_S100000x128_S10000x16x8x1_S10000x16x8x128_3_0_n_n_0_3_1128_wf : GatherDims.WF S100000x128 S10000x16x8x1 S10000x16x8x128 [3] [0] [] [0] [] 3 ![1, 128]
  dot_S1000x128_S128x128_S1000x128_1_0_0_1_n_n_wf : DotDims.WF S1000x128 S128x128 S1000x128 [1] [0] [0] [1] [] []
  gather_S10000x128_S10000x8x1_S10000x8x128_2_0_n_n_0_2_1128_wf : GatherDims.WF S10000x128 S10000x8x1 S10000x8x128 [2] [0] [] [0] [] 2 ![1, 128]
  dot_S2000x128_S128x128_S2000x128_1_0_0_1_n_n_wf : DotDims.WF S2000x128 S128x128 S2000x128 [1] [0] [0] [1] [] []
  gather_S10000x128_S1024x1_S1024x128_1_0_n_n_0_1_1128_wf : GatherDims.WF S10000x128 S1024x1 S1024x128 [1] [0] [] [0] [] 1 ![1, 128]
  dot_S1024x256_S256x128_S1024x128_1_0_0_1_n_n_wf : DotDims.WF S1024x256 S256x128 S1024x128 [1] [0] [0] [1] [] []
  dot_S1024x128_S128x2_S1024x2_1_0_0_1_n_n_wf : DotDims.WF S1024x128 S128x2 S1024x2 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1000x16x128.size a ≤ S10000x16x128.size a
  hwx0_0 : ∀ i : grid0.Coords, EltTy.bits .bf16 = 32 ∨ (Rect.block (s := S10000x16x128) S1000x16x128.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1000x16x128.size a ≤ S10000x16x128.size a
  hwx0_1 : ∀ i : grid0.Coords, EltTy.bits .bf16 = 32 ∨ (Rect.block (s := S10000x16x128) S1000x16x128.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .bf16 = 32 ∨ (Rect.block (s := S128x128) S128x128.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .bf16 = 32 ∨ (Rect.block (s := S128x128) S128x128.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1000x128.size a ≤ S10000x128.size a
  hwx0_4 : ∀ i : grid0.Coords, EltTy.bits .f32 = 32 ∨ (Rect.block (s := S10000x128) S1000x128.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S10000x128.size a
  hwx1_0 : ∀ i : grid1.Coords, EltTy.bits .bf16 = 32 ∨ (Rect.block (s := S10000x128) S2000x128.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x128.size a ≤ S10000x128.size a
  hwx1_1 : ∀ i : grid1.Coords, EltTy.bits .bf16 = 32 ∨ (Rect.block (s := S10000x128) S2000x128.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .bf16 = 32 ∨ (Rect.block (s := S128x128) S128x128.size (cc1_transform_2 i) (hinb1_2 i)).WholeWords (EltTy.packing .bf16)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .bf16 = 32 ∨ (Rect.block (s := S128x128) S128x128.size (cc1_transform_3 i) (hinb1_3 i)).WholeWords (EltTy.packing .bf16)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S2000x128.size a ≤ S10000x128.size a
  hwx1_4 : ∀ i : grid1.Coords, EltTy.bits .f32 = 32 ∨ (Rect.block (s := S10000x128) S2000x128.size (cc1_transform_4 i) (hinb1_4 i)).WholeWords (EltTy.packing .f32)
  hrank2 : 0 < grid2.rank
  hstage2_0 : ∀ j, (stage2_0 j).IsWhole
  nbuf2_0 : grid2.bufCount reads2_0 true = 1
  hreads2_0 : ∀ i i' : grid2.Coords, (∀ a, reads2_0 a = true → i a = i' a) → cc2_transform_0 i = cc2_transform_0 i'
  hinb2_0 : ∀ (i : grid2.Coords) a, (cc2_transform_0 i a + 1) * S1024x128.size a ≤ S1024x128.size a
  hwx2_0 : ∀ i : grid2.Coords, EltTy.bits .bf16 = 32 ∨ (Rect.block (s := S1024x128) S1024x128.size (cc2_transform_0 i) (hinb2_0 i)).WholeWords (EltTy.packing .bf16)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1024x128.size a ≤ S1024x128.size a
  hwx2_1 : ∀ i : grid2.Coords, EltTy.bits .bf16 = 32 ∨ (Rect.block (s := S1024x128) S1024x128.size (cc2_transform_1 i) (hinb2_1 i)).WholeWords (EltTy.packing .bf16)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S256x128.size a ≤ S256x128.size a
  hwx2_2 : ∀ i : grid2.Coords, EltTy.bits .bf16 = 32 ∨ (Rect.block (s := S256x128) S256x128.size (cc2_transform_2 i) (hinb2_2 i)).WholeWords (EltTy.packing .bf16)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128.size a ≤ S128.size a
  hwx2_3 : ∀ i : grid2.Coords, EltTy.bits .f32 = 32 ∨ (Rect.block (s := S128) S128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S128x2.size a ≤ S128x2.size a
  hwx2_4 : ∀ i : grid2.Coords, EltTy.bits .bf16 = 32 ∨ (Rect.block (s := S128x2) S128x2.size (cc2_transform_4 i) (hinb2_4 i)).WholeWords (EltTy.packing .bf16)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S2.size a ≤ S2.size a
  hwx2_5 : ∀ i : grid2.Coords, EltTy.bits .f32 = 32 ∨ (Rect.block (s := S2) S2.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S1024x2.size a ≤ S1024x2.size a
  hwx2_6 : ∀ i : grid2.Coords, EltTy.bits .f32 = 32 ∨ (Rect.block (s := S1024x2) S1024x2.size (cc2_transform_6 i) (hinb2_6 i)).WholeWords (EltTy.packing .f32)

variable [Facts₀]

def gather_S100000x128_S10000x16x1_S10000x16x128_2_0_n_n_0_2_1128 : GatherDims S100000x128 S10000x16x1 S10000x16x128 where
  offsetDims := [2]
  collapsedSliceDims := [0]
  operandBatchingDims := []
  startIndicesBatchingDims := []
  startIndexMap := [0]
  indexVectorDim := 2
  sliceSizes := ![1, 128]
  wf := gather_S100000x128_S10000x16x1_S10000x16x128_2_0_n_n_0_2_1128_wf
def gather_S100000x128_S10000x16x8x1_S10000x16x8x128_3_0_n_n_0_3_1128 : GatherDims S100000x128 S10000x16x8x1 S10000x16x8x128 where
  offsetDims := [3]
  collapsedSliceDims := [0]
  operandBatchingDims := []
  startIndicesBatchingDims := []
  startIndexMap := [0]
  indexVectorDim := 3
  sliceSizes := ![1, 128]
  wf := gather_S100000x128_S10000x16x8x1_S10000x16x8x128_3_0_n_n_0_3_1128_wf
def dot_S1000x128_S128x128_S1000x128_1_0_0_1_n_n : DotDims S1000x128 S128x128 S1000x128 where
  lhsContracting := [1]
  rhsContracting := [0]
  lhsNonContracting := [0]
  rhsNonContracting := [1]
  lhsBatch := []
  rhsBatch := []
  wf := dot_S1000x128_S128x128_S1000x128_1_0_0_1_n_n_wf
def gather_S10000x128_S10000x8x1_S10000x8x128_2_0_n_n_0_2_1128 : GatherDims S10000x128 S10000x8x1 S10000x8x128 where
  offsetDims := [2]
  collapsedSliceDims := [0]
  operandBatchingDims := []
  startIndicesBatchingDims := []
  startIndexMap := [0]
  indexVectorDim := 2
  sliceSizes := ![1, 128]
  wf := gather_S10000x128_S10000x8x1_S10000x8x128_2_0_n_n_0_2_1128_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf
def gather_S10000x128_S1024x1_S1024x128_1_0_n_n_0_1_1128 : GatherDims S10000x128 S1024x1 S1024x128 where
  offsetDims := [1]
  collapsedSliceDims := [0]
  operandBatchingDims := []
  startIndicesBatchingDims := []
  startIndexMap := [0]
  indexVectorDim := 1
  sliceSizes := ![1, 128]
  wf := gather_S10000x128_S1024x1_S1024x128_1_0_n_n_0_1_1128_wf
def dot_S1024x256_S256x128_S1024x128_1_0_0_1_n_n : DotDims S1024x256 S256x128 S1024x128 where
  lhsContracting := [1]
  rhsContracting := [0]
  lhsNonContracting := [0]
  rhsNonContracting := [1]
  lhsBatch := []
  rhsBatch := []
  wf := dot_S1024x256_S256x128_S1024x128_1_0_0_1_n_n_wf
def dot_S1024x128_S128x2_S1024x2_1_0_0_1_n_n : DotDims S1024x128 S128x2 S1024x2 where
  lhsContracting := [1]
  rhsContracting := [0]
  lhsNonContracting := [0]
  rhsNonContracting := [1]
  lhsBatch := []
  rhsBatch := []
  wf := dot_S1024x128_S128x2_S1024x2_1_0_0_1_n_n_wf

abbrev win0_0 : Pipeline.Window sig grid0 :=
  Pipeline.Window.ofSpec (Memref.whole main_v7) S1000x16x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v16) S1000x16x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v18) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v20) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v21) S1000x128.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_v31) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v30) S2000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v33) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v35) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v36) S2000x128.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v46) S1024x128.size cc2_transform_0 reads2_0 false true 1 stage2_0 sem2_0
    hrank2 hreads2_0 hinb2_0 nbuf2_0 (Memref.isWhole_whole _) hwx2_0 hstage2_0

abbrev win2_1 : Pipeline.Window sig grid2 :=
  Pipeline.Window.ofSpec (Memref.whole main_v56) S1024x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v58) S256x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_arg10) S128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v60) S128x2.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_arg12) S2.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v61) S1024x2.size cc2_transform_6 reads2_6 true true 1 stage2_6 sem2_6
    hrank2 hreads2_6 hinb2_6 nbuf2_6 (Memref.isWhole_whole _) hwx2_6 hstage2_6

abbrev win2 : Fin 7 → Pipeline.Window sig grid2 := fun | 0 => win2_0 | 1 => win2_1 | 2 => win2_2 | 3 => win2_3 | 4 => win2_4 | 5 => win2_5 | 6 => win2_6 | ⟨_ + 7, h⟩ => absurd h (Nat.not_lt.2 (Nat.le_add_left _ _))
abbrev spec2 : Fin 7 → Pipeline.WinSpec sig grid2.rank := fun w => (win2 w).toWinSpec

class Facts : Prop extends Facts₀ where

variable [Facts]
-- ==== ReferenceIdeal.lean ====
abbrev S1024x2 : Shape := ⟨2, ![1024, 2]⟩
abbrev S10000x16 : Shape := ⟨2, ![10000, 16]⟩
abbrev S10000x16x8 : Shape := ⟨3, ![10000, 16, 8]⟩
abbrev S10000x8 : Shape := ⟨2, ![10000, 8]⟩
abbrev S100000x128 : Shape := ⟨2, ![100000, 128]⟩
abbrev S128x128 : Shape := ⟨2, ![128, 128]⟩
abbrev S128x256 : Shape := ⟨2, ![128, 256]⟩
abbrev S128 : Shape := ⟨1, ![128]⟩
abbrev S2x128 : Shape := ⟨2, ![2, 128]⟩
abbrev S2 : Shape := ⟨1, ![2]⟩
abbrev S_ : Shape := ⟨0, ![]⟩
abbrev S10000x16x1 : Shape := ⟨3, ![10000, 16, 1]⟩
abbrev S10000x16x128 : Shape := ⟨3, ![10000, 16, 128]⟩
abbrev S10000x16x8x1 : Shape := ⟨4, ![10000, 16, 8, 1]⟩
abbrev S10000x16x8x128 : Shape := ⟨4, ![10000, 16, 8, 128]⟩
abbrev S10000x128 : Shape := ⟨2, ![10000, 128]⟩
abbrev S10000 : Shape := ⟨1, ![10000]⟩
abbrev S10000x1 : Shape := ⟨2, ![10000, 1]⟩
abbrev S10000x8x1 : Shape := ⟨3, ![10000, 8, 1]⟩
abbrev S10000x8x128 : Shape := ⟨3, ![10000, 8, 128]⟩
abbrev S1024x1 : Shape := ⟨2, ![1024, 1]⟩
abbrev S1024 : Shape := ⟨1, ![1024]⟩
abbrev S1024x128 : Shape := ⟨2, ![1024, 128]⟩
abbrev S1024x256 : Shape := ⟨2, ![1024, 256]⟩
abbrev S256x128 : Shape := ⟨2, ![256, 128]⟩
abbrev S1x128 : Shape := ⟨2, ![1, 128]⟩
abbrev S128x2 : Shape := ⟨2, ![128, 2]⟩
abbrev S1x2 : Shape := ⟨2, ![1, 2]⟩

abbrev nBuf : Space → Nat
  | .hbm => 135
  | .vmem => 0
  | .smem => 0
  | _ => 0

abbrev hbmTy0_0 (i : Nat) : BufTy := match i % 128 with
  | 0 => ⟨S1024x2, .i32⟩
  | 1 => ⟨S10000x16, .i32⟩
  | 2 => ⟨S10000x16x8, .i32⟩
  | 3 => ⟨S10000x8, .i32⟩
  | 4 => ⟨S100000x128, .f32⟩
  | 5 => ⟨S128x128, .f32⟩
  | 6 => ⟨S128x128, .f32⟩
  | 7 => ⟨S128x128, .f32⟩
  | 8 => ⟨S128x128, .f32⟩
  | 9 => ⟨S128x256, .f32⟩
  | 10 => ⟨S128, .f32⟩
  | 11 => ⟨S2x128, .f32⟩
  | 12 => ⟨S2, .f32⟩
  | 13 => ⟨S_, .i32⟩
  | 14 => ⟨S10000x16, .i32⟩
  | 15 => ⟨S10000x16, .i1⟩
  | 16 => ⟨S_, .i32⟩
  | 17 => ⟨S10000x16, .i32⟩
  | 18 => ⟨S10000x16, .i32⟩
  | 19 => ⟨S10000x16, .i32⟩
  | 20 => ⟨S10000x16x1, .i32⟩
  | 21 => ⟨S10000x16x128, .f32⟩
  | 22 => ⟨S_, .i32⟩
  | 23 => ⟨S10000x16x8, .i32⟩
  | 24 => ⟨S10000x16x8, .i1⟩
  | 25 => ⟨S_, .i32⟩
  | 26 => ⟨S10000x16x8, .i32⟩
  | 27 => ⟨S10000x16x8, .i32⟩
  | 28 => ⟨S10000x16x8, .i32⟩
  | 29 => ⟨S10000x16x8x1, .i32⟩
  | 30 => ⟨S10000x16x8x128, .f32⟩
  | 31 => ⟨S_, .f32⟩
  | 32 => ⟨S10000x16x128, .f32⟩
  | 33 => ⟨S10000x16x128, .f32⟩
  | 34 => ⟨S10000x16x128, .f32⟩
  | 35 => ⟨S10000x16x128, .f32⟩
  | 36 => ⟨S_, .f32⟩
  | 37 => ⟨S10000x16x128, .f32⟩
  | 38 => ⟨S10000x16x128, .f32⟩
  | 39 => ⟨S_, .f32⟩
  | 40 => ⟨S10000x128, .f32⟩
  | 41 => ⟨S_, .f32⟩
  | 42 => ⟨S10000, .f32⟩
  | 43 => ⟨S_, .f32⟩
  | 44 => ⟨S10000, .f32⟩
  | 45 => ⟨S10000, .f32⟩
  | 46 => ⟨S10000x1, .f32⟩
  | 47 => ⟨S10000x128, .f32⟩
  | 48 => ⟨S10000x128, .f32⟩
  | 49 => ⟨S10000x128, .f32⟩
  | 50 => ⟨S_, .f32⟩
  | 51 => ⟨S10000, .f32⟩
  | 52 => ⟨S10000x1, .f32⟩
  | 53 => ⟨S10000x128, .f32⟩
  | 54 => ⟨S10000x128, .f32⟩
  | 55 => ⟨S10000x128, .f32⟩
  | 56 => ⟨S_, .i32⟩
  | 57 => ⟨S10000x8, .i32⟩
  | 58 => ⟨S10000x8, .i1⟩
  | 59 => ⟨S_, .i32⟩
  | 60 => ⟨S10000x8, .i32⟩
  | 61 => ⟨S10000x8, .i32⟩
  | 62 => ⟨S10000x8, .i32⟩
  | 63 => ⟨S10000x8x1, .i32⟩
  | 64 => ⟨S10000x8x128, .f32⟩
  | 65 => ⟨S_, .f32⟩
  | 66 => ⟨S10000x128, .f32⟩
  | 67 => ⟨S10000x128, .f32⟩
  | 68 => ⟨S10000x128, .f32⟩
  | 69 => ⟨S_, .f32⟩
  | 70 => ⟨S10000x128, .f32⟩
  | 71 => ⟨S10000x128, .f32⟩
  | 72 => ⟨S_, .f32⟩
  | 73 => ⟨S10000, .f32⟩
  | 74 => ⟨S_, .f32⟩
  | 75 => ⟨S10000, .f32⟩
  | 76 => ⟨S10000, .f32⟩
  | 77 => ⟨S10000x1, .f32⟩
  | 78 => ⟨S10000x128, .f32⟩
  | 79 => ⟨S10000x128, .f32⟩
  | 80 => ⟨S10000x128, .f32⟩
  | 81 => ⟨S_, .f32⟩
  | 82 => ⟨S10000, .f32⟩
  | 83 => ⟨S10000x1, .f32⟩
  | 84 => ⟨S10000x128, .f32⟩
  | 85 => ⟨S10000x128, .f32⟩
  | 86 => ⟨S1024x1, .i32⟩
  | 87 => ⟨S1024, .i32⟩
  | 88 => ⟨S_, .i32⟩
  | 89 => ⟨S1024, .i32⟩
  | 90 => ⟨S1024, .i1⟩
  | 91 => ⟨S_, .i32⟩
  | 92 => ⟨S1024, .i32⟩
  | 93 => ⟨S1024, .i32⟩
  | 94 => ⟨S1024, .i32⟩
  | 95 => ⟨S1024x1, .i32⟩
  | 96 => ⟨S1024x128, .f32⟩
  | 97 => ⟨S1024x1, .i32⟩
  | 98 => ⟨S1024, .i32⟩
  | 99 => ⟨S_, .i32⟩
  | 100 => ⟨S1024, .i32⟩
  | 101 => ⟨S1024, .i1⟩
  | 102 => ⟨S_, .i32⟩
  | 103 => ⟨S1024, .i32⟩
  | 104 => ⟨S1024, .i32⟩
  | 105 => ⟨S1024, .i32⟩
  | 106 => ⟨S1024x1, .i32⟩
  | 107 => ⟨S1024x128, .f32⟩
  | 108 => ⟨S1024x128, .f32⟩
  | 109 => ⟨S1024x128, .f32⟩
  | 110 => ⟨S1024x256, .f32⟩
  | 111 => ⟨S256x128, .f32⟩
  | 112 => ⟨S1024x128, .f32⟩
  | 113 => ⟨S1x128, .f32⟩
  | 114 => ⟨S1024x128, .f32⟩
  | 115 => ⟨S1024x128, .f32⟩
  | 116 => ⟨S128x2, .f32⟩
  | 117 => ⟨S1024x2, .f32⟩
  | 118 => ⟨S1x2, .f32⟩
  | 119 => ⟨S1024x2, .f32⟩
  | 120 => ⟨S1024x2, .f32⟩
  | 121 => ⟨S_, .f32⟩
  | 122 => ⟨S1024, .f32⟩
  | 123 => ⟨S_, .f32⟩
  | 124 => ⟨S1024, .f32⟩
  | 125 => ⟨S1024, .f32⟩
  | 126 => ⟨S1024x1, .f32⟩
  | 127 => ⟨S1024x2, .f32⟩
  | _ => ⟨S1024x2, .i32⟩

abbrev hbmTy0_1 (i : Nat) : BufTy := match i % 128 with
  | 0 => ⟨S1024x2, .f32⟩
  | 1 => ⟨S1024x2, .f32⟩
  | 2 => ⟨S_, .f32⟩
  | 3 => ⟨S1024, .f32⟩
  | 4 => ⟨S1024x1, .f32⟩
  | 5 => ⟨S1024x2, .f32⟩
  | 6 => ⟨S1024x2, .f32⟩
  | _ => ⟨S1024x2, .i32⟩

abbrev hbmTy (i : Nat) : BufTy := match i / 128 with
  | 0 => hbmTy0_0 i
  | 1 => hbmTy0_1 i
  | _ => ⟨S1024x2, .i32⟩

abbrev bufTy : (tb : Table) → Fin (tcTables nBuf tb) → BufTy
  | .hbm, ⟨i, _⟩ => hbmTy i
  | _, _ => ⟨S1024x2, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_c : Ref sig .tc := ⟨.hbm, 13, rfl⟩
abbrev main_v0 : Ref sig .tc := ⟨.hbm, 14, rfl⟩
abbrev main_v1 : Ref sig .tc := ⟨.hbm, 15, rfl⟩
abbrev main_c_0 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_c_1 : Ref sig .tc := ⟨.hbm, 22, rfl⟩
abbrev main_v7 : Ref sig .tc := ⟨.hbm, 23, rfl⟩
abbrev main_v8 : Ref sig .tc := ⟨.hbm, 24, rfl⟩
abbrev main_c_2 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_cst : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_call0_cst : Ref sig .tc := ⟨.hbm, 36, rfl⟩
abbrev main_call0_v0 : Ref sig .tc := ⟨.hbm, 37, rfl⟩
abbrev main_v18 : Ref sig .tc := ⟨.hbm, 38, rfl⟩
abbrev main_cst_3 : Ref sig .tc := ⟨.hbm, 39, rfl⟩
abbrev main_v19 : Ref sig .tc := ⟨.hbm, 40, rfl⟩
abbrev main_cst_4 : Ref sig .tc := ⟨.hbm, 41, rfl⟩
abbrev main_v20 : Ref sig .tc := ⟨.hbm, 42, rfl⟩
abbrev main_cst_5 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_cst_6 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_c_7 : Ref sig .tc := ⟨.hbm, 56, rfl⟩
abbrev main_v32 : Ref sig .tc := ⟨.hbm, 57, rfl⟩
abbrev main_v33 : Ref sig .tc := ⟨.hbm, 58, rfl⟩
abbrev main_c_8 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_cst_9 : Ref sig .tc := ⟨.hbm, 65, rfl⟩
abbrev main_v39 : Ref sig .tc := ⟨.hbm, 66, rfl⟩
abbrev main_v40 : Ref sig .tc := ⟨.hbm, 67, rfl⟩
abbrev main_v41 : Ref sig .tc := ⟨.hbm, 68, rfl⟩
abbrev main_call1_cst : Ref sig .tc := ⟨.hbm, 69, rfl⟩
abbrev main_call1_v0 : Ref sig .tc := ⟨.hbm, 70, rfl⟩
abbrev main_v42 : Ref sig .tc := ⟨.hbm, 71, rfl⟩
abbrev main_cst_10 : Ref sig .tc := ⟨.hbm, 72, rfl⟩
abbrev main_v43 : Ref sig .tc := ⟨.hbm, 73, rfl⟩
abbrev main_cst_11 : Ref sig .tc := ⟨.hbm, 74, rfl⟩
abbrev main_v44 : Ref sig .tc := ⟨.hbm, 75, rfl⟩
abbrev main_v45 : Ref sig .tc := ⟨.hbm, 76, rfl⟩
abbrev main_v46 : Ref sig .tc := ⟨.hbm, 77, rfl⟩
abbrev main_v47 : Ref sig .tc := ⟨.hbm, 78, rfl⟩
abbrev main_v48 : Ref sig .tc := ⟨.hbm, 79, rfl⟩
abbrev main_v49 : Ref sig .tc := ⟨.hbm, 80, rfl⟩
abbrev main_cst_12 : Ref sig .tc := ⟨.hbm, 81, rfl⟩
abbrev main_v50 : Ref sig .tc := ⟨.hbm, 82, rfl⟩
abbrev main_v51 : Ref sig .tc := ⟨.hbm, 83, rfl⟩
abbrev main_v52 : Ref sig .tc := ⟨.hbm, 84, rfl⟩
abbrev main_v53 : Ref sig .tc := ⟨.hbm, 85, rfl⟩
abbrev main_v54 : Ref sig .tc := ⟨.hbm, 86, rfl⟩
abbrev main_v55 : Ref sig .tc := ⟨.hbm, 87, rfl⟩
abbrev main_c_13 : Ref sig .tc := ⟨.hbm, 88, rfl⟩
abbrev main_v56 : Ref sig .tc := ⟨.hbm, 89, rfl⟩
abbrev main_v57 : Ref sig .tc := ⟨.hbm, 90, rfl⟩
abbrev main_c_14 : Ref sig .tc := ⟨.hbm, 91, rfl⟩
abbrev main_v58 : Ref sig .tc := ⟨.hbm, 92, rfl⟩
abbrev main_v59 : Ref sig .tc := ⟨.hbm, 93, rfl⟩
abbrev main_v60 : Ref sig .tc := ⟨.hbm, 94, rfl⟩
abbrev main_v61 : Ref sig .tc := ⟨.hbm, 95, rfl⟩
abbrev main_v62 : Ref sig .tc := ⟨.hbm, 96, rfl⟩
abbrev main_v63 : Ref sig .tc := ⟨.hbm, 97, rfl⟩
abbrev main_v64 : Ref sig .tc := ⟨.hbm, 98, rfl⟩
abbrev main_c_15 : Ref sig .tc := ⟨.hbm, 99, rfl⟩
abbrev main_v65 : Ref sig .tc := ⟨.hbm, 100, rfl⟩
abbrev main_v66 : Ref sig .tc := ⟨.hbm, 101, rfl⟩
abbrev main_c_16 : Ref sig .tc := ⟨.hbm, 102, rfl⟩
abbrev main_v67 : Ref sig .tc := ⟨.hbm, 103, rfl⟩
abbrev main_v68 : Ref sig .tc := ⟨.hbm, 104, rfl⟩
abbrev main_v69 : Ref sig .tc := ⟨.hbm, 105, rfl⟩
abbrev main_v70 : Ref sig .tc := ⟨.hbm, 106, rfl⟩
abbrev main_v71 : Ref sig .tc := ⟨.hbm, 107, rfl⟩
abbrev main_v72 : Ref sig .tc := ⟨.hbm, 108, rfl⟩
abbrev main_v73 : Ref sig .tc := ⟨.hbm, 109, rfl⟩
abbrev main_v74 : Ref sig .tc := ⟨.hbm, 110, rfl⟩
abbrev main_v75 : Ref sig .tc := ⟨.hbm, 111, rfl⟩
abbrev main_v76 : Ref sig .tc := ⟨.hbm, 112, rfl⟩
abbrev main_v77 : Ref sig .tc := ⟨.hbm, 113, rfl⟩
abbrev main_v78 : Ref sig .tc := ⟨.hbm, 114, rfl⟩
abbrev main_v79 : Ref sig .tc := ⟨.hbm, 115, rfl⟩
abbrev main_v80 : Ref sig .tc := ⟨.hbm, 116, rfl⟩
abbrev main_v81 : Ref sig .tc := ⟨.hbm, 117, rfl⟩
abbrev main_v82 : Ref sig .tc := ⟨.hbm, 118, rfl⟩
abbrev main_v83 : Ref sig .tc := ⟨.hbm, 119, rfl⟩
abbrev main_v84 : Ref sig .tc := ⟨.hbm, 120, rfl⟩
abbrev main_cst_17 : Ref sig .tc := ⟨.hbm, 121, rfl⟩
abbrev main_v85 : Ref sig .tc := ⟨.hbm, 122, rfl⟩
abbrev main_cst_18 : Ref sig .tc := ⟨.hbm, 123, rfl⟩
abbrev main_v86 : Ref sig .tc := ⟨.hbm, 124, rfl⟩
abbrev main_v87 : Ref sig .tc := ⟨.hbm, 125, rfl⟩
abbrev main_v88 : Ref sig .tc := ⟨.hbm, 126, rfl⟩
abbrev main_v89 : Ref sig .tc := ⟨.hbm, 127, rfl⟩
abbrev main_v90 : Ref sig .tc := ⟨.hbm, 128, rfl⟩
abbrev main_v91 : Ref sig .tc := ⟨.hbm, 129, rfl⟩
abbrev main_cst_19 : Ref sig .tc := ⟨.hbm, 130, rfl⟩
abbrev main_v92 : Ref sig .tc := ⟨.hbm, 131, rfl⟩
abbrev main_v93 : Ref sig .tc := ⟨.hbm, 132, rfl⟩
abbrev main_v94 : Ref sig .tc := ⟨.hbm, 133, rfl⟩
abbrev main_v95 : Ref sig .tc := ⟨.hbm, 134, rfl⟩

abbrev nD : Nat := 1
abbrev τ : Topo := Topo.v7x

variable {F : FTy → Type} [FloatOps F]

class Facts₀ : Prop where
  bcast_S_S10000x16 : S_.BroadcastsInDim S10000x16 (![] : Fin 0 → Fin S10000x16.rank)
  bcast_S10000x16_S10000x16x1_0_1 : S10000x16.BroadcastsInDim S10000x16x1 (![0, 1] : Fin 2 → Fin S10000x16x1.rank)
  bcast_S_S10000x16x8 : S_.BroadcastsInDim S10000x16x8 (![] : Fin 0 → Fin S10000x16x8.rank)
  bcast_S10000x16x8_S10000x16x8x1_0_1_2 : S10000x16x8.BroadcastsInDim S10000x16x8x1 (![0, 1, 2] : Fin 3 → Fin S10000x16x8x1.rank)
  reducesTo_S10000x16x8x128_S10000x16x128_d2 : S10000x16x8x128.ReducesTo [2] S10000x16x128
  h_S_ : 0 < S_.numel
  bcast_S_S10000x16x128 : S_.BroadcastsInDim S10000x16x128 (![] : Fin 0 → Fin S10000x16x128.rank)
  reducesTo_S10000x16x128_S10000x128_d1 : S10000x16x128.ReducesTo [1] S10000x128
  reducesTo_S10000x128_S10000_d1 : S10000x128.ReducesTo [1] S10000
  bcast_S_S10000 : S_.BroadcastsInDim S10000 (![] : Fin 0 → Fin S10000.rank)
  bcast_S10000_S10000x1_0 : S10000.BroadcastsInDim S10000x1 (![0] : Fin 1 → Fin S10000x1.rank)
  bcast_S10000x1_S10000x128_0_1 : S10000x1.BroadcastsInDim S10000x128 (![0, 1] : Fin 2 → Fin S10000x128.rank)
  bcast_S_S10000x8 : S_.BroadcastsInDim S10000x8 (![] : Fin 0 → Fin S10000x8.rank)
  bcast_S10000x8_S10000x8x1_0_1 : S10000x8.BroadcastsInDim S10000x8x1 (![0, 1] : Fin 2 → Fin S10000x8x1.rank)
  reducesTo_S10000x8x128_S10000x128_d1 : S10000x8x128.ReducesTo [1] S10000x128
  bcast_S_S10000x128 : S_.BroadcastsInDim S10000x128 (![] : Fin 0 → Fin S10000x128.rank)
  slices_S1024x2_S1024x1_0_0 : S1024x2.Slices ![0, 0] S1024x1
  shapeCasts_S1024x1_S1024 : S1024x1.ShapeCasts S1024
  bcast_S_S1024 : S_.BroadcastsInDim S1024 (![] : Fin 0 → Fin S1024.rank)
  bcast_S1024_S1024x1_0 : S1024.BroadcastsInDim S1024x1 (![0] : Fin 1 → Fin S1024x1.rank)
  slices_S1024x2_S1024x1_0_1 : S1024x2.Slices ![0, 1] S1024x1
  concatenates_S1024x128_S1024x128_S1024x256_d1 : Shape.Concatenates [S1024x128, S1024x128] S1024x256 1
  transposes_S128x256_S256x128_1_0 : S128x256.Transposes [1, 0] S256x128
  bcast_S128_S1x128_1 : S128.BroadcastsInDim S1x128 (![1] : Fin 1 → Fin S1x128.rank)
  bcast_S1x128_S1024x128_0_1 : S1x128.BroadcastsInDim S1024x128 (![0, 1] : Fin 2 → Fin S1024x128.rank)
  transposes_S2x128_S128x2_1_0 : S2x128.Transposes [1, 0] S128x2
  bcast_S2_S1x2_1 : S2.BroadcastsInDim S1x2 (![1] : Fin 1 → Fin S1x2.rank)
  bcast_S1x2_S1024x2_0_1 : S1x2.BroadcastsInDim S1024x2 (![0, 1] : Fin 2 → Fin S1024x2.rank)
  reducesTo_S1024x2_S1024_d1 : S1024x2.ReducesTo [1] S1024
  bcast_S1024x1_S1024x2_0_1 : S1024x1.BroadcastsInDim S1024x2 (![0, 1] : Fin 2 → Fin S1024x2.rank)
  gather_S100000x128_S10000x16x1_S10000x16x128_2_0_n_n_0_2_1128_wf : GatherDims.WF S100000x128 S10000x16x1 S10000x16x128 [2] [0] [] [0] [] 2 ![1, 128]
  gather_S100000x128_S10000x16x8x1_S10000x16x8x128_3_0_n_n_0_3_1128_wf : GatherDims.WF S100000x128 S10000x16x8x1 S10000x16x8x128 [3] [0] [] [0] [] 3 ![1, 128]
  dot_S10000x16x128_S128x128_S10000x16x128_2_1_01_0_n_n_wf : DotDims.WF S10000x16x128 S128x128 S10000x16x128 [2] [1] [0, 1] [0] [] []
  dot_S10000x128_S128x128_S10000x128_1_1_0_0_n_n_wf : DotDims.WF S10000x128 S128x128 S10000x128 [1] [1] [0] [0] [] []
  gather_S10000x128_S10000x8x1_S10000x8x128_2_0_n_n_0_2_1128_wf : GatherDims.WF S10000x128 S10000x8x1 S10000x8x128 [2] [0] [] [0] [] 2 ![1, 128]
  gather_S10000x128_S1024x1_S1024x128_1_0_n_n_0_1_1128_wf : GatherDims.WF S10000x128 S1024x1 S1024x128 [1] [0] [] [0] [] 1 ![1, 128]
  dot_S1024x256_S256x128_S1024x128_1_0_0_1_n_n_wf : DotDims.WF S1024x256 S256x128 S1024x128 [1] [0] [0] [1] [] []
  dot_S1024x128_S128x2_S1024x2_1_0_0_1_n_n_wf : DotDims.WF S1024x128 S128x2 S1024x2 [1] [0] [0] [1] [] []

variable [Facts₀]

def gather_S100000x128_S10000x16x1_S10000x16x128_2_0_n_n_0_2_1128 : GatherDims S100000x128 S10000x16x1 S10000x16x128 where
  offsetDims := [2]
  collapsedSliceDims := [0]
  operandBatchingDims := []
  startIndicesBatchingDims := []
  startIndexMap := [0]
  indexVectorDim := 2
  sliceSizes := ![1, 128]
  wf := gather_S100000x128_S10000x16x1_S10000x16x128_2_0_n_n_0_2_1128_wf
def gather_S100000x128_S10000x16x8x1_S10000x16x8x128_3_0_n_n_0_3_1128 : GatherDims S100000x128 S10000x16x8x1 S10000x16x8x128 where
  offsetDims := [3]
  collapsedSliceDims := [0]
  operandBatchingDims := []
  startIndicesBatchingDims := []
  startIndexMap := [0]
  indexVectorDim := 3
  sliceSizes := ![1, 128]
  wf := gather_S100000x128_S10000x16x8x1_S10000x16x8x128_3_0_n_n_0_3_1128_wf
def dot_S10000x16x128_S128x128_S10000x16x128_2_1_01_0_n_n : DotDims S10000x16x128 S128x128 S10000x16x128 where
  lhsContracting := [2]
  rhsContracting := [1]
  lhsNonContracting := [0, 1]
  rhsNonContracting := [0]
  lhsBatch := []
  rhsBatch := []
  wf := dot_S10000x16x128_S128x128_S10000x16x128_2_1_01_0_n_n_wf
def dot_S10000x128_S128x128_S10000x128_1_1_0_0_n_n : DotDims S10000x128 S128x128 S10000x128 where
  lhsContracting := [1]
  rhsContracting := [1]
  lhsNonContracting := [0]
  rhsNonContracting := [0]
  lhsBatch := []
  rhsBatch := []
  wf := dot_S10000x128_S128x128_S10000x128_1_1_0_0_n_n_wf
def gather_S10000x128_S10000x8x1_S10000x8x128_2_0_n_n_0_2_1128 : GatherDims S10000x128 S10000x8x1 S10000x8x128 where
  offsetDims := [2]
  collapsedSliceDims := [0]
  operandBatchingDims := []
  startIndicesBatchingDims := []
  startIndexMap := [0]
  indexVectorDim := 2
  sliceSizes := ![1, 128]
  wf := gather_S10000x128_S10000x8x1_S10000x8x128_2_0_n_n_0_2_1128_wf
def gather_S10000x128_S1024x1_S1024x128_1_0_n_n_0_1_1128 : GatherDims S10000x128 S1024x1 S1024x128 where
  offsetDims := [1]
  collapsedSliceDims := [0]
  operandBatchingDims := []
  startIndicesBatchingDims := []
  startIndexMap := [0]
  indexVectorDim := 1
  sliceSizes := ![1, 128]
  wf := gather_S10000x128_S1024x1_S1024x128_1_0_n_n_0_1_1128_wf
def dot_S1024x256_S256x128_S1024x128_1_0_0_1_n_n : DotDims S1024x256 S256x128 S1024x128 where
  lhsContracting := [1]
  rhsContracting := [0]
  lhsNonContracting := [0]
  rhsNonContracting := [1]
  lhsBatch := []
  rhsBatch := []
  wf := dot_S1024x256_S256x128_S1024x128_1_0_0_1_n_n_wf
def dot_S1024x128_S128x2_S1024x2_1_0_0_1_n_n : DotDims S1024x128 S128x2 S1024x2 where
  lhsContracting := [1]
  rhsContracting := [0]
  lhsNonContracting := [0]
  rhsNonContracting := [1]
  lhsBatch := []
  rhsBatch := []
  wf := dot_S1024x128_S128x2_S1024x2_1_0_0_1_n_n_wf

class Facts : Prop extends Facts₀ where

variable [Facts]
-- ==== Proof.Spec.lean ====
/-
  The mathematics both programs compute, stated once over the extended reals, index by index.

  A row's softmax is taken the way both programs print it: the row maximum is the fold of `max` from -∞ over the
  row, joined once more with -∞; each entry is then `exp (x d - rowmax) / Σ_d' exp (x d' - rowmax)`.

  Three layers, each a function of whole arrays. Weight matrices enter in right-multiplication layout
  (`Y = X · R`, `R : [in, out]`); `tr` swaps the two axes of a matrix.
    * `intEnc`  : rows n of [N,128]; Σ_k relu (ne[n,k,:]·R + ns[n,k,:]·S), then softmax over the 128 columns.
    * `extEnc`  : rows n of [N,128]; relu (x[n,:]·R + y[n,:]·S), then softmax over the 128 columns.
    * `linkOut` : rows b of [B,2]; (feat[b,:]·R1 + b1)·R2 + b2, then softmax over the 2 columns.
-/
import Idealize.ShloMosaic.PureOps.Ideal
import Idealize.ShloMosaic.Lib.ValueIdx

noncomputable section

namespace Cert.Spec

open Idealize.ShloMosaic Idealize.ShloMosaic.ValueIdx

/-- -∞, as the f32 pattern both programs start their row maximum from. -/
abbrev negInf : EReal := Ideal.ofBits .f32 0xFF800000#32

/-- The row maximum: the fold of `max` from -∞ over the row, joined once more with -∞. -/
def rowMax {n : ℕ} (x : Fin n → EReal) : EReal :=
  max negInf ((Finset.univ : Finset (Fin n)).fold max negInf x)

/-- Softmax of a row, at position `d`. -/
def softmax {n : ℕ} (x : Fin n → EReal) (d : Fin n) : EReal :=
  Ideal.div (Ideal.exp (x d - rowMax x)) (∑ d' : Fin n, Ideal.exp (x d' - rowMax x))

/-- A matrix with its two axes swapped. -/
def tr {a b : ℕ} (X : (⟨2, ![a, b]⟩ : Shape).Idx → EReal) : (⟨2, ![b, a]⟩ : Shape).Idx → EReal :=
  fun i => X (ix2 (i 1) (i 0))

theorem tr_apply {a b : ℕ} (X : (⟨2, ![a, b]⟩ : Shape).Idx → EReal) (p : Fin b) (q : Fin a) :
    tr X (ix2 p q) = X (ix2 q p) := rfl

/-- First layer before its softmax: over the 16 slots k, relu of the two products' sum, added up. -/
def convA {N : ℕ} (ne ns : (⟨3, ![N, 16, 128]⟩ : Shape).Idx → EReal)
    (R S : (⟨2, ![128, 128]⟩ : Shape).Idx → EReal) (n : Fin N) (d : Fin 128) : EReal :=
  ∑ k : Fin 16, max ((∑ e : Fin 128, ne (ix3 n k e) * R (ix2 e d)) + (∑ e : Fin 128, ns (ix3 n k e) * S (ix2 e d))) 0

/-- First layer: softmax over the columns of `convA`. -/
def intEnc {N : ℕ} (ne ns : (⟨3, ![N, 16, 128]⟩ : Shape).Idx → EReal)
    (R S : (⟨2, ![128, 128]⟩ : Shape).Idx → EReal) : (⟨2, ![N, 128]⟩ : Shape).Idx → EReal :=
  fun i => softmax (convA ne ns R S (i 0)) (i 1)

/-- Second layer before its softmax: relu of the two products' sum. -/
def convB {N : ℕ} (x y : (⟨2, ![N, 128]⟩ : Shape).Idx → EReal)
    (R S : (⟨2, ![128, 128]⟩ : Shape).Idx → EReal) (n : Fin N) (d : Fin 128) : EReal :=
  max ((∑ e : Fin 128, x (ix2 n e) * R (ix2 e d)) + (∑ e : Fin 128, y (ix2 n e) * S (ix2 e d))) 0

/-- Second layer: softmax over the columns of `convB`. -/
def extEnc {N : ℕ} (x y : (⟨2, ![N, 128]⟩ : Shape).Idx → EReal)
    (R S : (⟨2, ![128, 128]⟩ : Shape).Idx → EReal) : (⟨2, ![N, 128]⟩ : Shape).Idx → EReal :=
  fun i => softmax (convB x y R S (i 0)) (i 1)

/-- The hidden layer of the link predictor: the 256 features times `R1`, plus the bias. -/
def hidden {B : ℕ} (feat : (⟨2, ![B, 256]⟩ : Shape).Idx → EReal) (R1 : (⟨2, ![256, 128]⟩ : Shape).Idx → EReal)
    (b1 : (⟨1, ![128]⟩ : Shape).Idx → EReal) (b : Fin B) (d : Fin 128) : EReal :=
  (∑ f : Fin 256, feat (ix2 b f) * R1 (ix2 f d)) + b1 (ix1 d)

/-- The two logits: the hidden layer times `R2`, plus the bias. -/
def logits {B : ℕ} (feat : (⟨2, ![B, 256]⟩ : Shape).Idx → EReal) (R1 : (⟨2, ![256, 128]⟩ : Shape).Idx → EReal)
    (b1 : (⟨1, ![128]⟩ : Shape).Idx → EReal) (R2 : (⟨2, ![128, 2]⟩ : Shape).Idx → EReal)
    (b2 : (⟨1, ![2]⟩ : Shape).Idx → EReal) (b : Fin B) (j : Fin 2) : EReal :=
  (∑ d : Fin 128, hidden feat R1 b1 b d * R2 (ix2 d j)) + b2 (ix1 j)

/-- Third layer: softmax over the two logits. -/
def linkOut {B : ℕ} (feat : (⟨2, ![B, 256]⟩ : Shape).Idx → EReal) (R1 : (⟨2, ![256, 128]⟩ : Shape).Idx → EReal)
    (b1 : (⟨1, ![128]⟩ : Shape).Idx → EReal) (R2 : (⟨2, ![128, 2]⟩ : Shape).Idx → EReal)
    (b2 : (⟨1, ![2]⟩ : Shape).Idx → EReal) : (⟨2, ![B, 2]⟩ : Shape).Idx → EReal :=
  fun i => softmax (logits feat R1 b1 R2 b2 (i 0)) (i 1)

end Cert.Spec

end
-- ==== Proof.Glue.lean ====
/-
  The whole computation as ONE function of @main's thirteen arguments, `Glue.out`, which both programs' results are
  shown equal to.

  The pieces that are not arithmetic — the embedding look-ups and the joining of two feature halves — are the host
  operations both programs print word for word; they are carried here as whole-array functions and never opened:
    * `nodeE`     : the table's rows at the (wrapped) node indices,               [10000,16,128]
    * `neighSum`  : the table's rows at the neighbour indices, summed over the 8,  [10000,16,128]
    * `neighExt`  : the first layer's rows at the external neighbours, summed,     [10000,128]
    * `pick0/1`   : the second layer's rows at a pair's first / second node,       [1024,128]
    * `featOf`    : the product and the sum of a pair's rows, joined along the row [1024,256].
  The arithmetic between them is `Spec`'s three layers, the weight matrices entering transposed (`Spec.tr`).
-/
import proofs.«161755_j63118839382588_1_alg».proof.Proof.RefRead
import proofs.«161755_j63118839382588_1_alg».proof.Proof.Spec

noncomputable section

namespace Cert.Glue

open Cert.ReferenceIdeal Cert.ReferenceIdeal.Gen Cert.ReferenceIdeal.ReadP Idealize.ShloMosaic Idealize.ShloMosaic.TcCoe

/-- The embedding table's rows at the node indices. -/
abbrev nodeE (x1 : (⟨S10000x16, .i32⟩ : BufTy).Contents (Elt Ideal)) (x4 : (⟨S100000x128, .f32⟩ : BufTy).Contents (Elt Ideal)) :
    (⟨S10000x16x128, .f32⟩ : BufTy).Contents (Elt Ideal) := val_main_v6 (F := Ideal) x1 x4

/-- The embedding table's rows at the neighbour indices, summed over the eight neighbours. -/
abbrev neighSum (x2 : (⟨S10000x16x8, .i32⟩ : BufTy).Contents (Elt Ideal)) (x4 : (⟨S100000x128, .f32⟩ : BufTy).Contents (Elt Ideal)) :
    (⟨S10000x16x128, .f32⟩ : BufTy).Contents (Elt Ideal) := val_main_v14 (F := Ideal) x2 x4

section HostOps
variable {F : FTy → Type} [FloatOps F]

/-- An encoding's rows at the external neighbours, summed over the eight neighbours. -/
def neighExt (enc : (⟨S10000x128, .f32⟩ : BufTy).Contents (Elt F)) (x3 : (⟨S10000x8, .i32⟩ : BufTy).Contents (Elt F)) :
    (⟨S10000x128, .f32⟩ : BufTy).Contents (Elt F) :=
  Host.reduceAdd (Host.gather gather_S10000x128_S10000x8x1_S10000x8x128_2_0_n_n_0_2_1128 enc (val_main_v37 (F := F) x3))
    (val_main_cst_9 (F := F)) reducesTo_S10000x8x128_S10000x128_d1 h_S_

/-- An encoding's rows at each pair's first node. -/
def pick0 (enc : (⟨S10000x128, .f32⟩ : BufTy).Contents (Elt F)) (x0 : (⟨S1024x2, .i32⟩ : BufTy).Contents (Elt F)) :
    (⟨S1024x128, .f32⟩ : BufTy).Contents (Elt F) :=
  Host.gather gather_S10000x128_S1024x1_S1024x128_1_0_n_n_0_1_1128 enc (val_main_v61 (F := F) x0)

/-- An encoding's rows at each pair's second node. -/
def pick1 (enc : (⟨S10000x128, .f32⟩ : BufTy).Contents (Elt F)) (x0 : (⟨S1024x2, .i32⟩ : BufTy).Contents (Elt F)) :
    (⟨S1024x128, .f32⟩ : BufTy).Contents (Elt F) :=
  Host.gather gather_S10000x128_S1024x1_S1024x128_1_0_n_n_0_1_1128 enc (val_main_v70 (F := F) x0)

/-- A pair's features: the product and the sum of its two rows, joined along the row. -/
def featOf (e1 e2 : (⟨S1024x128, .f32⟩ : BufTy).Contents (Elt F)) : (⟨S1024x256, .f32⟩ : BufTy).Contents (Elt F) :=
  concatenate S1024x256 1 [⟨S1024x128, mulf e1 e2⟩, ⟨S1024x128, addf e1 e2⟩] concatenates_S1024x128_S1024x128_S1024x256_d1

end HostOps

variable (x0 : (⟨S1024x2, .i32⟩ : BufTy).Contents (Elt Ideal)) (x1 : (⟨S10000x16, .i32⟩ : BufTy).Contents (Elt Ideal))
  (x2 : (⟨S10000x16x8, .i32⟩ : BufTy).Contents (Elt Ideal)) (x3 : (⟨S10000x8, .i32⟩ : BufTy).Contents (Elt Ideal))
  (x4 : (⟨S100000x128, .f32⟩ : BufTy).Contents (Elt Ideal)) (x5 x6 x7 x8 : (⟨S128x128, .f32⟩ : BufTy).Contents (Elt Ideal))
  (x9 : (⟨S128x256, .f32⟩ : BufTy).Contents (Elt Ideal)) (x10 : (⟨S128, .f32⟩ : BufTy).Contents (Elt Ideal))
  (x11 : (⟨S2x128, .f32⟩ : BufTy).Contents (Elt Ideal)) (x12 : (⟨S2, .f32⟩ : BufTy).Contents (Elt Ideal))

/-- The first layer's encoding of every node. -/
def ie : (⟨S10000x128, .f32⟩ : BufTy).Contents (Elt Ideal) :=
  Spec.intEnc (N := 10000) (nodeE x1 x4) (neighSum x2 x4) (Spec.tr x5) (Spec.tr x6)

/-- The second layer's encoding of every node. -/
def ee : (⟨S10000x128, .f32⟩ : BufTy).Contents (Elt Ideal) :=
  Spec.extEnc (N := 10000) (ie x1 x2 x4 x5 x6) (neighExt (F := Ideal) (ie x1 x2 x4 x5 x6) x3) (Spec.tr x7) (Spec.tr x8)

/-- The link predictor's two probabilities for every pair. -/
def out : (⟨S1024x2, .f32⟩ : BufTy).Contents (Elt Ideal) :=
  Spec.linkOut (B := 1024) (featOf (F := Ideal) (pick0 (F := Ideal) (ee x1 x2 x3 x4 x5 x6 x7 x8) x0) (pick1 (F := Ideal) (ee x1 x2 x3 x4 x5 x6 x7 x8) x0))
    (Spec.tr x9) x10 (Spec.tr x11) x12

end Cert.Glue

end
-- ==== Proof.LibSoftmax.lean ====
/-
  A row softmax read at an index, in the two spellings a program can print it in, for any row count `R` and
  row length `C`.

  * The vector spelling: the lane maximum from -∞ (`multiReduction .maximumf`), joined once more with a -∞ splat,
    re-laid as a column and broadcast along the row; subtracted; `exp`; the lane sum (`multiReduction .add`),
    re-laid and broadcast the same way; the quotient.
  * The host spelling's one stage that is not a pointwise operation: `Host.reduce` with `max` over the row.

  Both are `Spec.softmax` / `Spec.rowMax`'s fold of the row `fun d' => x (ix2 r d')`.
-/
import proofs.«161755_j63118839382588_1_alg».proof.Proof.Spec
import Idealize.ShloMosaic.Lib.Pipeline.Value
import Idealize.ShloMosaic.Lib.ValueLayout
import Idealize.ShloMosaic.PureOps.Ideal.Laws

noncomputable section

namespace Cert.LibSoftmax

open Idealize.ShloMosaic Idealize.ShloMosaic.ValueIdx

variable {R C : ℕ}

/-! ## The two keepdims layout steps read at an index -/

/-- A vector of `a` entries re-laid as a column `[a, 1]` reads, at `(i, u)`, entry `i`: the two row-major positions
    are `i` and `i * 1 + u` with `u = 0`. -/
theorem shapeCast_a_a1_apply {a : ℕ} {α : Type} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast along the rows to `[a, b]` reads, at `(p, c)`, the column's entry `p`. -/
theorem broadcastTo_a1_ab_apply {a b : ℕ} {α : Type} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The column made from a vector and broadcast along the rows reads, at `(p, c)`, the vector's entry `p`. -/
theorem column_broadcast_apply {a b : ℕ} {α : Type} (x : (⟨1, ![a]⟩ : Shape).Idx → α)
    (hsc : (⟨1, ![a]⟩ : Shape).ShapeCasts ⟨2, ![a, 1]⟩) (hbc : (⟨2, ![a, 1]⟩ : Shape).Broadcasts ⟨2, ![a, b]⟩)
    (p : Fin a) (c : Fin b) :
    broadcastTo ⟨2, ![a, b]⟩ (shapeCast ⟨2, ![a, 1]⟩ x hsc) hbc (ix2 p c) = x (ix1 p) := by
  rw [broadcastTo_a1_ab_apply, shapeCast_a_a1_apply]

/-! ## The reduced index with the lane coordinate put back -/

/-- Over row `r`, the source index with lane coordinate `k` is `(r, k)`. -/
theorem lift_row (hred : (⟨2, ![R, C]⟩ : Shape).Reduces [1] (⟨1, ![R]⟩ : Shape)) (r : Fin R)
    (k : Fin ((⟨2, ![R, C]⟩ : Shape).size 1)) :
    hred.lift (ix1 r) k = ix2 r (⟨k.val, k.isLt⟩ : Fin C) := by
  funext c; apply Fin.ext
  fin_cases c <;> rfl

/-! ## The two lane reductions read at a row -/

/-- The lane maximum from -∞, read at row `r`: the fold of `max` from -∞ over the row. -/
theorem lane_max_apply (x : FVec Ideal (⟨2, ![R, C]⟩ : Shape) .f32)
    (hred : (⟨2, ![R, C]⟩ : Shape).Reduces [1] (⟨1, ![R]⟩ : Shape))
    (hφ : FKind.Formats .f32) (hmax : (0xFF800000#32 : BitVec 32) = FKind.maximumf.neutral .f32 hφ) (r : Fin R) :
    multiReduction .maximumf [1] (⟨1, ![R]⟩ : Shape) x 0xFF800000#32 hred hφ hmax (ix1 r)
      = (Finset.univ : Finset (Fin C)).fold max Spec.negInf (fun d' : Fin C => x (ix2 r d')) := by
  rw [Ideal.multiReduction_maximumf_single]
  have hf : (x ∘ hred.lift (ix1 r)) = fun d' : Fin C => x (ix2 r d') :=
    funext fun k => congrArg x (lift_row hred r k)
  rw [hf]
  rfl

/-- The lane sum, read at row `r`: the sum over the row. -/
theorem lane_sum_apply (y : FVec Ideal (⟨2, ![R, C]⟩ : Shape) .f32)
    (hred : (⟨2, ![R, C]⟩ : Shape).Reduces [1] (⟨1, ![R]⟩ : Shape))
    (hφ : FKind.Formats .f32) (hadd : (0x00000000#32 : BitVec 32) = FKind.add.neutral .f32 hφ) (r : Fin R) :
    multiReduction .add [1] (⟨1, ![R]⟩ : Shape) y 0x00000000#32 hred hφ hadd (ix1 r)
      = ∑ d' : Fin C, y (ix2 r d') := by
  rw [Ideal.multiReduction_add_single]
  exact Finset.sum_congr rfl fun k _ => congrArg y (lift_row hred r k)

/-- The row maximum as the vector spelling takes it (the lane maximum joined once more with the -∞ splat), at row `r`. -/
theorem rowMax_apply (x : FVec Ideal (⟨2, ![R, C]⟩ : Shape) .f32)
    (hred : (⟨2, ![R, C]⟩ : Shape).Reduces [1] (⟨1, ![R]⟩ : Shape))
    (hφ : FKind.Formats .f32) (hmax : (0xFF800000#32 : BitVec 32) = FKind.maximumf.neutral .f32 hφ) (r : Fin R) :
    maximumf (broadcast (⟨1, ![R]⟩ : Shape) (Scalar.ofBits (F := Ideal) .f32 0xFF800000#32))
        (multiReduction .maximumf [1] (⟨1, ![R]⟩ : Shape) x 0xFF800000#32 hred hφ hmax) (ix1 r)
      = Spec.rowMax (fun d' : Fin C => x (ix2 r d')) := by
  rw [maximumf_apply, broadcast_apply, lane_max_apply]
  rfl

/-- `exp` of the entries less a per-row value `m` (re-laid as a column and broadcast along the rows), at `(r, d)`. -/
theorem exp_sub_column_apply (x : FVec Ideal (⟨2, ![R, C]⟩ : Shape) .f32) (m : FVec Ideal (⟨1, ![R]⟩ : Shape) .f32)
    (hsc : (⟨1, ![R]⟩ : Shape).ShapeCasts (⟨2, ![R, 1]⟩ : Shape))
    (hbc : (⟨2, ![R, 1]⟩ : Shape).Broadcasts (⟨2, ![R, C]⟩ : Shape)) (r : Fin R) (d : Fin C) :
    exp (subf x (broadcastTo (⟨2, ![R, C]⟩ : Shape) (shapeCast (⟨2, ![R, 1]⟩ : Shape) m hsc) hbc)) (ix2 r d)
      = Ideal.exp (x (ix2 r d) - m (ix1 r)) := by
  show Ideal.exp (x (ix2 r d)
    - broadcastTo (⟨2, ![R, C]⟩ : Shape) (shapeCast (⟨2, ![R, 1]⟩ : Shape) m hsc) hbc (ix2 r d)) = _
  rw [column_broadcast_apply]

/-- The vector spelling of a row softmax, read at `(r, d)`. -/
theorem kernel_softmax_apply (x : FVec Ideal (⟨2, ![R, C]⟩ : Shape) .f32)
    (hred : (⟨2, ![R, C]⟩ : Shape).Reduces [1] (⟨1, ![R]⟩ : Shape))
    (hφ : FKind.Formats .f32) (hmax : (0xFF800000#32 : BitVec 32) = FKind.maximumf.neutral .f32 hφ)
    (hadd : (0x00000000#32 : BitVec 32) = FKind.add.neutral .f32 hφ)
    (hsc : (⟨1, ![R]⟩ : Shape).ShapeCasts (⟨2, ![R, 1]⟩ : Shape))
    (hbc : (⟨2, ![R, 1]⟩ : Shape).Broadcasts (⟨2, ![R, C]⟩ : Shape))
    (r : Fin R) (d : Fin C) :
    divf
      (exp (subf x (broadcastTo (⟨2, ![R, C]⟩ : Shape) (shapeCast (⟨2, ![R, 1]⟩ : Shape)
        (maximumf (broadcast (⟨1, ![R]⟩ : Shape) (Scalar.ofBits (F := Ideal) .f32 0xFF800000#32))
          (multiReduction .maximumf [1] (⟨1, ![R]⟩ : Shape) x 0xFF800000#32 hred hφ hmax)) hsc) hbc)))
      (broadcastTo (⟨2, ![R, C]⟩ : Shape) (shapeCast (⟨2, ![R, 1]⟩ : Shape)
        (multiReduction .add [1] (⟨1, ![R]⟩ : Shape)
          (exp (subf x (broadcastTo (⟨2, ![R, C]⟩ : Shape) (shapeCast (⟨2, ![R, 1]⟩ : Shape)
            (maximumf (broadcast (⟨1, ![R]⟩ : Shape) (Scalar.ofBits (F := Ideal) .f32 0xFF800000#32))
              (multiReduction .maximumf [1] (⟨1, ![R]⟩ : Shape) x 0xFF800000#32 hred hφ hmax)) hsc) hbc)))
          0x00000000#32 hred hφ hadd) hsc) hbc)
      (ix2 r d)
    = Spec.softmax (fun d' : Fin C => x (ix2 r d')) d := by
  rw [divf_apply, column_broadcast_apply, lane_sum_apply]
  simp only [exp_sub_column_apply]
  rw [rowMax_apply x hred hφ hmax r]
  rfl

/-- The host's `max`-reduce over the row, read at `r`: the fold of `max` from the initial value over the row. -/
theorem host_rowmax_apply (x : (⟨2, ![R, C]⟩ : Shape).Idx → EReal) (init : (⟨0, ![]⟩ : Shape).Idx → EReal)
    (hto : (⟨2, ![R, C]⟩ : Shape).ReducesTo [1] (⟨1, ![R]⟩ : Shape))
    (h0 : 0 < (⟨0, ![]⟩ : Shape).numel) (r : Fin R) :
    Host.reduce (FloatOps.maximumf (F := Ideal) (φ := .f32)) x init hto h0 (ix1 r)
      = (Finset.univ : Finset (Fin C)).fold max (init ix0) (fun d' : Fin C => x (ix2 r d')) := by
  have hred : (⟨2, ![R, C]⟩ : Shape).Reduces [1] (⟨1, ![R]⟩ : Shape) := ⟨hto.1, Nat.one_pos, hto.2⟩
  rw [Host.reduce_eq_fold_single (FloatOps.maximumf (F := Ideal) (φ := .f32)) x init hto hred h0]
  have hf : (x ∘ hred.lift (ix1 r)) = fun d' : Fin C => x (ix2 r d') :=
    funext fun k => congrArg x (lift_row hred r k)
  rw [hf, eq_ix0 (Shape.Idx.first h0)]
  rfl

end Cert.LibSoftmax

end
-- ==== Proof.Body0.lean ====
/-
  The first region's body at one entry of its output block: from a block of 1000 rows of the two [1000,16,128]
  inputs and the two 128×128 matrices it leaves, at row r and column d, the softmax over the row of
  Σ_k relu (x0[r,k,:]·x2 + x1[r,k,:]·x3), the sixteen slots k added up one after the other from zero.
-/
import proofs.«161755_j63118839382588_1_alg».proof.Proof.Gen.KernelIdeal.Frame
import proofs.«161755_j63118839382588_1_alg».proof.Proof.Spec
import proofs.«161755_j63118839382588_1_alg».proof.Proof.LibSoftmax
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Body0

open Cert.KernelIdeal Cert.KernelIdeal.Gen Idealize.ShloMosaic Idealize.ShloMosaic.TcCoe Idealize.ShloMosaic.ValueIdx Idealize.SL.Sem

/-! ## One slot of a [1000,16,128] array -/

/-- Slot `k` of a [1000,16,128] array — the slice [:, k, :], a [1000,1,128] array, re-laid as [1000,128] — read at
    `(r, e)` is the array at `(r, k, e)`: the re-laying keeps the row-major position, `(r·1 + 0)·128 + e = r·128 + e`. -/
theorem slot_apply (k : ℕ) (hk : k < 16) (x : FVec Ideal S1000x16x128 .bf16)
    (hs : S1000x16x128.Slices ![0, k, 0] S1000x1x128) (hc : S1000x1x128.ShapeCasts S1000x128)
    (r : Fin 1000) (e : Fin 128) :
    shapeCast S1000x128 (extractStridedSlice S1000x1x128 ![0, k, 0] x hs) hc (ix2 r e) = x (ix3 r ⟨k, hk⟩ e) := by
  refine (shapeCast_apply _ hc (ix2 r e) (ix3 r (0 : Fin 1) e) ?_).trans ?_
  · rw [Shape.rowMajor_val_three, Shape.rowMajor_val_two]
    show (r.val * 1 + 0) * 128 + e.val = r.val * 128 + e.val
    omega
  · exact slice3_axis1_apply k x hs r (0 : Fin 1) e ⟨k, hk⟩ rfl

/-! ## A product of a [1000,128] block with a 128×128 matrix -/

/-- The left operand's index for output `i` and contraction index `q`: its row is `i`'s row … -/
theorem lhs_axis0 (i : S1000x128.Idx) (q : dot_S1000x128_S128x128_S1000x128_1_0_0_1_n_n.contr.Idx) :
    (dot_S1000x128_S128x128_S1000x128_1_0_0_1_n_n.lhsIdx i q 0).val = (i 0).val := by
  unfold DotDims.lhsIdx
  rw [dif_neg (show ¬(0 : Fin S1000x128.rank) ∈ dot_S1000x128_S128x128_S1000x128_1_0_0_1_n_n.lhsBatch by decide), dif_pos (show (0 : Fin S1000x128.rank) ∈ dot_S1000x128_S128x128_S1000x128_1_0_0_1_n_n.lhsNonContracting by decide)]
  rfl
/-- … and its column is the contraction index. -/
theorem lhs_axis1 (i : S1000x128.Idx) (q : dot_S1000x128_S128x128_S1000x128_1_0_0_1_n_n.contr.Idx) :
    (dot_S1000x128_S128x128_S1000x128_1_0_0_1_n_n.lhsIdx i q 1).val = (q ⟨0, by decide⟩).val :=
  dot_S1000x128_S128x128_S1000x128_1_0_0_1_n_n.lhsIdx_val_of_single rfl i q
/-- The right operand's index: its row is the contraction index … -/
theorem rhs_axis0 (i : S1000x128.Idx) (q : dot_S1000x128_S128x128_S1000x128_1_0_0_1_n_n.contr.Idx) :
    (dot_S1000x128_S128x128_S1000x128_1_0_0_1_n_n.rhsIdx i q 0).val = (q ⟨0, by decide⟩).val :=
  dot_S1000x128_S128x128_S1000x128_1_0_0_1_n_n.rhsIdx_val_of_single rfl i q
/-- … and its column is `i`'s column. -/
theorem rhs_axis1 (i : S1000x128.Idx) (q : dot_S1000x128_S128x128_S1000x128_1_0_0_1_n_n.contr.Idx) :
    (dot_S1000x128_S128x128_S1000x128_1_0_0_1_n_n.rhsIdx i q 1).val = (i 1).val := by
  unfold DotDims.rhsIdx
  rw [dif_neg (show ¬(1 : Fin S128x128.rank) ∈ dot_S1000x128_S128x128_S1000x128_1_0_0_1_n_n.rhsBatch by decide), dif_pos (show (1 : Fin S128x128.rank) ∈ dot_S1000x128_S128x128_S1000x128_1_0_0_1_n_n.rhsNonContracting by decide)]
  rfl

/-- The product into an accumulator, at `(r, d)`: the accumulator there plus the sum over the contracted column
    `e` of `a (r, e) · b (e, d)`. -/
theorem matmul_acc_apply (a : FVec Ideal S1000x128 .bf16) (b : FVec Ideal S128x128 .bf16) (acc : FVec Ideal S1000x128 .f32)
    (r : Fin 1000) (d : Fin 128) :
    matmul dot_S1000x128_S128x128_S1000x128_1_0_0_1_n_n none a b acc (ix2 r d)
      = acc (ix2 r d) + ∑ e : Fin 128, a (ix2 r e) * b (ix2 e d) := by
  simp only [matmul]
  rw [Ideal.matmul_apply, ← Equiv.sum_comp (contrEquiv1 dot_S1000x128_S128x128_S1000x128_1_0_0_1_n_n 128 rfl rfl).symm]
  refine congrArg (acc (ix2 r d) + ·) (Finset.sum_congr rfl fun k _ => ?_)
  have hk := contrEquiv1_symm_val dot_S1000x128_S128x128_S1000x128_1_0_0_1_n_n 128 rfl rfl k
  have el : dot_S1000x128_S128x128_S1000x128_1_0_0_1_n_n.lhsIdx (ix2 r d) ((contrEquiv1 dot_S1000x128_S128x128_S1000x128_1_0_0_1_n_n 128 rfl rfl).symm k) = ix2 r k := funext fun a => Fin.ext (by
    match a with
    | ⟨0, _⟩ => exact lhs_axis0 _ _
    | ⟨1, _⟩ => exact (lhs_axis1 _ _).trans hk)
  have er : dot_S1000x128_S128x128_S1000x128_1_0_0_1_n_n.rhsIdx (ix2 r d) ((contrEquiv1 dot_S1000x128_S128x128_S1000x128_1_0_0_1_n_n 128 rfl rfl).symm k) = ix2 k d := funext fun a => Fin.ext (by
    match a with
    | ⟨0, _⟩ => exact (rhs_axis0 _ _).trans hk
    | ⟨1, _⟩ => exact rhs_axis1 _ _)
  rw [el, er]

/-- The product into the zero splat, at `(r, d)`: just the sum. -/
theorem matmul_zero_apply (a : FVec Ideal S1000x128 .bf16) (b : FVec Ideal S128x128 .bf16) (r : Fin 1000) (d : Fin 128) :
    matmul dot_S1000x128_S128x128_S1000x128_1_0_0_1_n_n none a b (constant S1000x128 .f32 0x00000000#32) (ix2 r d)
      = ∑ e : Fin 128, a (ix2 r e) * b (ix2 e d) := by
  rw [matmul_acc_apply, constant_apply, Ideal.ofBits_zero_f32, zero_add]

/-! ## One slot's summand -/

/-- The summand of slot `k` at `(r, d)`: relu of the two rows' products with the two matrices, added. -/
def summand (x0 x1 : FVec Ideal S1000x16x128 .bf16) (x2 x3 : FVec Ideal S128x128 .bf16) (r : Fin 1000) (d : Fin 128)
    (k : Fin 16) : EReal :=
  max ((∑ e : Fin 128, x0 (ix3 r k e) * x2 (ix2 e d)) + (∑ e : Fin 128, x1 (ix3 r k e) * x3 (ix2 e d))) 0

/-- The running sum after one more slot, at `(r, d)`: what it was plus the slot's summand. The slot's two slices
    go through the two products into zero, are added, and joined with the zero splat. -/
theorem step_apply (k : ℕ) (hk : k < 16) (acc : FVec Ideal S1000x128 .f32)
    (v1 v3 : FVec Ideal S128x128 .bf16) (v5 v7 : FVec Ideal S1000x16x128 .bf16)
    (hs : S1000x16x128.Slices ![0, k, 0] S1000x1x128) (hc : S1000x1x128.ShapeCasts S1000x128)
    (r : Fin 1000) (d : Fin 128) :
    addf acc (maximumf
        (addf
          (matmul dot_S1000x128_S128x128_S1000x128_1_0_0_1_n_n none
            (shapeCast S1000x128 (extractStridedSlice S1000x1x128 ![0, k, 0] v5 hs) hc) v1
            (constant S1000x128 .f32 0x00000000#32))
          (matmul dot_S1000x128_S128x128_S1000x128_1_0_0_1_n_n none
            (shapeCast S1000x128 (extractStridedSlice S1000x1x128 ![0, k, 0] v7 hs) hc) v3
            (constant S1000x128 .f32 0x00000000#32)))
        (broadcast S1000x128 (Scalar.ofBits (F := Ideal) .f32 0x00000000#32))) (ix2 r d)
      = acc (ix2 r d) + summand v5 v7 v1 v3 r d ⟨k, hk⟩ := by
  rw [addf_apply, maximumf_apply, addf_apply, broadcast_apply, matmul_zero_apply, matmul_zero_apply]
  simp only [slot_apply k hk]
  show _ + max _ (Ideal.ofBits .f32 0x00000000#32) = _
  rw [Ideal.ofBits_zero_f32]
  rfl

/-! ## The running sum after each part of the body -/

/-- A re-laying of a shape onto itself changes nothing: the four loaded blocks enter the arithmetic as they are. -/
theorem pay2_eq (v : Vec Ideal S128x128 .bf16) : k0_pay2 (F := Ideal) v = v := shapeCast_self _ _
theorem pay3_eq (v : Vec Ideal S128x128 .bf16) : k0_pay3 (F := Ideal) v = v := shapeCast_self _ _
theorem pay4_eq (v : Vec Ideal S1000x16x128 .bf16) : k0_pay4 (F := Ideal) v = v := shapeCast_self _ _
theorem pay5_eq (v : Vec Ideal S1000x16x128 .bf16) : k0_pay5 (F := Ideal) v = v := shapeCast_self _ _

/-- After the first part: from the zero splat, slots 0, 1, 2. -/
theorem pay6_apply (v1 v3 : FVec Ideal S128x128 .bf16) (v5 v7 : FVec Ideal S1000x16x128 .bf16) (r : Fin 1000) (d : Fin 128) :
    k0_pay6 (F := Ideal) v1 v3 v5 v7 (ix2 r d)
      = 0 + summand v5 v7 v1 v3 r d ⟨0, by decide⟩ + summand v5 v7 v1 v3 r d ⟨1, by decide⟩ + summand v5 v7 v1 v3 r d ⟨2, by decide⟩ := by
  unfold k0_pay6
  rw [pay2_eq, pay3_eq, pay4_eq, pay5_eq]
  refine (step_apply 2 (by decide) _ v1 v3 v5 v7 _ _ r d).trans (congrArg (· + _) ?_)
  refine (step_apply 1 (by decide) _ v1 v3 v5 v7 _ _ r d).trans (congrArg (· + _) ?_)
  refine (step_apply 0 (by decide) _ v1 v3 v5 v7 _ _ r d).trans (congrArg (· + _) ?_)
  show Ideal.ofBits .f32 0x00000000#32 = 0
  exact Ideal.ofBits_zero_f32

/-- After the second part: slots 3, 4, 5, 6 on top of what the first part left. -/
theorem pay7_apply (v1 v3 : FVec Ideal S128x128 .bf16) (v5 v7 : FVec Ideal S1000x16x128 .bf16) (v38 : FVec Ideal S1000x128 .f32)
    (r : Fin 1000) (d : Fin 128) :
    k0_pay7 (F := Ideal) v1 v3 v5 v7 v38 (ix2 r d)
      = v38 (ix2 r d) + summand v5 v7 v1 v3 r d ⟨3, by decide⟩ + summand v5 v7 v1 v3 r d ⟨4, by decide⟩
          + summand v5 v7 v1 v3 r d ⟨5, by decide⟩ + summand v5 v7 v1 v3 r d ⟨6, by decide⟩ := by
  unfold k0_pay7
  refine (step_apply 6 (by decide) _ v1 v3 v5 v7 _ _ r d).trans (congrArg (· + _) ?_)
  refine (step_apply 5 (by decide) _ v1 v3 v5 v7 _ _ r d).trans (congrArg (· + _) ?_)
  refine (step_apply 4 (by decide) _ v1 v3 v5 v7 _ _ r d).trans (congrArg (· + _) ?_)
  exact step_apply 3 (by decide) _ v1 v3 v5 v7 _ _ r d

/-- After the third part: slot 7, whose two products the second part had already formed, then slots 8 to 11. -/
theorem pay10_apply (v1 v3 : FVec Ideal S128x128 .bf16) (v5 v7 : FVec Ideal S1000x16x128 .bf16) (v78 : FVec Ideal S1000x128 .f32)
    (r : Fin 1000) (d : Fin 128) :
    k0_pay10 (F := Ideal) v1 v3 v5 v7 v78 (k0_pay8 v1 v5) (k0_pay9 v3 v7) (ix2 r d)
      = v78 (ix2 r d) + summand v5 v7 v1 v3 r d ⟨7, by decide⟩ + summand v5 v7 v1 v3 r d ⟨8, by decide⟩
          + summand v5 v7 v1 v3 r d ⟨9, by decide⟩ + summand v5 v7 v1 v3 r d ⟨10, by decide⟩ + summand v5 v7 v1 v3 r d ⟨11, by decide⟩ := by
  unfold k0_pay10 k0_pay8 k0_pay9
  refine (step_apply 11 (by decide) _ v1 v3 v5 v7 _ _ r d).trans (congrArg (· + _) ?_)
  refine (step_apply 10 (by decide) _ v1 v3 v5 v7 _ _ r d).trans (congrArg (· + _) ?_)
  refine (step_apply 9 (by decide) _ v1 v3 v5 v7 _ _ r d).trans (congrArg (· + _) ?_)
  refine (step_apply 8 (by decide) _ v1 v3 v5 v7 _ _ r d).trans (congrArg (· + _) ?_)
  exact step_apply 7 (by decide) _ v1 v3 v5 v7 _ _ r d

/-! ## Sixteen terms added one after the other from zero are the sum over the sixteen slots -/

theorem sum16 {M : Type*} [AddCommMonoid M] (f : Fin 16 → M) :
    0 + f ⟨0, by decide⟩ + f ⟨1, by decide⟩ + f ⟨2, by decide⟩ + f ⟨3, by decide⟩ + f ⟨4, by decide⟩ + f ⟨5, by decide⟩
      + f ⟨6, by decide⟩ + f ⟨7, by decide⟩ + f ⟨8, by decide⟩ + f ⟨9, by decide⟩ + f ⟨10, by decide⟩ + f ⟨11, by decide⟩
      + f ⟨12, by decide⟩ + f ⟨13, by decide⟩ + f ⟨14, by decide⟩ + f ⟨15, by decide⟩ = ∑ k : Fin 16, f k := by
  rw [zero_add, Fin.sum_univ_castSucc, Fin.sum_univ_castSucc, Fin.sum_univ_castSucc, Fin.sum_univ_castSucc,
    Fin.sum_univ_castSucc, Fin.sum_univ_castSucc, Fin.sum_univ_castSucc, Fin.sum_univ_castSucc, Fin.sum_univ_eight]
  rfl

/-! ## The softmax tail and the whole body -/

/-- The last part and the tail: slot 12 (whose first slice the third part had already taken) and slots 13 to 15 on
    top of what the third part left give the pre-softmax block; what is stored is its row softmax. -/
theorem tail_apply (v1 v3 : FVec Ideal S128x128 .bf16) (v5 v7 : FVec Ideal S1000x16x128 .bf16) (v128 : FVec Ideal S1000x128 .f32)
    (r : Fin 1000) (d : Fin 128) :
    k0_pay1 (F := Ideal)
        (k0_pay12 v1 v3 v5 v7 v128 (k0_pay11 v5) (constant S1000x128 .f32 0x00000000#32))
        (k0_pay13 v1 v3 v5 v7 v128 (k0_pay11 v5) (constant S1000x128 .f32 0x00000000#32)) (ix2 r d)
      = Spec.softmax (fun d' : Fin 128 => v128 (ix2 r d') + summand v5 v7 v1 v3 r d' ⟨12, by decide⟩
          + summand v5 v7 v1 v3 r d' ⟨13, by decide⟩ + summand v5 v7 v1 v3 r d' ⟨14, by decide⟩ + summand v5 v7 v1 v3 r d' ⟨15, by decide⟩) d := by
  unfold k0_pay1 k0_pay13 k0_pay12 k0_pay11
  refine (LibSoftmax.kernel_softmax_apply (R := 1000) (C := 128) _ _ _ _ _ _ _ r d).trans ?_
  refine congrArg (Spec.softmax · d) (funext fun d' => ?_)
  refine (step_apply 15 (by decide) _ v1 v3 v5 v7 _ _ r d').trans (congrArg (· + _) ?_)
  refine (step_apply 14 (by decide) _ v1 v3 v5 v7 _ _ r d').trans (congrArg (· + _) ?_)
  refine (step_apply 13 (by decide) _ v1 v3 v5 v7 _ _ r d').trans (congrArg (· + _) ?_)
  exact step_apply 12 (by decide) _ v1 v3 v5 v7 _ _ r d'

/-- The one store's rectangle, and each load's, starts at the origin of its block. -/
theorem offsets2_zero : (![0, 0] : Fin 2 → Nat) = fun _ => 0 := funext fun a => by fin_cases a <;> rfl
theorem offsets3_zero : (![0, 0, 0] : Fin 3 → Nat) = fun _ => 0 := funext fun a => by fin_cases a <;> rfl

/-- What the body leaves in its output block, read at `(r, d)`. -/
theorem out0_4_apply (x0 x1 : Vec Ideal S1000x16x128 .bf16) (x2 x3 : Vec Ideal S128x128 .bf16) (r : Fin 1000) (d : Fin 128) :
    out0_4 (F := Ideal) x0 x1 x2 x3 (ix2 r d) = Spec.intEnc (N := 1000) x0 x1 x2 x3 (ix2 r d) := by
  unfold out0_4
  rw [View.canon_unit_zero offsets2_zero]
  simp only [View.ld_unit_zero (S := S128x128) offsets2_zero, View.ld_unit_zero (S := S1000x16x128) offsets3_zero]
  rw [pay2_eq, pay3_eq, pay4_eq, pay5_eq]
  refine (tail_apply x2 x3 x0 x1 _ r d).trans ?_
  show Spec.softmax _ d = Spec.softmax (Spec.convA x0 x1 x2 x3 r) d
  refine congrArg (Spec.softmax · d) (funext fun d' => ?_)
  rw [pay10_apply, pay7_apply, pay6_apply]
  exact sum16 (fun k => summand x0 x1 x2 x3 r d' k)

end Cert.KernelIdeal.Body0

end
-- ==== Proof.Region0.lean ====
/-
  The first region's output array after the region: its ten blocks of 1000 rows are each written once, block t by grid
  point t, and every entry of block t is the first layer's formula of block t of the inputs; so the whole array is the
  first layer applied to the whole input arrays as the region found them.
-/
import proofs.«161755_j63118839382588_1_alg».proof.Proof.Gen.KernelIdeal.Frame
import proofs.«161755_j63118839382588_1_alg».proof.Proof.Spec
import proofs.«161755_j63118839382588_1_alg».proof.Proof.Body0
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Region0

open Cert.KernelIdeal Cert.KernelIdeal.Gen Idealize.ShloMosaic Idealize.ShloMosaic.TcCoe Idealize.ShloMosaic.ValueIdx Idealize.SL.Sem

section Blocks

variable (V : (c : Dev nD) → (b : Ref sig .tc) → Buf (Elt Ideal) ((c : Thread nD τ).loc b))

/-- The two [10000,16,128] arrays and the two 128×128 matrices the region reads, as it finds them. -/
abbrev neArr (c : Dev nD) : Vec Ideal S10000x16x128 .bf16 := V c main_v7
abbrev nsArr (c : Dev nD) : Vec Ideal S10000x16x128 .bf16 := V c main_v16
abbrev matR (c : Dev nD) : Vec Ideal S128x128 .bf16 := V c main_v18
abbrev matS (c : Dev nD) : Vec Ideal S128x128 .bf16 := V c main_v20

/-- Their blocks at grid point `t`: 1000 rows of each array, and each matrix whole. -/
abbrev neBlk (c : Dev nD) (t : Fin cfg0.N) : Vec Ideal S1000x16x128 .bf16 := iblk0 (F := Ideal) V c 0 t
abbrev nsBlk (c : Dev nD) (t : Fin cfg0.N) : Vec Ideal S1000x16x128 .bf16 := iblk0 (F := Ideal) V c 1 t
abbrev matRBlk (c : Dev nD) (t : Fin cfg0.N) : Vec Ideal S128x128 .bf16 := iblk0 (F := Ideal) V c 2 t
abbrev matSBlk (c : Dev nD) (t : Fin cfg0.N) : Vec Ideal S128x128 .bf16 := iblk0 (F := Ideal) V c 3 t

/-- The first layer of the whole arrays. -/
abbrev encArr (c : Dev nD) : Vec Ideal S10000x128 .f32 :=
  Spec.intEnc (N := 10000) (neArr V c) (nsArr V c) (matR V c) (matS V c)

/-- The index maps over the ten grid points: the two row-blocked inputs and the output sit at block `t` on the row
    axis and at block 0 on the others; the two matrices sit at block (0, 0). -/
theorem idx_facts : ∀ t : Fin cfg0.N,
    win0_0.index t (0 : Fin 3) = t.val ∧ win0_0.index t (1 : Fin 3) = 0 ∧ win0_0.index t (2 : Fin 3) = 0
    ∧ win0_1.index t (0 : Fin 3) = t.val ∧ win0_1.index t (1 : Fin 3) = 0 ∧ win0_1.index t (2 : Fin 3) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0 :=
  (by decide +kernel : ∀ t : Fin grid0.N, _)

/-- Entry `(r, k, e)` of block `t` of the first input is entry `(1000 t + r, k, e)` of the array. -/
theorem neBlk_apply (c : Dev nD) (t : Fin cfg0.N) (r : Fin 1000) (k : Fin 16) (e : Fin 128) (h : 1000 * t.val + r.val < 10000) :
    neBlk V c t (ix3 r k e) = neArr V c (ix3 ⟨1000 * t.val + r.val, h⟩ k e) := by
  obtain ⟨e0, e1, e2, -⟩ := idx_facts t
  unfold neBlk iblk0
  rw [View.read_apply]
  show V c main_v7 (((cfg0.win 0).blk t).view.emb (ix3 r k e)) = V c main_v7 (ix3 ⟨1000 * t.val + r.val, h⟩ k e)
  refine congrArg (V c main_v7) ?_
  funext a; apply Fin.ext
  match a with
  | ⟨0, _⟩ => show win0_0.index t (0 : Fin 3) * 1000 + 1 * r.val = 1000 * t.val + r.val; omega
  | ⟨1, _⟩ => show win0_0.index t (1 : Fin 3) * 16 + 1 * k.val = k.val; omega
  | ⟨2, _⟩ => show win0_0.index t (2 : Fin 3) * 128 + 1 * e.val = e.val; omega

/-- Entry `(r, k, e)` of block `t` of the second input is entry `(1000 t + r, k, e)` of the array. -/
theorem nsBlk_apply (c : Dev nD) (t : Fin cfg0.N) (r : Fin 1000) (k : Fin 16) (e : Fin 128) (h : 1000 * t.val + r.val < 10000) :
    nsBlk V c t (ix3 r k e) = nsArr V c (ix3 ⟨1000 * t.val + r.val, h⟩ k e) := by
  obtain ⟨-, -, -, e0, e1, e2, -⟩ := idx_facts t
  unfold nsBlk iblk0
  rw [View.read_apply]
  show V c main_v16 (((cfg0.win 1).blk t).view.emb (ix3 r k e)) = V c main_v16 (ix3 ⟨1000 * t.val + r.val, h⟩ k e)
  refine congrArg (V c main_v16) ?_
  funext a; apply Fin.ext
  match a with
  | ⟨0, _⟩ => show win0_1.index t (0 : Fin 3) * 1000 + 1 * r.val = 1000 * t.val + r.val; omega
  | ⟨1, _⟩ => show win0_1.index t (1 : Fin 3) * 16 + 1 * k.val = k.val; omega
  | ⟨2, _⟩ => show win0_1.index t (2 : Fin 3) * 128 + 1 * e.val = e.val; omega

/-- The first matrix's block at any point is the matrix. -/
theorem matRBlk_apply (c : Dev nD) (t : Fin cfg0.N) (p q : Fin 128) :
    matRBlk V c t (ix2 p q) = matR V c (ix2 p q) := by
  obtain ⟨-, -, -, -, -, -, e0, e1, -⟩ := idx_facts t
  unfold matRBlk iblk0
  rw [View.read_apply]
  show V c main_v18 (((cfg0.win 2).blk t).view.emb (ix2 p q)) = V c main_v18 (ix2 p q)
  refine congrArg (V c main_v18) ?_
  funext a; apply Fin.ext
  match a with
  | ⟨0, _⟩ => show win0_2.index t (0 : Fin 2) * 128 + 1 * p.val = p.val; omega
  | ⟨1, _⟩ => show win0_2.index t (1 : Fin 2) * 128 + 1 * q.val = q.val; omega

/-- The second matrix's block at any point is the matrix. -/
theorem matSBlk_apply (c : Dev nD) (t : Fin cfg0.N) (p q : Fin 128) :
    matSBlk V c t (ix2 p q) = matS V c (ix2 p q) := by
  obtain ⟨-, -, -, -, -, -, -, -, e0, e1, -⟩ := idx_facts t
  unfold matSBlk iblk0
  rw [View.read_apply]
  show V c main_v20 (((cfg0.win 3).blk t).view.emb (ix2 p q)) = V c main_v20 (ix2 p q)
  refine congrArg (V c main_v20) ?_
  funext a; apply Fin.ext
  match a with
  | ⟨0, _⟩ => show win0_3.index t (0 : Fin 2) * 128 + 1 * p.val = p.val; omega
  | ⟨1, _⟩ => show win0_3.index t (1 : Fin 2) * 128 + 1 * q.val = q.val; omega

/-- Row `r` of block `t` is row `1000 t + r` of the arrays, so the layer's row before its softmax is the same row:
    slot by slot the two products run over equal entries. -/
theorem convA_block (c : Dev nD) (t : Fin cfg0.N) (r : Fin 1000) (h : 1000 * t.val + r.val < 10000) :
    Spec.convA (N := 1000) (neBlk V c t) (nsBlk V c t) (matRBlk V c t) (matSBlk V c t) r
      = Spec.convA (N := 10000) (neArr V c) (nsArr V c) (matR V c) (matS V c) ⟨1000 * t.val + r.val, h⟩ := by
  funext d
  unfold Spec.convA
  refine Finset.sum_congr rfl fun k _ => ?_
  refine congrArg (fun z : EReal => max z 0) ?_
  refine congrArg₂ (· + ·) (Finset.sum_congr rfl fun e _ => ?_) (Finset.sum_congr rfl fun e _ => ?_)
  · rw [neBlk_apply V c t r k e h, matRBlk_apply V c t e d]
  · rw [nsBlk_apply V c t r k e h, matSBlk_apply V c t e d]

/-- The first layer of block `t` at `(r, d)` is the first layer of the whole arrays at `(1000 t + r, d)`: the softmax
    of one and the same row. -/
theorem intEnc_block (c : Dev nD) (t : Fin cfg0.N) (r : Fin 1000) (d : Fin 128) (h : 1000 * t.val + r.val < 10000) :
    Spec.intEnc (N := 1000) (neBlk V c t) (nsBlk V c t) (matRBlk V c t) (matSBlk V c t) (ix2 r d)
      = encArr V c (ix2 ⟨1000 * t.val + r.val, h⟩ d) := by
  show Spec.softmax (Spec.convA (N := 1000) (neBlk V c t) (nsBlk V c t) (matRBlk V c t) (matSBlk V c t) r) d
    = Spec.softmax (Spec.convA (N := 10000) (neArr V c) (nsArr V c) (matR V c) (matS V c) ⟨1000 * t.val + r.val, h⟩) d
  rw [convA_block V c t r h]

/-- What point `t` writes back is block `t` of the first layer of the whole arrays. -/
theorem flushed_eq (c : Dev nD) (t : Fin cfg0.N) :
    (dat0 (F := Ideal) V c).flushed 4 t = ((cfg0.win 4).blk t).view.read (Elt Ideal) (encArr V c) := by
  show (cfg0.win 4).cut (grid0.coords t) ((dat0 (F := Ideal) V c).after 4 t) = _
  rw [after0_4]
  obtain ⟨-, -, -, -, -, -, -, -, -, -, e0, e1⟩ := idx_facts t
  have ht : t.val < 10 := t.isLt
  funext y
  obtain ⟨r, d, rfl⟩ : ∃ (r : Fin 1000) (d : Fin 128), y = ix2 r d := ⟨y 0, y 1, eq_ix2 y⟩
  have h : 1000 * t.val + r.val < 10000 := by have := r.isLt; omega
  show out0_4 (F := Ideal) (neBlk V c t) (nsBlk V c t) (matRBlk V c t) (matSBlk V c t) (ix2 r d)
    = encArr V c (((cfg0.win 4).blk t).view.emb (ix2 r d))
  rw [Body0.out0_4_apply, intEnc_block V c t r d h]
  refine congrArg (encArr V c) ?_
  funext a; apply Fin.ext
  match a with
  | ⟨0, _⟩ => show 1000 * t.val + r.val = win0_4.index t (0 : Fin 2) * 1000 + 1 * r.val; omega
  | ⟨1, _⟩ => show d.val = win0_4.index t (1 : Fin 2) * 128 + 1 * d.val; omega

/-- An index of the output array is in point `t`'s block iff each coordinate is in the block's range on its axis. -/
theorem mem_blk (t : Fin cfg0.N) (i : S10000x128.Idx) :
    i ∈ ((cfg0.win 4).blk t).view.set ↔ ∀ a : Fin 2, win0_4.index t a * S1000x128.size a ≤ (i a).val ∧ (i a).val < win0_4.index t a * S1000x128.size a + S1000x128.size a := by
  show i ∈ ((View.whole main_v21).slice (win0_4.rect t)).set ↔ _
  rw [View.set_slice_whole, Rect.mem_set_unit]
  exact Iff.rfl

/-- Row `n` of the output array lies in the block of point `n / 1000`: the ten blocks cover the array. -/
theorem cover (i : S10000x128.Idx) :
    ∃ t : Fin cfg0.N, (cfg0.win 4).flush t = true ∧ i ∈ ((cfg0.win 4).blk t).view.set := by
  have hi0 : (i 0).val < 10000 := (i 0).isLt
  have hi1 : (i 1).val < 128 := (i 1).isLt
  obtain ⟨t, ht⟩ : ∃ t : Fin cfg0.N, t.val = (i 0).val / 1000 :=
    ⟨⟨(i 0).val / 1000, (by omega : (i 0).val / 1000 < 10)⟩, rfl⟩
  obtain ⟨-, -, -, -, -, -, -, -, -, -, e0, e1⟩ := idx_facts t
  refine ⟨t, flush0_4 t, ?_⟩
  rw [mem_blk]
  intro a
  match a with
  | ⟨0, _⟩ => show win0_4.index t (0 : Fin 2) * 1000 ≤ (i 0).val ∧ (i 0).val < win0_4.index t (0 : Fin 2) * 1000 + 1000; omega
  | ⟨1, _⟩ => show win0_4.index t (1 : Fin 2) * 128 ≤ (i 1).val ∧ (i 1).val < win0_4.index t (1 : Fin 2) * 128 + 128; omega

end Blocks

/-- The output array the first region leaves, as one function of the arrays it entered with. -/
theorem arr0_4 (V : (c : Dev nD) → (b : Ref sig .tc) → Buf (Elt Ideal) ((c : Thread nD τ).loc b)) (c : Dev nD) :
    ((dat0 (F := Ideal) V c).arrAt 4 cfg0.N : S10000x128.Idx → EReal)
      = Spec.intEnc (N := 10000) (V c main_v7) (V c main_v16) (V c main_v18) (V c main_v20) :=
  (dat0 (F := Ideal) V c).arrAt_eq_of_cover 4 (encArr V c) (fun t _ => flushed_eq V c t) cover

end Cert.KernelIdeal.Region0

end
-- ==== Proof.Body1.lean ====
/-
  The second region's body at one entry of its output block: from a block of 2000 rows of the two inputs and the
  two 128×128 matrices it leaves, at row r and column d, the softmax over the row of relu (x0[r,:]·x2 + x1[r,:]·x3).
-/
import proofs.«161755_j63118839382588_1_alg».proof.Proof.Gen.KernelIdeal.Frame
import proofs.«161755_j63118839382588_1_alg».proof.Proof.Spec
import proofs.«161755_j63118839382588_1_alg».proof.Proof.LibSoftmax
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Body1

open Cert.KernelIdeal Cert.KernelIdeal.Gen Idealize.ShloMosaic Idealize.ShloMosaic.TcCoe Idealize.ShloMosaic.ValueIdx Idealize.SL.Sem

/-! ## The product's operand indices, axis by axis

A row block times a square matrix contracts the block's column axis with the matrix's row axis: at output index i
and contraction index q the left operand is read at (i 0, q) and the right at (q, i 1). -/

theorem lhs_conv_0 (i : S2000x128.Idx) (q : dot_S2000x128_S128x128_S2000x128_1_0_0_1_n_n.contr.Idx) :
    (dot_S2000x128_S128x128_S2000x128_1_0_0_1_n_n.lhsIdx i q 0).val = (i 0).val := by
  unfold DotDims.lhsIdx
  rw [dif_neg (show ¬(0 : Fin S2000x128.rank) ∈ dot_S2000x128_S128x128_S2000x128_1_0_0_1_n_n.lhsBatch by decide), dif_pos (show (0 : Fin S2000x128.rank) ∈ dot_S2000x128_S128x128_S2000x128_1_0_0_1_n_n.lhsNonContracting by decide)]
  rfl
theorem lhs_conv_1 (i : S2000x128.Idx) (q : dot_S2000x128_S128x128_S2000x128_1_0_0_1_n_n.contr.Idx) :
    (dot_S2000x128_S128x128_S2000x128_1_0_0_1_n_n.lhsIdx i q 1).val = (q ⟨0, by decide⟩).val :=
  dot_S2000x128_S128x128_S2000x128_1_0_0_1_n_n.lhsIdx_val_of_single rfl i q
theorem rhs_conv_0 (i : S2000x128.Idx) (q : dot_S2000x128_S128x128_S2000x128_1_0_0_1_n_n.contr.Idx) :
    (dot_S2000x128_S128x128_S2000x128_1_0_0_1_n_n.rhsIdx i q 0).val = (q ⟨0, by decide⟩).val :=
  dot_S2000x128_S128x128_S2000x128_1_0_0_1_n_n.rhsIdx_val_of_single rfl i q
theorem rhs_conv_1 (i : S2000x128.Idx) (q : dot_S2000x128_S128x128_S2000x128_1_0_0_1_n_n.contr.Idx) :
    (dot_S2000x128_S128x128_S2000x128_1_0_0_1_n_n.rhsIdx i q 1).val = (i 1).val := by
  unfold DotDims.rhsIdx
  rw [dif_neg (show ¬(1 : Fin S128x128.rank) ∈ dot_S2000x128_S128x128_S2000x128_1_0_0_1_n_n.rhsBatch by decide), dif_pos (show (1 : Fin S128x128.rank) ∈ dot_S2000x128_S128x128_S2000x128_1_0_0_1_n_n.rhsNonContracting by decide)]
  rfl

/-- The block product into the zero splat, read at (r, d): the sum over the 128 contracted positions. -/
theorem prod_zero_apply (a : FVec Ideal S2000x128 .bf16) (b : FVec Ideal S128x128 .bf16) (r : Fin 2000) (d : Fin 128) :
    matmul (F := Ideal) dot_S2000x128_S128x128_S2000x128_1_0_0_1_n_n none a b (constant (F := Ideal) S2000x128 .f32 0x00000000#32) (ix2 r d)
      = ∑ e : Fin 128, a (ix2 r e) * b (ix2 e d) := by
  simp only [matmul]
  rw [Ideal.matmul_constant_zero_apply, ← Equiv.sum_comp (contrEquiv1 dot_S2000x128_S128x128_S2000x128_1_0_0_1_n_n 128 rfl rfl).symm]
  refine Finset.sum_congr rfl fun k _ => ?_
  have hk := contrEquiv1_symm_val dot_S2000x128_S128x128_S2000x128_1_0_0_1_n_n 128 rfl rfl k
  have el : dot_S2000x128_S128x128_S2000x128_1_0_0_1_n_n.lhsIdx (ix2 r d) ((contrEquiv1 dot_S2000x128_S128x128_S2000x128_1_0_0_1_n_n 128 rfl rfl).symm k) = ix2 r k := funext fun a => Fin.ext (by
    match a with
    | ⟨0, _⟩ => exact lhs_conv_0 _ _
    | ⟨1, _⟩ => exact (lhs_conv_1 _ _).trans hk)
  have er : dot_S2000x128_S128x128_S2000x128_1_0_0_1_n_n.rhsIdx (ix2 r d) ((contrEquiv1 dot_S2000x128_S128x128_S2000x128_1_0_0_1_n_n 128 rfl rfl).symm k) = ix2 k d := funext fun a => Fin.ext (by
    match a with
    | ⟨0, _⟩ => exact (rhs_conv_0 _ _).trans hk
    | ⟨1, _⟩ => exact rhs_conv_1 _ _)
  rw [el, er]

theorem hz : (![0, 0] : Fin 2 → Nat) = fun _ => 0 := funext fun a => by fin_cases a <;> rfl

/-- The row before its softmax, read at (r, d): relu of the two products' sum. -/
theorem pre_apply (x0 x1 : FVec Ideal S2000x128 .bf16) (x2 x3 : FVec Ideal S128x128 .bf16) (r : Fin 2000) (d : Fin 128) :
    maximumf (F := Ideal)
        (addf
          (matmul (F := Ideal) dot_S2000x128_S128x128_S2000x128_1_0_0_1_n_n none
            (shapeCast S2000x128 x0 shapeCasts_S2000x128_S2000x128)
            (shapeCast S128x128 x2 shapeCasts_S128x128_S128x128) (constant (F := Ideal) S2000x128 .f32 0x00000000#32))
          (matmul (F := Ideal) dot_S2000x128_S128x128_S2000x128_1_0_0_1_n_n none
            (shapeCast S2000x128 x1 shapeCasts_S2000x128_S2000x128)
            (shapeCast S128x128 x3 shapeCasts_S128x128_S128x128) (constant (F := Ideal) S2000x128 .f32 0x00000000#32)))
        (broadcast S2000x128 (Scalar.ofBits (F := Ideal) .f32 0x00000000#32)) (ix2 r d)
      = Spec.convB (N := 2000) x0 x1 x2 x3 r d := by
  rw [shapeCast_self, shapeCast_self, shapeCast_self, shapeCast_self, maximumf_apply, addf_apply, prod_zero_apply,
    prod_zero_apply, broadcast_apply]
  show max _ (Ideal.ofBits .f32 0x00000000#32) = _
  rw [Ideal.ofBits_zero_f32]
  rfl

/-- What the body leaves in its output block, read at (r, d). -/
theorem out1_4_apply (x0 x1 : Vec Ideal S2000x128 .bf16) (x2 x3 : Vec Ideal S128x128 .bf16) (r : Fin 2000) (d : Fin 128) :
    out1_4 (F := Ideal) x0 x1 x2 x3 (ix2 r d) = Spec.extEnc (N := 2000) x0 x1 x2 x3 (ix2 r d) := by
  unfold out1_4
  rw [View.canon_unit_zero hz]
  simp only [View.ld_unit_zero (S := S2000x128) hz, View.ld_unit_zero (S := S128x128) hz]
  unfold k1_pay1
  refine (LibSoftmax.kernel_softmax_apply (R := 2000) (C := 128) _ reduces_S2000x128_S2000 _ _ _
    shapeCasts_S2000_S2000x1 broadcasts_S2000x1_S2000x128 r d).trans ?_
  show Spec.softmax _ d = Spec.softmax (Spec.convB (N := 2000) x0 x1 x2 x3 r) d
  exact congrArg (Spec.softmax · d) (funext fun d' => pre_apply x0 x1 x2 x3 r d')

end Cert.KernelIdeal.Body1

end
-- ==== Proof.Region1.lean ====
/-
  The second region's output array after the region: its five blocks of 2000 rows are each written once, block t by
  grid point t, and every entry of block t is the second layer's formula of block t of the inputs; so the whole array
  is the second layer applied to the whole input arrays as the region found them.
-/
import proofs.«161755_j63118839382588_1_alg».proof.Proof.Gen.KernelIdeal.Frame
import proofs.«161755_j63118839382588_1_alg».proof.Proof.Spec
import proofs.«161755_j63118839382588_1_alg».proof.Proof.Body1
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Region1

open Cert.KernelIdeal Cert.KernelIdeal.Gen Idealize.ShloMosaic Idealize.ShloMosaic.TcCoe Idealize.ShloMosaic.ValueIdx Idealize.SL.Sem

variable (V : (c : Dev nD) → (b : Ref sig .tc) → Buf (Elt Ideal) ((c : Thread nD τ).loc b))

/-! ## The arrays the region enters with, at their literal types -/

/-- The first input, [10000,128]. -/
abbrev featA (c : Dev nD) : Vec Ideal S10000x128 .bf16 := V c main_v31
/-- The second input, [10000,128]. -/
abbrev featB (c : Dev nD) : Vec Ideal S10000x128 .bf16 := V c main_v30
/-- The first 128×128 matrix. -/
abbrev matR (c : Dev nD) : Vec Ideal S128x128 .bf16 := V c main_v33
/-- The second 128×128 matrix. -/
abbrev matS (c : Dev nD) : Vec Ideal S128x128 .bf16 := V c main_v35

/-- The second layer of the whole arrays: what the output array ends holding. -/
abbrev layer (c : Dev nD) : S10000x128.Idx → EReal :=
  Spec.extEnc (N := 10000) (featA V c) (featB V c) (matR V c) (matS V c)

/-! ## Where each window's block sits: the index maps over the five grid points

The two inputs and the output move by row blocks (block t starts at row 2000·t, column block 0); the two matrices
stay at block (0, 0). -/

theorem block_index : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0 :=
  (by decide +kernel : ∀ t : Fin grid1.N, _)

/-! ## The second layer of a row block is the row block of the second layer -/

/-- If a and b are rows 2000·k … 2000·k + 1999 of A and B, the layer of (a, b) at row r is the layer of (A, B) at
    row 2000·k + r: a row of the layer reads only that row of the inputs. -/
theorem layer_of_rows (A B : Vec Ideal S10000x128 .bf16) (R S : Vec Ideal S128x128 .bf16)
    (a b : Vec Ideal S2000x128 .bf16) (R' S' : Vec Ideal S128x128 .bf16) (k : ℕ) (hk : k < 5)
    (ha : ∀ (r : Fin 2000) (e : Fin 128), a (ix2 r e) = A (ix2 (⟨k * 2000 + r.val, by omega⟩ : Fin 10000) e))
    (hb : ∀ (r : Fin 2000) (e : Fin 128), b (ix2 r e) = B (ix2 (⟨k * 2000 + r.val, by omega⟩ : Fin 10000) e))
    (hR : R' = R) (hS : S' = S) (r : Fin 2000) (d : Fin 128) :
    Spec.extEnc (N := 2000) a b R' S' (ix2 r d)
      = Spec.extEnc (N := 10000) A B R S (ix2 (⟨k * 2000 + r.val, by omega⟩ : Fin 10000) d) := by
  subst hR hS
  show Spec.softmax (Spec.convB (N := 2000) a b R' S' r) d
    = Spec.softmax (Spec.convB (N := 10000) A B R' S' (⟨k * 2000 + r.val, by omega⟩ : Fin 10000)) d
  refine congrArg (Spec.softmax · d) (funext fun d' => ?_)
  unfold Spec.convB
  simp only [ha, hb]

/-! ## The input blocks at a grid point, as rows of the arrays -/

/-- Block t of the first input is its rows 2000·t … 2000·t + 1999. -/
theorem rowsA (c : Dev nD) (t : Fin cfg1.N) (ht : t.val < 5) (r : Fin 2000) (e : Fin 128) :
    (iblk1 V c 0 t : Vec Ideal S2000x128 .bf16) (ix2 r e)
      = featA V c (ix2 (⟨t.val * 2000 + r.val, by omega⟩ : Fin 10000) e) := by
  obtain ⟨e0, e1, -⟩ := block_index t
  unfold iblk1
  rw [View.read_apply]
  show V c main_v31 (((cfg1.win 0).blk t).view.emb (ix2 r e)) = V c main_v31 _
  refine congrArg (V c main_v31) (funext fun a => Fin.ext ?_)
  match a with
  | ⟨0, _⟩ => show win1_0.index t (0 : Fin 2) * 2000 + 1 * r.val = t.val * 2000 + r.val; rw [e0]; omega
  | ⟨1, _⟩ => show win1_0.index t (1 : Fin 2) * 128 + 1 * e.val = e.val; rw [e1]; omega

/-- Block t of the second input is its rows 2000·t … 2000·t + 1999. -/
theorem rowsB (c : Dev nD) (t : Fin cfg1.N) (ht : t.val < 5) (r : Fin 2000) (e : Fin 128) :
    (iblk1 V c 1 t : Vec Ideal S2000x128 .bf16) (ix2 r e)
      = featB V c (ix2 (⟨t.val * 2000 + r.val, by omega⟩ : Fin 10000) e) := by
  obtain ⟨-, -, e0, e1, -⟩ := block_index t
  unfold iblk1
  rw [View.read_apply]
  show V c main_v30 (((cfg1.win 1).blk t).view.emb (ix2 r e)) = V c main_v30 _
  refine congrArg (V c main_v30) (funext fun a => Fin.ext ?_)
  match a with
  | ⟨0, _⟩ => show win1_1.index t (0 : Fin 2) * 2000 + 1 * r.val = t.val * 2000 + r.val; rw [e0]; omega
  | ⟨1, _⟩ => show win1_1.index t (1 : Fin 2) * 128 + 1 * e.val = e.val; rw [e1]; omega

/-- The first matrix's one block is the matrix. -/
theorem wholeR (c : Dev nD) (t : Fin cfg1.N) : (iblk1 V c 2 t : Vec Ideal S128x128 .bf16) = matR V c := by
  obtain ⟨-, -, -, -, e0, e1, -⟩ := block_index t
  unfold iblk1
  funext y
  rw [View.read_apply]
  show V c main_v33 (((cfg1.win 2).blk t).view.emb y) = V c main_v33 y
  refine congrArg (V c main_v33) (funext fun a => Fin.ext ?_)
  match a with
  | ⟨0, _⟩ => show win1_2.index t (0 : Fin 2) * 128 + 1 * (y 0).val = (y 0).val; rw [e0]; omega
  | ⟨1, _⟩ => show win1_2.index t (1 : Fin 2) * 128 + 1 * (y 1).val = (y 1).val; rw [e1]; omega

/-- The second matrix's one block is the matrix. -/
theorem wholeS (c : Dev nD) (t : Fin cfg1.N) : (iblk1 V c 3 t : Vec Ideal S128x128 .bf16) = matS V c := by
  obtain ⟨-, -, -, -, -, -, e0, e1, -⟩ := block_index t
  unfold iblk1
  funext y
  rw [View.read_apply]
  show V c main_v35 (((cfg1.win 3).blk t).view.emb y) = V c main_v35 y
  refine congrArg (V c main_v35) (funext fun a => Fin.ext ?_)
  match a with
  | ⟨0, _⟩ => show win1_3.index t (0 : Fin 2) * 128 + 1 * (y 0).val = (y 0).val; rw [e0]; omega
  | ⟨1, _⟩ => show win1_3.index t (1 : Fin 2) * 128 + 1 * (y 1).val = (y 1).val; rw [e1]; omega

/-! ## What a grid point writes back -/

/-- Point t writes back block t of the second layer of the whole arrays. -/
theorem flushed_eq (c : Dev nD) (t : Fin cfg1.N) :
    (dat1 (F := Ideal) V c).flushed 4 t = ((cfg1.win 4).blk t).view.read (Elt Ideal) (layer V c) := by
  have ht : t.val < 5 := by have h := t.isLt; have hN : cfg1.N = 5 := N_1; omega
  obtain ⟨-, -, -, -, -, -, -, -, e0, e1⟩ := block_index t
  show (cfg1.win 4).cut (grid1.coords t) ((dat1 (F := Ideal) V c).after 4 t) = _
  rw [after1_4]
  funext y
  obtain ⟨r, d, rfl⟩ : ∃ (r : Fin 2000) (d : Fin 128), y = ix2 r d := ⟨y 0, y 1, eq_ix2 y⟩
  show out1_4 (F := Ideal) (iblk1 V c 0 t) (iblk1 V c 1 t) (iblk1 V c 2 t) (iblk1 V c 3 t) (ix2 r d) = _
  rw [Body1.out1_4_apply, View.read_apply]
  refine (layer_of_rows (featA V c) (featB V c) (matR V c) (matS V c) (iblk1 V c 0 t) (iblk1 V c 1 t)
    (iblk1 V c 2 t) (iblk1 V c 3 t) t.val ht (rowsA V c t ht) (rowsB V c t ht) (wholeR V c t) (wholeS V c t) r d).trans ?_
  show layer V c _ = layer V c _
  refine congrArg (layer V c) (funext fun a => Fin.ext ?_)
  match a with
  | ⟨0, _⟩ => show t.val * 2000 + r.val = win1_4.index t (0 : Fin 2) * 2000 + 1 * r.val; rw [e0]; omega
  | ⟨1, _⟩ => show d.val = win1_4.index t (1 : Fin 2) * 128 + 1 * d.val; rw [e1]; omega

/-! ## The five blocks cover the array -/

/-- An index of the array is in point t's block iff each coordinate is in the block's range on its axis. -/
theorem mem_blk (t : Fin cfg1.N) (i : S10000x128.Idx) :
    i ∈ ((cfg1.win 4).blk t).view.set ↔ ∀ a : Fin 2, win1_4.index t a * S2000x128.size a ≤ (i a).val
      ∧ (i a).val < win1_4.index t a * S2000x128.size a + S2000x128.size a := by
  show i ∈ ((View.whole main_v36).slice (win1_4.rect t)).set ↔ _
  rw [View.set_slice_whole, Rect.mem_set_unit]
  exact Iff.rfl

/-- Row n lies in the block of point n / 2000. -/
theorem cover (i : S10000x128.Idx) :
    ∃ t : Fin cfg1.N, (cfg1.win 4).flush t = true ∧ i ∈ ((cfg1.win 4).blk t).view.set := by
  have hi0 : (i 0).val < 10000 := (i 0).isLt
  have hi1 : (i 1).val < 128 := (i 1).isLt
  obtain ⟨t, ht⟩ : ∃ t : Fin cfg1.N, t.val = (i 0).val / 2000 :=
    ⟨⟨(i 0).val / 2000, by rw [show cfg1.N = 5 from N_1]; omega⟩, rfl⟩
  obtain ⟨-, -, -, -, -, -, -, -, e0, e1⟩ := block_index t
  refine ⟨t, flush1_4 t, ?_⟩
  rw [mem_blk]
  intro a
  match a with
  | ⟨0, _⟩ =>
    show win1_4.index t (0 : Fin 2) * 2000 ≤ (i 0).val ∧ (i 0).val < win1_4.index t (0 : Fin 2) * 2000 + 2000
    rw [e0, ht]; omega
  | ⟨1, _⟩ =>
    show win1_4.index t (1 : Fin 2) * 128 ≤ (i 1).val ∧ (i 1).val < win1_4.index t (1 : Fin 2) * 128 + 128
    rw [e1]; omega

/-- The output array the second region leaves, as one function of the arrays it entered with. -/
theorem arr1_4 (V : (c : Dev nD) → (b : Ref sig .tc) → Buf (Elt Ideal) ((c : Thread nD τ).loc b)) (c : Dev nD) :
    ((dat1 (F := Ideal) V c).arrAt 4 cfg1.N : S10000x128.Idx → EReal)
      = Spec.extEnc (N := 10000) (V c main_v31) (V c main_v30) (V c main_v33) (V c main_v35) :=
  (dat1 (F := Ideal) V c).arrAt_eq_of_cover 4 (layer V c) (fun t _ => flushed_eq V c t) cover

end Cert.KernelIdeal.Region1

end
-- ==== Proof.Body2.lean ====
/-
  The third region's body at one entry of its output: from the two blocks of 1024 pair rows, the 256×128 and 128×2
  matrices and the two biases it leaves, at pair b and class j, the softmax over the two logits, the 256 features of
  a pair being the product and the sum of its two rows joined along the row.
-/
import proofs.«161755_j63118839382588_1_alg».proof.Proof.Gen.KernelIdeal.Frame
import proofs.«161755_j63118839382588_1_alg».proof.Proof.Spec
import proofs.«161755_j63118839382588_1_alg».proof.Proof.LibSoftmax
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Body2

open Cert.KernelIdeal Cert.KernelIdeal.Gen Idealize.ShloMosaic Idealize.ShloMosaic.TcCoe Idealize.ShloMosaic.ValueIdx Idealize.SL.Sem

/-! ## The whole-block rectangles sit at zero offsets -/

theorem off2_zero : (![0, 0] : Fin 2 → Nat) = fun _ => 0 := funext fun a => by fin_cases a <;> rfl
theorem off1_zero : (![0] : Fin 1 → Nat) = fun _ => 0 := funext fun a => by fin_cases a <;> rfl

/-! ## A bias re-laid as one row and repeated down the rows -/

/-- The 128 hidden biases, as a row repeated over the 1024 pairs, read at `(b, d)`: the bias of column `d`. -/
theorem hiddenBias_apply (v : Vec Ideal S128 .f32) (b : Fin 1024) (d : Fin 128) :
    broadcastTo S1024x128 (shapeCast S1x128 v Facts₀.shapeCasts_S128_S1x128) Facts₀.broadcasts_S1x128_S1024x128 (ix2 b d) = v (ix1 d) :=
  (broadcastTo_1b_ab_apply _ _ b d).trans (shapeCast_a_1a_apply v _ 0 d)

/-- The two logit biases, as a row repeated over the 1024 pairs, read at `(b, j)`: the bias of class `j`. -/
theorem logitBias_apply (v : Vec Ideal S2 .f32) (b : Fin 1024) (j : Fin 2) :
    broadcastTo S1024x2 (shapeCast S1x2 v Facts₀.shapeCasts_S2_S1x2) Facts₀.broadcasts_S1x2_S1024x2 (ix2 b j) = v (ix1 j) :=
  (broadcastTo_1b_ab_apply _ _ b j).trans (shapeCast_a_1a_apply v _ 0 j)

/-! ## The two products: where each operand is read, axis by axis -/

theorem featLhs_0 (i : S1024x128.Idx) (q : dot_S1024x256_S256x128_S1024x128_1_0_0_1_n_n.contr.Idx) :
    (dot_S1024x256_S256x128_S1024x128_1_0_0_1_n_n.lhsIdx i q 0).val = (i 0).val := by
  unfold DotDims.lhsIdx
  rw [dif_neg (show ¬(0 : Fin S1024x256.rank) ∈ dot_S1024x256_S256x128_S1024x128_1_0_0_1_n_n.lhsBatch by decide), dif_pos (show (0 : Fin S1024x256.rank) ∈ dot_S1024x256_S256x128_S1024x128_1_0_0_1_n_n.lhsNonContracting by decide)]
  rfl
theorem featLhs_1 (i : S1024x128.Idx) (q : dot_S1024x256_S256x128_S1024x128_1_0_0_1_n_n.contr.Idx) :
    (dot_S1024x256_S256x128_S1024x128_1_0_0_1_n_n.lhsIdx i q 1).val = (q ⟨0, by decide⟩).val :=
  dot_S1024x256_S256x128_S1024x128_1_0_0_1_n_n.lhsIdx_val_of_single rfl i q
theorem featRhs_0 (i : S1024x128.Idx) (q : dot_S1024x256_S256x128_S1024x128_1_0_0_1_n_n.contr.Idx) :
    (dot_S1024x256_S256x128_S1024x128_1_0_0_1_n_n.rhsIdx i q 0).val = (q ⟨0, by decide⟩).val :=
  dot_S1024x256_S256x128_S1024x128_1_0_0_1_n_n.rhsIdx_val_of_single rfl i q
theorem featRhs_1 (i : S1024x128.Idx) (q : dot_S1024x256_S256x128_S1024x128_1_0_0_1_n_n.contr.Idx) :
    (dot_S1024x256_S256x128_S1024x128_1_0_0_1_n_n.rhsIdx i q 1).val = (i 1).val := by
  unfold DotDims.rhsIdx
  rw [dif_neg (show ¬(1 : Fin S256x128.rank) ∈ dot_S1024x256_S256x128_S1024x128_1_0_0_1_n_n.rhsBatch by decide), dif_pos (show (1 : Fin S256x128.rank) ∈ dot_S1024x256_S256x128_S1024x128_1_0_0_1_n_n.rhsNonContracting by decide)]
  rfl

theorem hidLhs_0 (i : S1024x2.Idx) (q : dot_S1024x128_S128x2_S1024x2_1_0_0_1_n_n.contr.Idx) :
    (dot_S1024x128_S128x2_S1024x2_1_0_0_1_n_n.lhsIdx i q 0).val = (i 0).val := by
  unfold DotDims.lhsIdx
  rw [dif_neg (show ¬(0 : Fin S1024x128.rank) ∈ dot_S1024x128_S128x2_S1024x2_1_0_0_1_n_n.lhsBatch by decide), dif_pos (show (0 : Fin S1024x128.rank) ∈ dot_S1024x128_S128x2_S1024x2_1_0_0_1_n_n.lhsNonContracting by decide)]
  rfl
theorem hidLhs_1 (i : S1024x2.Idx) (q : dot_S1024x128_S128x2_S1024x2_1_0_0_1_n_n.contr.Idx) :
    (dot_S1024x128_S128x2_S1024x2_1_0_0_1_n_n.lhsIdx i q 1).val = (q ⟨0, by decide⟩).val :=
  dot_S1024x128_S128x2_S1024x2_1_0_0_1_n_n.lhsIdx_val_of_single rfl i q
theorem hidRhs_0 (i : S1024x2.Idx) (q : dot_S1024x128_S128x2_S1024x2_1_0_0_1_n_n.contr.Idx) :
    (dot_S1024x128_S128x2_S1024x2_1_0_0_1_n_n.rhsIdx i q 0).val = (q ⟨0, by decide⟩).val :=
  dot_S1024x128_S128x2_S1024x2_1_0_0_1_n_n.rhsIdx_val_of_single rfl i q
theorem hidRhs_1 (i : S1024x2.Idx) (q : dot_S1024x128_S128x2_S1024x2_1_0_0_1_n_n.contr.Idx) :
    (dot_S1024x128_S128x2_S1024x2_1_0_0_1_n_n.rhsIdx i q 1).val = (i 1).val := by
  unfold DotDims.rhsIdx
  rw [dif_neg (show ¬(1 : Fin S128x2.rank) ∈ dot_S1024x128_S128x2_S1024x2_1_0_0_1_n_n.rhsBatch by decide), dif_pos (show (1 : Fin S128x2.rank) ∈ dot_S1024x128_S128x2_S1024x2_1_0_0_1_n_n.rhsNonContracting by decide)]
  rfl

/-- The features times the 256×128 matrix, from zero, at `(b, d)`: the sum over the 256 features. -/
theorem featProd_apply (L : FVec Ideal S1024x256 .bf16) (R : FVec Ideal S256x128 .bf16) (b : Fin 1024) (d : Fin 128) :
    matmul (F := Ideal) dot_S1024x256_S256x128_S1024x128_1_0_0_1_n_n none L R (constant (F := Ideal) S1024x128 .f32 0x00000000#32) (ix2 b d)
      = ∑ f : Fin 256, L (ix2 b f) * R (ix2 f d) := by
  simp only [matmul]
  rw [Ideal.matmul_constant_zero_apply, ← Equiv.sum_comp (ValueIdx.contrEquiv1 dot_S1024x256_S256x128_S1024x128_1_0_0_1_n_n 256 rfl rfl).symm]
  refine Finset.sum_congr rfl fun k _ => ?_
  have hk := ValueIdx.contrEquiv1_symm_val dot_S1024x256_S256x128_S1024x128_1_0_0_1_n_n 256 rfl rfl k
  have el : dot_S1024x256_S256x128_S1024x128_1_0_0_1_n_n.lhsIdx (ix2 b d) ((ValueIdx.contrEquiv1 dot_S1024x256_S256x128_S1024x128_1_0_0_1_n_n 256 rfl rfl).symm k) = ix2 b k := funext fun a => Fin.ext (by
    match a with
    | ⟨0, _⟩ => exact featLhs_0 _ _
    | ⟨1, _⟩ => exact (featLhs_1 _ _).trans hk)
  have er : dot_S1024x256_S256x128_S1024x128_1_0_0_1_n_n.rhsIdx (ix2 b d) ((ValueIdx.contrEquiv1 dot_S1024x256_S256x128_S1024x128_1_0_0_1_n_n 256 rfl rfl).symm k) = ix2 k d := funext fun a => Fin.ext (by
    match a with
    | ⟨0, _⟩ => exact (featRhs_0 _ _).trans hk
    | ⟨1, _⟩ => exact featRhs_1 _ _)
  rw [el, er]

/-- The hidden layer times the 128×2 matrix, from zero, at `(b, j)`: the sum over the 128 hidden units. -/
theorem hidProd_apply (L : FVec Ideal S1024x128 .bf16) (R : FVec Ideal S128x2 .bf16) (b : Fin 1024) (j : Fin 2) :
    matmul (F := Ideal) dot_S1024x128_S128x2_S1024x2_1_0_0_1_n_n none L R (constant (F := Ideal) S1024x2 .f32 0x00000000#32) (ix2 b j)
      = ∑ d : Fin 128, L (ix2 b d) * R (ix2 d j) := by
  simp only [matmul]
  rw [Ideal.matmul_constant_zero_apply, ← Equiv.sum_comp (ValueIdx.contrEquiv1 dot_S1024x128_S128x2_S1024x2_1_0_0_1_n_n 128 rfl rfl).symm]
  refine Finset.sum_congr rfl fun k _ => ?_
  have hk := ValueIdx.contrEquiv1_symm_val dot_S1024x128_S128x2_S1024x2_1_0_0_1_n_n 128 rfl rfl k
  have el : dot_S1024x128_S128x2_S1024x2_1_0_0_1_n_n.lhsIdx (ix2 b j) ((ValueIdx.contrEquiv1 dot_S1024x128_S128x2_S1024x2_1_0_0_1_n_n 128 rfl rfl).symm k) = ix2 b k := funext fun a => Fin.ext (by
    match a with
    | ⟨0, _⟩ => exact hidLhs_0 _ _
    | ⟨1, _⟩ => exact (hidLhs_1 _ _).trans hk)
  have er : dot_S1024x128_S128x2_S1024x2_1_0_0_1_n_n.rhsIdx (ix2 b j) ((ValueIdx.contrEquiv1 dot_S1024x128_S128x2_S1024x2_1_0_0_1_n_n 128 rfl rfl).symm k) = ix2 k j := funext fun a => Fin.ext (by
    match a with
    | ⟨0, _⟩ => exact (hidRhs_0 _ _).trans hk
    | ⟨1, _⟩ => exact hidRhs_1 _ _)
  rw [el, er]

/-! ## The body's features and logits -/

/-- A pair's 256 features as the body joins them (each block first re-laid onto its own shape). -/
abbrev bodyFeat (x0 x1 : Vec Ideal S1024x128 .bf16) : FVec Ideal S1024x256 .bf16 :=
  concatenate S1024x256 1
    [⟨S1024x128, mulf (F := Ideal) (φ := .bf16) (shapeCast S1024x128 x0 Facts₀.shapeCasts_S1024x128_S1024x128) (shapeCast S1024x128 x1 Facts₀.shapeCasts_S1024x128_S1024x128)⟩,
     ⟨S1024x128, addf (F := Ideal) (φ := .bf16) (shapeCast S1024x128 x0 Facts₀.shapeCasts_S1024x128_S1024x128) (shapeCast S1024x128 x1 Facts₀.shapeCasts_S1024x128_S1024x128)⟩]
    Facts₀.concatenates_S1024x128_S1024x128_S1024x256_d1

/-- Re-laying a block onto its own shape changes nothing: the body's features are the product and the sum joined. -/
theorem bodyFeat_eq (x0 x1 : Vec Ideal S1024x128 .bf16) :
    bodyFeat x0 x1 = concatenate S1024x256 1 [⟨S1024x128, mulf (F := Ideal) (φ := .bf16) x0 x1⟩, ⟨S1024x128, addf (F := Ideal) (φ := .bf16) x0 x1⟩]
      Facts₀.concatenates_S1024x128_S1024x128_S1024x256_d1 := by
  show concatenate S1024x256 1 _ _ = _
  rw [shapeCast_self, shapeCast_self]

/-- The two logits of every pair as the body computes them from the joined features: the features times the first
    matrix from zero, plus the hidden bias; that, times the second matrix from zero, plus the logit bias. -/
def bodyLogits (feat : FVec Ideal S1024x256 .bf16) (x2 : FVec Ideal S256x128 .bf16) (x3 : FVec Ideal S128 .f32)
    (x4 : FVec Ideal S128x2 .bf16) (x5 : FVec Ideal S2 .f32) : FVec Ideal S1024x2 .f32 :=
  addf (F := Ideal)
    (matmul (F := Ideal) dot_S1024x128_S128x2_S1024x2_1_0_0_1_n_n none
      (truncf (F := Ideal) .bf16
        (addf (F := Ideal)
          (matmul (F := Ideal) dot_S1024x256_S256x128_S1024x128_1_0_0_1_n_n none feat
            (shapeCast S256x128 x2 Facts₀.shapeCasts_S256x128_S256x128) (constant (F := Ideal) S1024x128 .f32 0x00000000#32))
          (broadcastTo S1024x128 (shapeCast S1x128 x3 Facts₀.shapeCasts_S128_S1x128) Facts₀.broadcasts_S1x128_S1024x128))
        Facts₀.bitsLt_bf16_f32)
      (shapeCast S128x2 x4 Facts₀.shapeCasts_S128x2_S128x2) (constant (F := Ideal) S1024x2 .f32 0x00000000#32))
    (broadcastTo S1024x2 (shapeCast S1x2 x5 Facts₀.shapeCasts_S2_S1x2) Facts₀.broadcasts_S1x2_S1024x2)

/-- The body's logits at `(b, j)` are the specification's. -/
theorem bodyLogits_apply (feat : FVec Ideal S1024x256 .bf16) (x2 : FVec Ideal S256x128 .bf16) (x3 : FVec Ideal S128 .f32)
    (x4 : FVec Ideal S128x2 .bf16) (x5 : FVec Ideal S2 .f32) (b : Fin 1024) (j : Fin 2) :
    bodyLogits feat x2 x3 x4 x5 (ix2 b j) = Spec.logits (B := 1024) feat x2 x3 x4 x5 b j := by
  unfold bodyLogits Spec.logits Spec.hidden
  rw [shapeCast_self, shapeCast_self, addf_apply, hidProd_apply, logitBias_apply]
  refine congrArg (· + x5 (ix1 j)) (Finset.sum_congr rfl fun d _ => ?_)
  rw [truncf_apply, addf_apply, featProd_apply, hiddenBias_apply]

/-- What the body leaves in its output block, read at `(b, j)`. -/
theorem out2_6_apply (x0 x1 : Vec Ideal S1024x128 .bf16) (x2 : Vec Ideal S256x128 .bf16) (x3 : Vec Ideal S128 .f32)
    (x4 : Vec Ideal S128x2 .bf16) (x5 : Vec Ideal S2 .f32) (b : Fin 1024) (j : Fin 2) :
    out2_6 (F := Ideal) x0 x1 x2 x3 x4 x5 (ix2 b j)
      = Spec.linkOut (B := 1024)
          (concatenate S1024x256 1 [⟨S1024x128, mulf (F := Ideal) (φ := .bf16) x0 x1⟩, ⟨S1024x128, addf (F := Ideal) (φ := .bf16) x0 x1⟩]
            Facts₀.concatenates_S1024x128_S1024x128_S1024x256_d1)
          x2 x3 x4 x5 (ix2 b j) := by
  unfold out2_6
  rw [View.canon_unit_zero off2_zero]
  simp only [View.ld_unit_zero (S := S1024x128) off2_zero, View.ld_unit_zero (S := S256x128) off2_zero,
    View.ld_unit_zero (S := S128x2) off2_zero, View.ld_unit_zero (S := S128) off1_zero, View.ld_unit_zero (S := S2) off1_zero]
  -- the payload's last stretch is, word for word, a row softmax of the body's logits
  refine (LibSoftmax.kernel_softmax_apply (R := 1024) (C := 2) (bodyLogits (bodyFeat x0 x1) x2 x3 x4 x5)
    Facts₀.reduces_S1024x2_S1024 _ _ _ Facts₀.shapeCasts_S1024_S1024x1 Facts₀.broadcasts_S1024x1_S1024x2 b j).trans ?_
  show Spec.softmax _ j = Spec.softmax _ j
  refine congrArg (Spec.softmax · j) (funext fun j' => ?_)
  rw [bodyLogits_apply, bodyFeat_eq]

end Cert.KernelIdeal.Body2

end
-- ==== Proof.Region2.lean ====
/-
  The third region's output array after the region: one grid point, one block, the whole array; every entry is the
  third layer's formula of the input arrays as the region found them.
-/
import proofs.«161755_j63118839382588_1_alg».proof.Proof.Gen.KernelIdeal.Frame
import proofs.«161755_j63118839382588_1_alg».proof.Proof.Spec
import proofs.«161755_j63118839382588_1_alg».proof.Proof.Body2
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Region2

open Cert.KernelIdeal Cert.KernelIdeal.Gen Idealize.ShloMosaic Idealize.ShloMosaic.TcCoe Idealize.ShloMosaic.ValueIdx Idealize.SL.Sem

section Blocks

variable (V : (c : Dev nD) → (b : Ref sig .tc) → Buf (Elt Ideal) ((c : Thread nD τ).loc b))

/-! ## The arrays the region enters with, by their literal types -/

/-- The rows of each pair's first node. -/
abbrev firstRows (c : Dev nD) : Vec Ideal S1024x128 .bf16 := V c main_v46
/-- The rows of each pair's second node. -/
abbrev secondRows (c : Dev nD) : Vec Ideal S1024x128 .bf16 := V c main_v56
/-- The 256×128 matrix of the hidden layer. -/
abbrev hiddenMat (c : Dev nD) : Vec Ideal S256x128 .bf16 := V c main_v58
/-- The hidden layer's bias. -/
abbrev hiddenBias (c : Dev nD) : Vec Ideal S128 .f32 := V c main_arg10
/-- The 128×2 matrix of the logits. -/
abbrev logitMat (c : Dev nD) : Vec Ideal S128x2 .bf16 := V c main_v60
/-- The logits' bias. -/
abbrev logitBias (c : Dev nD) : Vec Ideal S2 .f32 := V c main_arg12

/-- The third layer's formula of those arrays: what the output array ends holding. -/
abbrev linkArr (c : Dev nD) : S1024x2.Idx → EReal :=
  Spec.linkOut (B := 1024)
    (concatenate S1024x256 1 [⟨S1024x128, mulf (F := Ideal) (φ := .bf16) (firstRows V c) (secondRows V c)⟩,
        ⟨S1024x128, addf (F := Ideal) (φ := .bf16) (firstRows V c) (secondRows V c)⟩]
      Facts₀.concatenates_S1024x128_S1024x128_S1024x256_d1)
    (hiddenMat V c) (hiddenBias V c) (logitMat V c) (logitBias V c)

/-! ## One grid point: every window's block index is zero on every axis -/

theorem blockIdx_zero : ∀ t : Fin cfg2.N,
    win2_0.index t (0 : Fin 2) = 0 ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 1) = 0
    ∧ win2_4.index t (0 : Fin 2) = 0 ∧ win2_4.index t (1 : Fin 2) = 0
    ∧ win2_5.index t (0 : Fin 1) = 0
    ∧ win2_6.index t (0 : Fin 2) = 0 ∧ win2_6.index t (1 : Fin 2) = 0 :=
  (by decide +kernel : ∀ t : Fin grid2.N, _)

/-! ## Every block read is the array itself -/

theorem firstRows_blk (c : Dev nD) (t : Fin cfg2.N) : (iblk2 V c 0 t : Vec Ideal S1024x128 .bf16) = firstRows V c := by
  obtain ⟨e00, e01, -⟩ := blockIdx_zero t
  funext y
  show V c main_v46 (((cfg2.win 0).blk t).view.emb y) = V c main_v46 y
  refine congrArg (V c main_v46) (funext fun a => Fin.ext ?_)
  match a with
  | ⟨0, _⟩ => show win2_0.index t (0 : Fin 2) * 1024 + 1 * (y 0).val = (y 0).val; omega
  | ⟨1, _⟩ => show win2_0.index t (1 : Fin 2) * 128 + 1 * (y 1).val = (y 1).val; omega

theorem secondRows_blk (c : Dev nD) (t : Fin cfg2.N) : (iblk2 V c 1 t : Vec Ideal S1024x128 .bf16) = secondRows V c := by
  obtain ⟨-, -, e10, e11, -⟩ := blockIdx_zero t
  funext y
  show V c main_v56 (((cfg2.win 1).blk t).view.emb y) = V c main_v56 y
  refine congrArg (V c main_v56) (funext fun a => Fin.ext ?_)
  match a with
  | ⟨0, _⟩ => show win2_1.index t (0 : Fin 2) * 1024 + 1 * (y 0).val = (y 0).val; omega
  | ⟨1, _⟩ => show win2_1.index t (1 : Fin 2) * 128 + 1 * (y 1).val = (y 1).val; omega

theorem hiddenMat_blk (c : Dev nD) (t : Fin cfg2.N) : (iblk2 V c 2 t : Vec Ideal S256x128 .bf16) = hiddenMat V c := by
  obtain ⟨-, -, -, -, e20, e21, -⟩ := blockIdx_zero t
  funext y
  show V c main_v58 (((cfg2.win 2).blk t).view.emb y) = V c main_v58 y
  refine congrArg (V c main_v58) (funext fun a => Fin.ext ?_)
  match a with
  | ⟨0, _⟩ => show win2_2.index t (0 : Fin 2) * 256 + 1 * (y 0).val = (y 0).val; omega
  | ⟨1, _⟩ => show win2_2.index t (1 : Fin 2) * 128 + 1 * (y 1).val = (y 1).val; omega

theorem hiddenBias_blk (c : Dev nD) (t : Fin cfg2.N) : (iblk2 V c 3 t : Vec Ideal S128 .f32) = hiddenBias V c := by
  obtain ⟨-, -, -, -, -, -, e30, -⟩ := blockIdx_zero t
  funext y
  show V c main_arg10 (((cfg2.win 3).blk t).view.emb y) = V c main_arg10 y
  refine congrArg (V c main_arg10) (funext fun a => Fin.ext ?_)
  match a with
  | ⟨0, _⟩ => show win2_3.index t (0 : Fin 1) * 128 + 1 * (y 0).val = (y 0).val; omega

theorem logitMat_blk (c : Dev nD) (t : Fin cfg2.N) : (iblk2 V c 4 t : Vec Ideal S128x2 .bf16) = logitMat V c := by
  obtain ⟨-, -, -, -, -, -, -, e40, e41, -⟩ := blockIdx_zero t
  funext y
  show V c main_v60 (((cfg2.win 4).blk t).view.emb y) = V c main_v60 y
  refine congrArg (V c main_v60) (funext fun a => Fin.ext ?_)
  match a with
  | ⟨0, _⟩ => show win2_4.index t (0 : Fin 2) * 128 + 1 * (y 0).val = (y 0).val; omega
  | ⟨1, _⟩ => show win2_4.index t (1 : Fin 2) * 2 + 1 * (y 1).val = (y 1).val; omega

theorem logitBias_blk (c : Dev nD) (t : Fin cfg2.N) : (iblk2 V c 5 t : Vec Ideal S2 .f32) = logitBias V c := by
  obtain ⟨-, -, -, -, -, -, -, -, -, e50, -⟩ := blockIdx_zero t
  funext y
  show V c main_arg12 (((cfg2.win 5).blk t).view.emb y) = V c main_arg12 y
  refine congrArg (V c main_arg12) (funext fun a => Fin.ext ?_)
  match a with
  | ⟨0, _⟩ => show win2_5.index t (0 : Fin 1) * 2 + 1 * (y 0).val = (y 0).val; omega

/-! ## The body's output block, as a whole function -/

/-- The body's output block is the third layer's formula of its six input blocks. -/
theorem body_eq (x0 x1 : Vec Ideal S1024x128 .bf16) (x2 : Vec Ideal S256x128 .bf16) (x3 : Vec Ideal S128 .f32)
    (x4 : Vec Ideal S128x2 .bf16) (x5 : Vec Ideal S2 .f32) :
    (out2_6 (F := Ideal) x0 x1 x2 x3 x4 x5 : S1024x2.Idx → EReal)
      = Spec.linkOut (B := 1024)
          (concatenate S1024x256 1 [⟨S1024x128, mulf (F := Ideal) (φ := .bf16) x0 x1⟩, ⟨S1024x128, addf (F := Ideal) (φ := .bf16) x0 x1⟩]
            Facts₀.concatenates_S1024x128_S1024x128_S1024x256_d1)
          x2 x3 x4 x5 :=
  funext fun y => by
    obtain ⟨p, q, rfl⟩ : ∃ (p : Fin 1024) (q : Fin 2), y = ix2 p q := ⟨y 0, y 1, eq_ix2 y⟩
    exact Body2.out2_6_apply x0 x1 x2 x3 x4 x5 p q

/-! ## What the one point writes back, and that it covers the array -/

/-- What point `t` writes back is its block of the third layer's formula. -/
theorem flushed_eq (c : Dev nD) (t : Fin cfg2.N) :
    (dat2 (F := Ideal) V c).flushed 6 t = ((cfg2.win 6).blk t).view.read (Elt Ideal) (linkArr V c) := by
  show (cfg2.win 6).cut (grid2.coords t) ((dat2 (F := Ideal) V c).after 6 t) = _
  rw [after2_6, firstRows_blk, secondRows_blk, hiddenMat_blk, hiddenBias_blk, logitMat_blk, logitBias_blk, body_eq]
  obtain ⟨-, -, -, -, -, -, -, -, -, -, e60, e61⟩ := blockIdx_zero t
  funext y
  show linkArr V c y = linkArr V c (((cfg2.win 6).blk t).view.emb y)
  refine congrArg (linkArr V c) (funext fun a => Fin.ext ?_)
  match a with
  | ⟨0, _⟩ => show (y 0).val = win2_6.index t (0 : Fin 2) * 1024 + 1 * (y 0).val; omega
  | ⟨1, _⟩ => show (y 1).val = win2_6.index t (1 : Fin 2) * 2 + 1 * (y 1).val; omega

/-- An index of the output array is in point `t`'s block iff each coordinate is in the block's range on its axis. -/
theorem mem_outBlock (t : Fin cfg2.N) (i : S1024x2.Idx) :
    i ∈ ((cfg2.win 6).blk t).view.set ↔ ∀ a : Fin 2, win2_6.index t a * S1024x2.size a ≤ (i a).val ∧ (i a).val < win2_6.index t a * S1024x2.size a + S1024x2.size a := by
  show i ∈ ((View.whole main_v61).slice (win2_6.rect t)).set ↔ _
  rw [View.set_slice_whole, Rect.mem_set_unit]
  exact Iff.rfl

/-- The one point's block is the whole output array. -/
theorem covered (i : S1024x2.Idx) :
    ∃ t : Fin cfg2.N, (cfg2.win 6).flush t = true ∧ i ∈ ((cfg2.win 6).blk t).view.set := by
  have hN : grid2.N = 1 := N_2
  refine ⟨⟨0, by show 0 < grid2.N; omega⟩, flush2_6 _, ?_⟩
  rw [mem_outBlock]
  obtain ⟨-, -, -, -, -, -, -, -, -, -, e60, e61⟩ := blockIdx_zero ⟨0, by show 0 < grid2.N; omega⟩
  have h0 : (i 0).val < 1024 := (i 0).isLt
  have h1 : (i 1).val < 2 := (i 1).isLt
  intro a
  match a with
  | ⟨0, _⟩ => show win2_6.index _ (0 : Fin 2) * 1024 ≤ (i 0).val ∧ (i 0).val < win2_6.index _ (0 : Fin 2) * 1024 + 1024; omega
  | ⟨1, _⟩ => show win2_6.index _ (1 : Fin 2) * 2 ≤ (i 1).val ∧ (i 1).val < win2_6.index _ (1 : Fin 2) * 2 + 2; omega
end Blocks

/-- The output array the third region leaves, as one function of the arrays it entered with. -/
theorem arr2_6 (V : (c : Dev nD) → (b : Ref sig .tc) → Buf (Elt Ideal) ((c : Thread nD τ).loc b)) (c : Dev nD) :
    ((dat2 (F := Ideal) V c).arrAt 6 cfg2.N : S1024x2.Idx → EReal)
      = Spec.linkOut (B := 1024)
          (concatenate S1024x256 1 [⟨S1024x128, mulf (F := Ideal) (φ := .bf16) (V c main_v46) (V c main_v56)⟩,
              ⟨S1024x128, addf (F := Ideal) (φ := .bf16) (V c main_v46) (V c main_v56)⟩]
            Facts₀.concatenates_S1024x128_S1024x128_S1024x256_d1)
          (V c main_v58) (V c main_arg10) (V c main_v60) (V c main_arg12) := by
  exact (dat2 (F := Ideal) V c).arrAt_eq_of_cover 6 (linkArr V c) (fun t _ => flushed_eq V c t) covered

end Cert.KernelIdeal.Region2

end
-- ==== Proof.KHost0.lean ====
/-
  What the first region finds in its four input arrays: the host operations before it applied to @main's arguments.
  A change of float format is the identity on the extended reals, so the rows looked up in the table are the
  look-ups themselves, and the two transposed weight matrices are the arguments with their axes swapped.
-/
import proofs.«161755_j63118839382588_1_alg».proof.Proof.Gen.KernelIdeal.Frame
import proofs.«161755_j63118839382588_1_alg».proof.Proof.Spec
import proofs.«161755_j63118839382588_1_alg».proof.Proof.Glue
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.KHost

open Cert.KernelIdeal Cert.KernelIdeal.Gen Idealize.ShloMosaic Idealize.ShloMosaic.TcCoe Idealize.ShloMosaic.ValueIdx Idealize.SL.Sem
variable (m : (ℓ : Loc nD τ sig) → Buf (Elt Ideal) ℓ) (ρ : Dev nD → PrngReg)

/-- A 128×128 matrix with its axes swapped by the host's transpose is `Spec.tr` of it: entry (p, q) of the result
    is entry (q, p) of the operand. -/
theorem transpose_128x128 (x : S128x128.Idx → EReal) :
    transpose S128x128 [1, 0] x transposes_S128x128_S128x128_1_0 = Spec.tr x := by
  funext j
  exact transpose_apply [1, 0] x transposes_S128x128_S128x128_1_0 j (ix2 (j 1) (j 0)) (fun b => match b with
    | ⟨0, _⟩ => rfl
    | ⟨1, _⟩ => rfl)

/- The node rows: wrap a negative index by the table's height, look the rows up, change the format. The look-up
   is the reference's own chain of operations on the same two arguments, and the format change is the identity. -/
theorem V1_v7 (c : Dev nD) : (V1 (F := Ideal) m ρ c main_v7 : S10000x16x128.Idx → EReal) = Glue.nodeE (m ((c.tc : Thread nD τ).loc main_arg1)) (m ((c.tc : Thread nD τ).loc main_arg4)) := by
  show StableHlo.after hostOps0 (W0 m ρ c) (Proc.devRef .tc main_v7) = _
  after_results_simp
  rfl

/- The neighbour rows: the same wrap and look-up over the eight neighbours of each slot, summed over the eight
   from zero, then the format change. -/
theorem V1_v16 (c : Dev nD) : (V1 (F := Ideal) m ρ c main_v16 : S10000x16x128.Idx → EReal) = Glue.neighSum (m ((c.tc : Thread nD τ).loc main_arg2)) (m ((c.tc : Thread nD τ).loc main_arg4)) := by
  show StableHlo.after hostOps0 (W0 m ρ c) (Proc.devRef .tc main_v16) = _
  after_results_simp
  rfl

/- The two weight matrices: transposed, then the format change. -/
theorem V1_v18 (c : Dev nD) : (V1 (F := Ideal) m ρ c main_v18 : S128x128.Idx → EReal) = Spec.tr (m ((c.tc : Thread nD τ).loc main_arg5)) := by
  show StableHlo.after hostOps0 (W0 m ρ c) (Proc.devRef .tc main_v18) = _
  after_results_simp
  exact transpose_128x128 _
theorem V1_v20 (c : Dev nD) : (V1 (F := Ideal) m ρ c main_v20 : S128x128.Idx → EReal) = Spec.tr (m ((c.tc : Thread nD τ).loc main_arg6)) := by
  show StableHlo.after hostOps0 (W0 m ρ c) (Proc.devRef .tc main_v20) = _
  after_results_simp
  exact transpose_128x128 _

end Cert.KernelIdeal.KHost

end
-- ==== Proof.KHost1.lean ====
/-
  What the second region finds in its four input arrays: the host operations between the first two regions applied to
  the first region's output array (as that region left it) and to @main's arguments, which nothing has written.
-/
import proofs.«161755_j63118839382588_1_alg».proof.Proof.Gen.KernelIdeal.Frame
import proofs.«161755_j63118839382588_1_alg».proof.Proof.Spec
import proofs.«161755_j63118839382588_1_alg».proof.Proof.Glue
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.KHost

open Cert.KernelIdeal Cert.KernelIdeal.Gen Idealize.ShloMosaic Idealize.ShloMosaic.TcCoe Idealize.ShloMosaic.ValueIdx Idealize.SL.Sem
variable (m : (ℓ : Loc nD τ sig) → Buf (Elt Ideal) ℓ) (ρ : Dev nD → PrngReg)

/- No operation of a stretch writes a given buffer: each operation writes exactly one buffer, and the given one
   differs from every one of them as a reference. -/
local macro "unwritten_by " ops:ident : tactic =>
  `(tactic| (simp only [$ops:ident, List.flatten_cons, List.flatten_nil, List.append_nil, List.cons_append,
              List.nil_append, List.Forall, StableHlo.nullary_writes, StableHlo.unary_writes, StableHlo.binary_writes,
              StableHlo.ternary_writes, StableHlo.quaternary_writes, StableHlo.reshape_writes, StableHlo.binaryIndexed_writes,
              Finset.mem_singleton]
             repeat' apply And.intro
             all_goals exact StableHlo.devRef_ne_of_ne (by decide)))

/-! Three of @main's arguments at the first region's exit: that region's arrays are not among them, and no host
    operation before it writes an argument, so each still holds what the launch memory holds. -/

theorem W2_main_arg3 (c : Dev nD) : W2 (F := Ideal) m ρ c (Proc.devRef .tc main_arg3) = m ((c.tc : Thread nD τ).loc main_arg3) :=
  calc W2 (F := Ideal) m ρ c (Proc.devRef .tc main_arg3)
    _ = W1 m ρ c (Proc.devRef .tc main_arg3) := W2_of_ne m ρ c main_arg3 (by decide)
    _ = W0 m ρ c (Proc.devRef .tc main_arg3) :=
        StableHlo.after_of_forall_not_mem (b := Proc.devRef .tc main_arg3) _ _ (List.forall_iff_forall_mem.mp (by unwritten_by hostOps0))
    _ = m ((c.tc : Thread nD τ).loc main_arg3) := rfl
theorem W2_main_arg7 (c : Dev nD) : W2 (F := Ideal) m ρ c (Proc.devRef .tc main_arg7) = m ((c.tc : Thread nD τ).loc main_arg7) :=
  calc W2 (F := Ideal) m ρ c (Proc.devRef .tc main_arg7)
    _ = W1 m ρ c (Proc.devRef .tc main_arg7) := W2_of_ne m ρ c main_arg7 (by decide)
    _ = W0 m ρ c (Proc.devRef .tc main_arg7) :=
        StableHlo.after_of_forall_not_mem (b := Proc.devRef .tc main_arg7) _ _ (List.forall_iff_forall_mem.mp (by unwritten_by hostOps0))
    _ = m ((c.tc : Thread nD τ).loc main_arg7) := rfl
theorem W2_main_arg8 (c : Dev nD) : W2 (F := Ideal) m ρ c (Proc.devRef .tc main_arg8) = m ((c.tc : Thread nD τ).loc main_arg8) :=
  calc W2 (F := Ideal) m ρ c (Proc.devRef .tc main_arg8)
    _ = W1 m ρ c (Proc.devRef .tc main_arg8) := W2_of_ne m ρ c main_arg8 (by decide)
    _ = W0 m ρ c (Proc.devRef .tc main_arg8) :=
        StableHlo.after_of_forall_not_mem (b := Proc.devRef .tc main_arg8) _ _ (List.forall_iff_forall_mem.mp (by unwritten_by hostOps0))
    _ = m ((c.tc : Thread nD τ).loc main_arg8) := rfl

/-- A 128×128 matrix with its axes swapped by the host's transpose is `Spec.tr` of it: entry (p, q) of the result
    is entry (q, p) of the operand. -/
private theorem transpose_128x128 (x : S128x128.Idx → EReal) :
    transpose S128x128 [1, 0] x transposes_S128x128_S128x128_1_0 = Spec.tr x := by
  funext j
  exact transpose_apply [1, 0] x transposes_S128x128_S128x128_1_0 j (ix2 (j 1) (j 0)) (fun b => match b with
    | ⟨0, _⟩ => rfl
    | ⟨1, _⟩ => rfl)

theorem V3_v31 (c : Dev nD) : (V3 (F := Ideal) m ρ c main_v31 : S10000x128.Idx → EReal) = W2 (F := Ideal) m ρ c (Proc.devRef .tc main_v21) := by
  -- the first region's output, changed in format only
  show StableHlo.after hostOps1 (W2 m ρ c) (Proc.devRef .tc main_v31) = _
  after_results_simp
  rfl
theorem V3_v30 (c : Dev nD) : (V3 (F := Ideal) m ρ c main_v30 : S10000x128.Idx → EReal)
    = Glue.neighExt (F := Ideal) (W2 (F := Ideal) m ρ c (Proc.devRef .tc main_v21)) (m ((c.tc : Thread nD τ).loc main_arg3)) := by
  -- wrap a negative index by the number of nodes, look the rows of the first region's output up, sum the eight from
  -- zero, change the format: the look-up is the reference's own chain of operations on the same operands
  show StableHlo.after hostOps1 (W2 m ρ c) (Proc.devRef .tc main_v30) = _
  after_results_simp
  rw [W2_main_arg3]
  rfl
theorem V3_v33 (c : Dev nD) : (V3 (F := Ideal) m ρ c main_v33 : S128x128.Idx → EReal) = Spec.tr (m ((c.tc : Thread nD τ).loc main_arg7)) := by
  show StableHlo.after hostOps1 (W2 m ρ c) (Proc.devRef .tc main_v33) = _
  after_results_simp
  rw [W2_main_arg7]
  exact transpose_128x128 _
theorem V3_v35 (c : Dev nD) : (V3 (F := Ideal) m ρ c main_v35 : S128x128.Idx → EReal) = Spec.tr (m ((c.tc : Thread nD τ).loc main_arg8)) := by
  show StableHlo.after hostOps1 (W2 m ρ c) (Proc.devRef .tc main_v35) = _
  after_results_simp
  rw [W2_main_arg8]
  exact transpose_128x128 _

end Cert.KernelIdeal.KHost

end
-- ==== Proof.KHost2.lean ====
/-
  What the third region finds in its six input arrays: the host operations between the last two regions applied to
  the second region's output array (as that region left it) and to @main's arguments, which nothing has written.
-/
import proofs.«161755_j63118839382588_1_alg».proof.Proof.Gen.KernelIdeal.Frame
import proofs.«161755_j63118839382588_1_alg».proof.Proof.Spec
import proofs.«161755_j63118839382588_1_alg».proof.Proof.Glue
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.KHost

open Cert.KernelIdeal Cert.KernelIdeal.Gen Idealize.ShloMosaic Idealize.ShloMosaic.TcCoe Idealize.ShloMosaic.ValueIdx Idealize.SL.Sem
variable (m : (ℓ : Loc nD τ sig) → Buf (Elt Ideal) ℓ) (ρ : Dev nD → PrngReg)

/- No operation of a stretch writes a given buffer: each operation writes exactly one buffer, and the given one
   differs from every one of them as a reference. -/
local macro "unwritten_by " ops:ident : tactic =>
  `(tactic| (simp only [$ops:ident, List.flatten_cons, List.flatten_nil, List.append_nil, List.cons_append,
              List.nil_append, List.Forall, StableHlo.nullary_writes, StableHlo.unary_writes, StableHlo.binary_writes,
              StableHlo.ternary_writes, StableHlo.quaternary_writes, StableHlo.reshape_writes, StableHlo.binaryIndexed_writes,
              Finset.mem_singleton]
             repeat' apply And.intro
             all_goals exact StableHlo.devRef_ne_of_ne (by decide)))

/-! Five of @main's arguments at the second region's exit: neither region's arrays are among them, and no host
    operation before or between the two regions writes an argument, so each still holds what the launch memory holds. -/

theorem W4_main_arg0 (c : Dev nD) : W4 (F := Ideal) m ρ c (Proc.devRef .tc main_arg0) = m ((c.tc : Thread nD τ).loc main_arg0) :=
  calc W4 (F := Ideal) m ρ c (Proc.devRef .tc main_arg0)
    _ = W3 m ρ c (Proc.devRef .tc main_arg0) := W4_of_ne m ρ c main_arg0 (by decide)
    _ = W2 m ρ c (Proc.devRef .tc main_arg0) :=
        StableHlo.after_of_forall_not_mem (b := Proc.devRef .tc main_arg0) _ _ (List.forall_iff_forall_mem.mp (by unwritten_by hostOps1))
    _ = W1 m ρ c (Proc.devRef .tc main_arg0) := W2_of_ne m ρ c main_arg0 (by decide)
    _ = W0 m ρ c (Proc.devRef .tc main_arg0) :=
        StableHlo.after_of_forall_not_mem (b := Proc.devRef .tc main_arg0) _ _ (List.forall_iff_forall_mem.mp (by unwritten_by hostOps0))
    _ = m ((c.tc : Thread nD τ).loc main_arg0) := rfl
theorem W4_main_arg9 (c : Dev nD) : W4 (F := Ideal) m ρ c (Proc.devRef .tc main_arg9) = m ((c.tc : Thread nD τ).loc main_arg9) :=
  calc W4 (F := Ideal) m ρ c (Proc.devRef .tc main_arg9)
    _ = W3 m ρ c (Proc.devRef .tc main_arg9) := W4_of_ne m ρ c main_arg9 (by decide)
    _ = W2 m ρ c (Proc.devRef .tc main_arg9) :=
        StableHlo.after_of_forall_not_mem (b := Proc.devRef .tc main_arg9) _ _ (List.forall_iff_forall_mem.mp (by unwritten_by hostOps1))
    _ = W1 m ρ c (Proc.devRef .tc main_arg9) := W2_of_ne m ρ c main_arg9 (by decide)
    _ = W0 m ρ c (Proc.devRef .tc main_arg9) :=
        StableHlo.after_of_forall_not_mem (b := Proc.devRef .tc main_arg9) _ _ (List.forall_iff_forall_mem.mp (by unwritten_by hostOps0))
    _ = m ((c.tc : Thread nD τ).loc main_arg9) := rfl
theorem W4_main_arg10 (c : Dev nD) : W4 (F := Ideal) m ρ c (Proc.devRef .tc main_arg10) = m ((c.tc : Thread nD τ).loc main_arg10) :=
  calc W4 (F := Ideal) m ρ c (Proc.devRef .tc main_arg10)
    _ = W3 m ρ c (Proc.devRef .tc main_arg10) := W4_of_ne m ρ c main_arg10 (by decide)
    _ = W2 m ρ c (Proc.devRef .tc main_arg10) :=
        StableHlo.after_of_forall_not_mem (b := Proc.devRef .tc main_arg10) _ _ (List.forall_iff_forall_mem.mp (by unwritten_by hostOps1))
    _ = W1 m ρ c (Proc.devRef .tc main_arg10) := W2_of_ne m ρ c main_arg10 (by decide)
    _ = W0 m ρ c (Proc.devRef .tc main_arg10) :=
        StableHlo.after_of_forall_not_mem (b := Proc.devRef .tc main_arg10) _ _ (List.forall_iff_forall_mem.mp (by unwritten_by hostOps0))
    _ = m ((c.tc : Thread nD τ).loc main_arg10) := rfl
theorem W4_main_arg11 (c : Dev nD) : W4 (F := Ideal) m ρ c (Proc.devRef .tc main_arg11) = m ((c.tc : Thread nD τ).loc main_arg11) :=
  calc W4 (F := Ideal) m ρ c (Proc.devRef .tc main_arg11)
    _ = W3 m ρ c (Proc.devRef .tc main_arg11) := W4_of_ne m ρ c main_arg11 (by decide)
    _ = W2 m ρ c (Proc.devRef .tc main_arg11) :=
        StableHlo.after_of_forall_not_mem (b := Proc.devRef .tc main_arg11) _ _ (List.forall_iff_forall_mem.mp (by unwritten_by hostOps1))
    _ = W1 m ρ c (Proc.devRef .tc main_arg11) := W2_of_ne m ρ c main_arg11 (by decide)
    _ = W0 m ρ c (Proc.devRef .tc main_arg11) :=
        StableHlo.after_of_forall_not_mem (b := Proc.devRef .tc main_arg11) _ _ (List.forall_iff_forall_mem.mp (by unwritten_by hostOps0))
    _ = m ((c.tc : Thread nD τ).loc main_arg11) := rfl
theorem W4_main_arg12 (c : Dev nD) : W4 (F := Ideal) m ρ c (Proc.devRef .tc main_arg12) = m ((c.tc : Thread nD τ).loc main_arg12) :=
  calc W4 (F := Ideal) m ρ c (Proc.devRef .tc main_arg12)
    _ = W3 m ρ c (Proc.devRef .tc main_arg12) := W4_of_ne m ρ c main_arg12 (by decide)
    _ = W2 m ρ c (Proc.devRef .tc main_arg12) :=
        StableHlo.after_of_forall_not_mem (b := Proc.devRef .tc main_arg12) _ _ (List.forall_iff_forall_mem.mp (by unwritten_by hostOps1))
    _ = W1 m ρ c (Proc.devRef .tc main_arg12) := W2_of_ne m ρ c main_arg12 (by decide)
    _ = W0 m ρ c (Proc.devRef .tc main_arg12) :=
        StableHlo.after_of_forall_not_mem (b := Proc.devRef .tc main_arg12) _ _ (List.forall_iff_forall_mem.mp (by unwritten_by hostOps0))
    _ = m ((c.tc : Thread nD τ).loc main_arg12) := rfl

/-- A 128×256 matrix with its axes swapped by the host's transpose is `Spec.tr` of it: entry (p, q) of the result
    is entry (q, p) of the operand. -/
private theorem transpose_128x256 (x : S128x256.Idx → EReal) :
    transpose S256x128 [1, 0] x transposes_S128x256_S256x128_1_0 = Spec.tr x := by
  funext j
  exact transpose_apply [1, 0] x transposes_S128x256_S256x128_1_0 j (ix2 (j 1) (j 0)) (fun b => match b with
    | ⟨0, _⟩ => rfl
    | ⟨1, _⟩ => rfl)

/-- The same for a 2×128 matrix. -/
private theorem transpose_2x128 (x : S2x128.Idx → EReal) :
    transpose S128x2 [1, 0] x transposes_S2x128_S128x2_1_0 = Spec.tr x := by
  funext j
  exact transpose_apply [1, 0] x transposes_S2x128_S128x2_1_0 j (ix2 (j 1) (j 0)) (fun b => match b with
    | ⟨0, _⟩ => rfl
    | ⟨1, _⟩ => rfl)

theorem V5_v46 (c : Dev nD) : (V5 (F := Ideal) m ρ c main_v46 : S1024x128.Idx → EReal)
    = Glue.pick0 (F := Ideal) (W4 (F := Ideal) m ρ c (Proc.devRef .tc main_v36)) (m ((c.tc : Thread nD τ).loc main_arg0)) := by
  -- a pair's first column, wrapped by the number of nodes where negative, picks the row of the second region's
  -- output; then the format change: the reference's own chain of operations on the same operands
  show StableHlo.after hostOps2 (W4 m ρ c) (Proc.devRef .tc main_v46) = _
  after_results_simp
  rw [W4_main_arg0]
  rfl
theorem V5_v56 (c : Dev nD) : (V5 (F := Ideal) m ρ c main_v56 : S1024x128.Idx → EReal)
    = Glue.pick1 (F := Ideal) (W4 (F := Ideal) m ρ c (Proc.devRef .tc main_v36)) (m ((c.tc : Thread nD τ).loc main_arg0)) := by
  -- the same with a pair's second column
  show StableHlo.after hostOps2 (W4 m ρ c) (Proc.devRef .tc main_v56) = _
  after_results_simp
  rw [W4_main_arg0]
  rfl
theorem V5_v58 (c : Dev nD) : (V5 (F := Ideal) m ρ c main_v58 : S256x128.Idx → EReal) = Spec.tr (m ((c.tc : Thread nD τ).loc main_arg9)) := by
  show StableHlo.after hostOps2 (W4 m ρ c) (Proc.devRef .tc main_v58) = _
  after_results_simp
  rw [W4_main_arg9]
  exact transpose_128x256 _
theorem V5_arg10 (c : Dev nD) : (V5 (F := Ideal) m ρ c main_arg10 : S128.Idx → EReal) = (m ((c.tc : Thread nD τ).loc main_arg10)) := by
  -- no operation of the stretch writes this argument
  show StableHlo.after hostOps2 (W4 m ρ c) (Proc.devRef .tc main_arg10) = _
  after_results_simp
  exact W4_main_arg10 m ρ c
theorem V5_v60 (c : Dev nD) : (V5 (F := Ideal) m ρ c main_v60 : S128x2.Idx → EReal) = Spec.tr (m ((c.tc : Thread nD τ).loc main_arg11)) := by
  show StableHlo.after hostOps2 (W4 m ρ c) (Proc.devRef .tc main_v60) = _
  after_results_simp
  rw [W4_main_arg11]
  exact transpose_2x128 _
theorem V5_arg12 (c : Dev nD) : (V5 (F := Ideal) m ρ c main_arg12 : S2.Idx → EReal) = (m ((c.tc : Thread nD τ).loc main_arg12)) := by
  -- no operation of the stretch writes this argument
  show StableHlo.after hostOps2 (W4 m ρ c) (Proc.devRef .tc main_arg12) = _
  after_results_simp
  exact W4_main_arg12 m ρ c

end Cert.KernelIdeal.KHost

end
-- ==== Proof.KValue.lean ====
/-
  The kernel program's result array, after its last region, is `Glue.out` of @main's arguments: each region's output
  array is its layer applied to the arrays it entered with, and those are the host operations before it applied to
  the previous region's output and to the arguments.
-/
import proofs.«161755_j63118839382588_1_alg».proof.Proof.Gen.KernelIdeal.Frame
import proofs.«161755_j63118839382588_1_alg».proof.Proof.Spec
import proofs.«161755_j63118839382588_1_alg».proof.Proof.Glue
import proofs.«161755_j63118839382588_1_alg».proof.Proof.Region0
import proofs.«161755_j63118839382588_1_alg».proof.Proof.Region1
import proofs.«161755_j63118839382588_1_alg».proof.Proof.Region2
import proofs.«161755_j63118839382588_1_alg».proof.Proof.KHost0
import proofs.«161755_j63118839382588_1_alg».proof.Proof.KHost1
import proofs.«161755_j63118839382588_1_alg».proof.Proof.KHost2
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.KValue

open Cert.KernelIdeal Cert.KernelIdeal.Gen Idealize.ShloMosaic Idealize.ShloMosaic.TcCoe Idealize.ShloMosaic.ValueIdx Idealize.SL.Sem
variable (m : (ℓ : Loc nD τ sig) → Buf (Elt Ideal) ℓ) (ρ : Dev nD → PrngReg)

/-- After the first region its output array holds the first layer's encoding of the arguments. -/
theorem ie_arr (c : Dev nD) :
    (W2 (F := Ideal) m ρ c (Proc.devRef .tc main_v21) : S10000x128.Idx → EReal)
      = Glue.ie (m ((c.tc : Thread nD τ).loc main_arg1)) (m ((c.tc : Thread nD τ).loc main_arg2)) (m ((c.tc : Thread nD τ).loc main_arg4)) (m ((c.tc : Thread nD τ).loc main_arg5)) (m ((c.tc : Thread nD τ).loc main_arg6)) := by
  refine (W2_arr (F := Ideal) m ρ c 4).trans ?_
  refine (Region0.arr0_4 (V1 (F := Ideal) m ρ) c).trans ?_
  rw [KHost.V1_v7 m ρ c, KHost.V1_v16 m ρ c, KHost.V1_v18 m ρ c, KHost.V1_v20 m ρ c]
  rfl

/-- After the second region its output array holds the second layer's encoding of the arguments. -/
theorem ee_arr (c : Dev nD) :
    (W4 (F := Ideal) m ρ c (Proc.devRef .tc main_v36) : S10000x128.Idx → EReal)
      = Glue.ee (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) := by
  refine (W4_arr (F := Ideal) m ρ c 4).trans ?_
  refine (Region1.arr1_4 (V3 (F := Ideal) m ρ) c).trans ?_
  rw [KHost.V3_v31 m ρ c, KHost.V3_v30 m ρ c, KHost.V3_v33 m ρ c, KHost.V3_v35 m ρ c, ie_arr m ρ c]
  rfl

/-- The result array at the last boundary is the whole computation of the arguments. -/
theorem result_eq (c : Dev nD) :
    (W6 (F := Ideal) m ρ c (Proc.devRef .tc main_v61) : S1024x2.Idx → EReal) = Glue.out (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) := by
  refine (W6_arr (F := Ideal) m ρ c 6).trans ?_
  refine (Region2.arr2_6 (V5 (F := Ideal) m ρ) c).trans ?_
  rw [KHost.V5_v46 m ρ c, KHost.V5_v56 m ρ c, KHost.V5_v58 m ρ c, KHost.V5_arg10 m ρ c, KHost.V5_v60 m ρ c,
    KHost.V5_arg12 m ρ c, ee_arr m ρ c]
  rfl

end Cert.KernelIdeal.KValue

end
-- ==== Proof.RefRun.lean ====
/-
  The reference program's run, stated over the stages: every weakly fair execution of @main terminates with the result
  array at the last stage's value of the arguments' launch contents, the arguments unchanged. The operation list is
  walked in stretches cut where a value is used more than once (before each softmax), so that no stretch's term
  repeats an earlier stretch's.
-/
import proofs.«161755_j63118839382588_1_alg».proof.Proof.RefOps
import proofs.«161755_j63118839382588_1_alg».proof.Proof.RefRead
import Idealize.ShloMosaic.Lib.Pipeline.Value
import Idealize.ShloMosaic.Lib.ValueIdx
import Idealize.ShloMosaic.PureOps.Ideal.Laws
import Idealize.ShloMosaic.Lib.StableHlo.Run

noncomputable section

namespace Cert.ReferenceIdeal.RunH

open Cert.ReferenceIdeal Cert.ReferenceIdeal.Gen Cert.ReferenceIdeal.ReadP Idealize.ShloMosaic Idealize.ShloMosaic.TcCoe Idealize.ShloMosaic.ValueIdx Idealize.SL.Sem Idealize.ShloMosaic.StableHlo

open Cert.ReferenceIdeal.RunP

variable {F : FTy → Type} [FloatOps F]

namespace Walk

/-! The operation list in seven stretches, cut where a value is read more than once (before each softmax, and before the
    two computed arrays are set side by side). -/

/-- Operations 1 to 28: the two neighbour look-ups, the sum over the inner neighbours, the two products with the weights, their sum, its positive part, and the sum over the outer neighbours (`main_v19`). -/
def s1 : List (HloOp τ sig (Elt F)) :=
  [ nullary main_c (constantI S_ 32 0#32),
    unary main_c main_v0 (broadcastInDim S10000x16 ![] bcast_S_S10000x16 : (⟨S_, .i32⟩ : BufTy).Contents (Elt F) → (⟨S10000x16, .i32⟩ : BufTy).Contents (Elt F)),
    binary main_arg1 main_v0 main_v1 (cmpi .slt : (⟨S10000x16, .i32⟩ : BufTy).Contents (Elt F) → (⟨S10000x16, .i32⟩ : BufTy).Contents (Elt F) → (⟨S10000x16, .i1⟩ : BufTy).Contents (Elt F)),
    nullary main_c_0 (constantI S_ 32 100000#32),
    unary main_c_0 main_v2 (broadcastInDim S10000x16 ![] bcast_S_S10000x16 : (⟨S_, .i32⟩ : BufTy).Contents (Elt F) → (⟨S10000x16, .i32⟩ : BufTy).Contents (Elt F)),
    binary main_arg1 main_v2 main_v3 (addi : (⟨S10000x16, .i32⟩ : BufTy).Contents (Elt F) → (⟨S10000x16, .i32⟩ : BufTy).Contents (Elt F) → (⟨S10000x16, .i32⟩ : BufTy).Contents (Elt F)),
    ternary main_v1 main_v3 main_arg1 main_v4 (select : (⟨S10000x16, .i1⟩ : BufTy).Contents (Elt F) → (⟨S10000x16, .i32⟩ : BufTy).Contents (Elt F) → (⟨S10000x16, .i32⟩ : BufTy).Contents (Elt F) → (⟨S10000x16, .i32⟩ : BufTy).Contents (Elt F)),
    unary main_v4 main_v5 (broadcastInDim S10000x16x1 ![0, 1] bcast_S10000x16_S10000x16x1_0_1 : (⟨S10000x16, .i32⟩ : BufTy).Contents (Elt F) → (⟨S10000x16x1, .i32⟩ : BufTy).Contents (Elt F)),
    binary main_arg4 main_v5 main_v6 ((fun x i => Host.gather gather_S100000x128_S10000x16x1_S10000x16x128_2_0_n_n_0_2_1128 x i) : (⟨S100000x128, .f32⟩ : BufTy).Contents (Elt F) → (⟨S10000x16x1, .i32⟩ : BufTy).Contents (Elt F) → (⟨S10000x16x128, .f32⟩ : BufTy).Contents (Elt F)),
    nullary main_c_1 (constantI S_ 32 0#32),
    unary main_c_1 main_v7 (broadcastInDim S10000x16x8 ![] bcast_S_S10000x16x8 : (⟨S_, .i32⟩ : BufTy).Contents (Elt F) → (⟨S10000x16x8, .i32⟩ : BufTy).Contents (Elt F)),
    binary main_arg2 main_v7 main_v8 (cmpi .slt : (⟨S10000x16x8, .i32⟩ : BufTy).Contents (Elt F) → (⟨S10000x16x8, .i32⟩ : BufTy).Contents (Elt F) → (⟨S10000x16x8, .i1⟩ : BufTy).Contents (Elt F)),
    nullary main_c_2 (constantI S_ 32 100000#32),
    unary main_c_2 main_v9 (broadcastInDim S10000x16x8 ![] bcast_S_S10000x16x8 : (⟨S_, .i32⟩ : BufTy).Contents (Elt F) → (⟨S10000x16x8, .i32⟩ : BufTy).Contents (Elt F)),
    binary main_arg2 main_v9 main_v10 (addi : (⟨S10000x16x8, .i32⟩ : BufTy).Contents (Elt F) → (⟨S10000x16x8, .i32⟩ : BufTy).Contents (Elt F) → (⟨S10000x16x8, .i32⟩ : BufTy).Contents (Elt F)),
    ternary main_v8 main_v10 main_arg2 main_v11 (select : (⟨S10000x16x8, .i1⟩ : BufTy).Contents (Elt F) → (⟨S10000x16x8, .i32⟩ : BufTy).Contents (Elt F) → (⟨S10000x16x8, .i32⟩ : BufTy).Contents (Elt F) → (⟨S10000x16x8, .i32⟩ : BufTy).Contents (Elt F)),
    unary main_v11 main_v12 (broadcastInDim S10000x16x8x1 ![0, 1, 2] bcast_S10000x16x8_S10000x16x8x1_0_1_2 : (⟨S10000x16x8, .i32⟩ : BufTy).Contents (Elt F) → (⟨S10000x16x8x1, .i32⟩ : BufTy).Contents (Elt F)),
    binary main_arg4 main_v12 main_v13 ((fun x i => Host.gather gather_S100000x128_S10000x16x8x1_S10000x16x8x128_3_0_n_n_0_3_1128 x i) : (⟨S100000x128, .f32⟩ : BufTy).Contents (Elt F) → (⟨S10000x16x8x1, .i32⟩ : BufTy).Contents (Elt F) → (⟨S10000x16x8x128, .f32⟩ : BufTy).Contents (Elt F)),
    nullary main_cst (constant S_ .f32 0x00000000#32),
    binary main_v13 main_cst main_v14 ((fun x v => Host.reduceAdd x v reducesTo_S10000x16x8x128_S10000x16x128_d2 h_S_) : (⟨S10000x16x8x128, .f32⟩ : BufTy).Contents (Elt F) → (⟨S_, .f32⟩ : BufTy).Contents (Elt F) → (⟨S10000x16x128, .f32⟩ : BufTy).Contents (Elt F)),
    binary main_v6 main_arg5 main_v15 ((fun l r => Host.dotGeneral dot_S10000x16x128_S128x128_S10000x16x128_2_1_01_0_n_n none l r) : (⟨S10000x16x128, .f32⟩ : BufTy).Contents (Elt F) → (⟨S128x128, .f32⟩ : BufTy).Contents (Elt F) → (⟨S10000x16x128, .f32⟩ : BufTy).Contents (Elt F)),
    binary main_v14 main_arg6 main_v16 ((fun l r => Host.dotGeneral dot_S10000x16x128_S128x128_S10000x16x128_2_1_01_0_n_n none l r) : (⟨S10000x16x128, .f32⟩ : BufTy).Contents (Elt F) → (⟨S128x128, .f32⟩ : BufTy).Contents (Elt F) → (⟨S10000x16x128, .f32⟩ : BufTy).Contents (Elt F)),
    binary main_v15 main_v16 main_v17 (addf : (⟨S10000x16x128, .f32⟩ : BufTy).Contents (Elt F) → (⟨S10000x16x128, .f32⟩ : BufTy).Contents (Elt F) → (⟨S10000x16x128, .f32⟩ : BufTy).Contents (Elt F)),
    TRef.nullary (TRef.of (T := ⟨S_, .f32⟩) main_call0_cst) (constant S_ .f32 0x00000000#32),
    TRef.unary (TRef.of (T := ⟨S_, .f32⟩) main_call0_cst) (TRef.of (T := ⟨S10000x16x128, .f32⟩) main_call0_v0) (broadcastInDim S10000x16x128 ![] bcast_S_S10000x16x128),
    TRef.binary (TRef.of (T := ⟨S10000x16x128, .f32⟩) main_v17) (TRef.of (T := ⟨S10000x16x128, .f32⟩) main_call0_v0) (TRef.of (T := ⟨S10000x16x128, .f32⟩) main_v18) maximumf,
    nullary main_cst_3 (constant S_ .f32 0x00000000#32),
    binary main_v18 main_cst_3 main_v19 ((fun x v => Host.reduceAdd x v reducesTo_S10000x16x128_S10000x128_d1 h_S_) : (⟨S10000x16x128, .f32⟩ : BufTy).Contents (Elt F) → (⟨S_, .f32⟩ : BufTy).Contents (Elt F) → (⟨S10000x128, .f32⟩ : BufTy).Contents (Elt F)) ]

/-- Operations 29 to 42: the first row softmax, of `main_v19` (row maximum, shifted exponential, row sum, quotient: `main_v30`). -/
def s2 : List (HloOp τ sig (Elt F)) :=
  [ nullary main_cst_4 (constant S_ .f32 0xFF800000#32),
    binary main_v19 main_cst_4 main_v20 ((fun x v => Host.reduce FloatOps.maximumf x v reducesTo_S10000x128_S10000_d1 h_S_) : (⟨S10000x128, .f32⟩ : BufTy).Contents (Elt F) → (⟨S_, .f32⟩ : BufTy).Contents (Elt F) → (⟨S10000, .f32⟩ : BufTy).Contents (Elt F)),
    nullary main_cst_5 (constant S_ .f32 0xFF800000#32),
    unary main_cst_5 main_v21 (broadcastInDim S10000 ![] bcast_S_S10000 : (⟨S_, .f32⟩ : BufTy).Contents (Elt F) → (⟨S10000, .f32⟩ : BufTy).Contents (Elt F)),
    binary main_v21 main_v20 main_v22 (maximumf : (⟨S10000, .f32⟩ : BufTy).Contents (Elt F) → (⟨S10000, .f32⟩ : BufTy).Contents (Elt F) → (⟨S10000, .f32⟩ : BufTy).Contents (Elt F)),
    unary main_v22 main_v23 (broadcastInDim S10000x1 ![0] bcast_S10000_S10000x1_0 : (⟨S10000, .f32⟩ : BufTy).Contents (Elt F) → (⟨S10000x1, .f32⟩ : BufTy).Contents (Elt F)),
    unary main_v23 main_v24 (broadcastInDim S10000x128 ![0, 1] bcast_S10000x1_S10000x128_0_1 : (⟨S10000x1, .f32⟩ : BufTy).Contents (Elt F) → (⟨S10000x128, .f32⟩ : BufTy).Contents (Elt F)),
    binary main_v19 main_v24 main_v25 (subf : (⟨S10000x128, .f32⟩ : BufTy).Contents (Elt F) → (⟨S10000x128, .f32⟩ : BufTy).Contents (Elt F) → (⟨S10000x128, .f32⟩ : BufTy).Contents (Elt F)),
    unary main_v25 main_v26 (Host.exp : (⟨S10000x128, .f32⟩ : BufTy).Contents (Elt F) → (⟨S10000x128, .f32⟩ : BufTy).Contents (Elt F)),
    nullary main_cst_6 (constant S_ .f32 0x00000000#32),
    binary main_v26 main_cst_6 main_v27 ((fun x v => Host.reduceAdd x v reducesTo_S10000x128_S10000_d1 h_S_) : (⟨S10000x128, .f32⟩ : BufTy).Contents (Elt F) → (⟨S_, .f32⟩ : BufTy).Contents (Elt F) → (⟨S10000, .f32⟩ : BufTy).Contents (Elt F)),
    unary main_v27 main_v28 (broadcastInDim S10000x1 ![0] bcast_S10000_S10000x1_0 : (⟨S10000, .f32⟩ : BufTy).Contents (Elt F) → (⟨S10000x1, .f32⟩ : BufTy).Contents (Elt F)),
    unary main_v28 main_v29 (broadcastInDim S10000x128 ![0, 1] bcast_S10000x1_S10000x128_0_1 : (⟨S10000x1, .f32⟩ : BufTy).Contents (Elt F) → (⟨S10000x128, .f32⟩ : BufTy).Contents (Elt F)),
    binary main_v26 main_v29 main_v30 (Host.divf : (⟨S10000x128, .f32⟩ : BufTy).Contents (Elt F) → (⟨S10000x128, .f32⟩ : BufTy).Contents (Elt F) → (⟨S10000x128, .f32⟩ : BufTy).Contents (Elt F)) ]

/-- Operations 43 to 59: the product of `main_v30` with a weight, the look-up of its rows at the third index table summed over the neighbours and multiplied by a weight, the sum of the two, and its positive part (`main_v42`). -/
def s3 : List (HloOp τ sig (Elt F)) :=
  [ binary main_v30 main_arg7 main_v31 ((fun l r => Host.dotGeneral dot_S10000x128_S128x128_S10000x128_1_1_0_0_n_n none l r) : (⟨S10000x128, .f32⟩ : BufTy).Contents (Elt F) → (⟨S128x128, .f32⟩ : BufTy).Contents (Elt F) → (⟨S10000x128, .f32⟩ : BufTy).Contents (Elt F)),
    nullary main_c_7 (constantI S_ 32 0#32),
    unary main_c_7 main_v32 (broadcastInDim S10000x8 ![] bcast_S_S10000x8 : (⟨S_, .i32⟩ : BufTy).Contents (Elt F) → (⟨S10000x8, .i32⟩ : BufTy).Contents (Elt F)),
    binary main_arg3 main_v32 main_v33 (cmpi .slt : (⟨S10000x8, .i32⟩ : BufTy).Contents (Elt F) → (⟨S10000x8, .i32⟩ : BufTy).Contents (Elt F) → (⟨S10000x8, .i1⟩ : BufTy).Contents (Elt F)),
    nullary main_c_8 (constantI S_ 32 10000#32),
    unary main_c_8 main_v34 (broadcastInDim S10000x8 ![] bcast_S_S10000x8 : (⟨S_, .i32⟩ : BufTy).Contents (Elt F) → (⟨S10000x8, .i32⟩ : BufTy).Contents (Elt F)),
    binary main_arg3 main_v34 main_v35 (addi : (⟨S10000x8, .i32⟩ : BufTy).Contents (Elt F) → (⟨S10000x8, .i32⟩ : BufTy).Contents (Elt F) → (⟨S10000x8, .i32⟩ : BufTy).Contents (Elt F)),
    ternary main_v33 main_v35 main_arg3 main_v36 (select : (⟨S10000x8, .i1⟩ : BufTy).Contents (Elt F) → (⟨S10000x8, .i32⟩ : BufTy).Contents (Elt F) → (⟨S10000x8, .i32⟩ : BufTy).Contents (Elt F) → (⟨S10000x8, .i32⟩ : BufTy).Contents (Elt F)),
    unary main_v36 main_v37 (broadcastInDim S10000x8x1 ![0, 1] bcast_S10000x8_S10000x8x1_0_1 : (⟨S10000x8, .i32⟩ : BufTy).Contents (Elt F) → (⟨S10000x8x1, .i32⟩ : BufTy).Contents (Elt F)),
    binary main_v30 main_v37 main_v38 ((fun x i => Host.gather gather_S10000x128_S10000x8x1_S10000x8x128_2_0_n_n_0_2_1128 x i) : (⟨S10000x128, .f32⟩ : BufTy).Contents (Elt F) → (⟨S10000x8x1, .i32⟩ : BufTy).Contents (Elt F) → (⟨S10000x8x128, .f32⟩ : BufTy).Contents (Elt F)),
    nullary main_cst_9 (constant S_ .f32 0x00000000#32),
    binary main_v38 main_cst_9 main_v39 ((fun x v => Host.reduceAdd x v reducesTo_S10000x8x128_S10000x128_d1 h_S_) : (⟨S10000x8x128, .f32⟩ : BufTy).Contents (Elt F) → (⟨S_, .f32⟩ : BufTy).Contents (Elt F) → (⟨S10000x128, .f32⟩ : BufTy).Contents (Elt F)),
    binary main_v39 main_arg8 main_v40 ((fun l r => Host.dotGeneral dot_S10000x128_S128x128_S10000x128_1_1_0_0_n_n none l r) : (⟨S10000x128, .f32⟩ : BufTy).Contents (Elt F) → (⟨S128x128, .f32⟩ : BufTy).Contents (Elt F) → (⟨S10000x128, .f32⟩ : BufTy).Contents (Elt F)),
    binary main_v31 main_v40 main_v41 (addf : (⟨S10000x128, .f32⟩ : BufTy).Contents (Elt F) → (⟨S10000x128, .f32⟩ : BufTy).Contents (Elt F) → (⟨S10000x128, .f32⟩ : BufTy).Contents (Elt F)),
    TRef.nullary (TRef.of (T := ⟨S_, .f32⟩) main_call1_cst) (constant S_ .f32 0x00000000#32),
    TRef.unary (TRef.of (T := ⟨S_, .f32⟩) main_call1_cst) (TRef.of (T := ⟨S10000x128, .f32⟩) main_call1_v0) (broadcastInDim S10000x128 ![] bcast_S_S10000x128),
    TRef.binary (TRef.of (T := ⟨S10000x128, .f32⟩) main_v41) (TRef.of (T := ⟨S10000x128, .f32⟩) main_call1_v0) (TRef.of (T := ⟨S10000x128, .f32⟩) main_v42) maximumf ]

/-- Operations 60 to 73: the second row softmax, of `main_v42` (`main_v53`). -/
def s4 : List (HloOp τ sig (Elt F)) :=
  [ nullary main_cst_10 (constant S_ .f32 0xFF800000#32),
    binary main_v42 main_cst_10 main_v43 ((fun x v => Host.reduce FloatOps.maximumf x v reducesTo_S10000x128_S10000_d1 h_S_) : (⟨S10000x128, .f32⟩ : BufTy).Contents (Elt F) → (⟨S_, .f32⟩ : BufTy).Contents (Elt F) → (⟨S10000, .f32⟩ : BufTy).Contents (Elt F)),
    nullary main_cst_11 (constant S_ .f32 0xFF800000#32),
    unary main_cst_11 main_v44 (broadcastInDim S10000 ![] bcast_S_S10000 : (⟨S_, .f32⟩ : BufTy).Contents (Elt F) → (⟨S10000, .f32⟩ : BufTy).Contents (Elt F)),
    binary main_v44 main_v43 main_v45 (maximumf : (⟨S10000, .f32⟩ : BufTy).Contents (Elt F) → (⟨S10000, .f32⟩ : BufTy).Contents (Elt F) → (⟨S10000, .f32⟩ : BufTy).Contents (Elt F)),
    unary main_v45 main_v46 (broadcastInDim S10000x1 ![0] bcast_S10000_S10000x1_0 : (⟨S10000, .f32⟩ : BufTy).Contents (Elt F) → (⟨S10000x1, .f32⟩ : BufTy).Contents (Elt F)),
    unary main_v46 main_v47 (broadcastInDim S10000x128 ![0, 1] bcast_S10000x1_S10000x128_0_1 : (⟨S10000x1, .f32⟩ : BufTy).Contents (Elt F) → (⟨S10000x128, .f32⟩ : BufTy).Contents (Elt F)),
    binary main_v42 main_v47 main_v48 (subf : (⟨S10000x128, .f32⟩ : BufTy).Contents (Elt F) → (⟨S10000x128, .f32⟩ : BufTy).Contents (Elt F) → (⟨S10000x128, .f32⟩ : BufTy).Contents (Elt F)),
    unary main_v48 main_v49 (Host.exp : (⟨S10000x128, .f32⟩ : BufTy).Contents (Elt F) → (⟨S10000x128, .f32⟩ : BufTy).Contents (Elt F)),
    nullary main_cst_12 (constant S_ .f32 0x00000000#32),
    binary main_v49 main_cst_12 main_v50 ((fun x v => Host.reduceAdd x v reducesTo_S10000x128_S10000_d1 h_S_) : (⟨S10000x128, .f32⟩ : BufTy).Contents (Elt F) → (⟨S_, .f32⟩ : BufTy).Contents (Elt F) → (⟨S10000, .f32⟩ : BufTy).Contents (Elt F)),
    unary main_v50 main_v51 (broadcastInDim S10000x1 ![0] bcast_S10000_S10000x1_0 : (⟨S10000, .f32⟩ : BufTy).Contents (Elt F) → (⟨S10000x1, .f32⟩ : BufTy).Contents (Elt F)),
    unary main_v51 main_v52 (broadcastInDim S10000x128 ![0, 1] bcast_S10000x1_S10000x128_0_1 : (⟨S10000x1, .f32⟩ : BufTy).Contents (Elt F) → (⟨S10000x128, .f32⟩ : BufTy).Contents (Elt F)),
    binary main_v49 main_v52 main_v53 (Host.divf : (⟨S10000x128, .f32⟩ : BufTy).Contents (Elt F) → (⟨S10000x128, .f32⟩ : BufTy).Contents (Elt F) → (⟨S10000x128, .f32⟩ : BufTy).Contents (Elt F)) ]

/-- Operations 74 to 97: the two columns of the pair table, each brought into range, the two look-ups of rows of `main_v53` at them, and the rows' product (`main_v72`) and sum (`main_v73`). -/
def s5 : List (HloOp τ sig (Elt F)) :=
  [ unary main_arg0 main_v54 ((extractStridedSlice S1024x1 ![0, 0] · slices_S1024x2_S1024x1_0_0) : (⟨S1024x2, .i32⟩ : BufTy).Contents (Elt F) → (⟨S1024x1, .i32⟩ : BufTy).Contents (Elt F)),
    reshape main_v54 main_v55 rfl shapeCasts_S1024x1_S1024,
    nullary main_c_13 (constantI S_ 32 0#32),
    unary main_c_13 main_v56 (broadcastInDim S1024 ![] bcast_S_S1024 : (⟨S_, .i32⟩ : BufTy).Contents (Elt F) → (⟨S1024, .i32⟩ : BufTy).Contents (Elt F)),
    binary main_v55 main_v56 main_v57 (cmpi .slt : (⟨S1024, .i32⟩ : BufTy).Contents (Elt F) → (⟨S1024, .i32⟩ : BufTy).Contents (Elt F) → (⟨S1024, .i1⟩ : BufTy).Contents (Elt F)),
    nullary main_c_14 (constantI S_ 32 10000#32),
    unary main_c_14 main_v58 (broadcastInDim S1024 ![] bcast_S_S1024 : (⟨S_, .i32⟩ : BufTy).Contents (Elt F) → (⟨S1024, .i32⟩ : BufTy).Contents (Elt F)),
    binary main_v55 main_v58 main_v59 (addi : (⟨S1024, .i32⟩ : BufTy).Contents (Elt F) → (⟨S1024, .i32⟩ : BufTy).Contents (Elt F) → (⟨S1024, .i32⟩ : BufTy).Contents (Elt F)),
    ternary main_v57 main_v59 main_v55 main_v60 (select : (⟨S1024, .i1⟩ : BufTy).Contents (Elt F) → (⟨S1024, .i32⟩ : BufTy).Contents (Elt F) → (⟨S1024, .i32⟩ : BufTy).Contents (Elt F) → (⟨S1024, .i32⟩ : BufTy).Contents (Elt F)),
    unary main_v60 main_v61 (broadcastInDim S1024x1 ![0] bcast_S1024_S1024x1_0 : (⟨S1024, .i32⟩ : BufTy).Contents (Elt F) → (⟨S1024x1, .i32⟩ : BufTy).Contents (Elt F)),
    binary main_v53 main_v61 main_v62 ((fun x i => Host.gather gather_S10000x128_S1024x1_S1024x128_1_0_n_n_0_1_1128 x i) : (⟨S10000x128, .f32⟩ : BufTy).Contents (Elt F) → (⟨S1024x1, .i32⟩ : BufTy).Contents (Elt F) → (⟨S1024x128, .f32⟩ : BufTy).Contents (Elt F)),
    unary main_arg0 main_v63 ((extractStridedSlice S1024x1 ![0, 1] · slices_S1024x2_S1024x1_0_1) : (⟨S1024x2, .i32⟩ : BufTy).Contents (Elt F) → (⟨S1024x1, .i32⟩ : BufTy).Contents (Elt F)),
    reshape main_v63 main_v64 rfl shapeCasts_S1024x1_S1024,
    nullary main_c_15 (constantI S_ 32 0#32),
    unary main_c_15 main_v65 (broadcastInDim S1024 ![] bcast_S_S1024 : (⟨S_, .i32⟩ : BufTy).Contents (Elt F) → (⟨S1024, .i32⟩ : BufTy).Contents (Elt F)),
    binary main_v64 main_v65 main_v66 (cmpi .slt : (⟨S1024, .i32⟩ : BufTy).Contents (Elt F) → (⟨S1024, .i32⟩ : BufTy).Contents (Elt F) → (⟨S1024, .i1⟩ : BufTy).Contents (Elt F)),
    nullary main_c_16 (constantI S_ 32 10000#32),
    unary main_c_16 main_v67 (broadcastInDim S1024 ![] bcast_S_S1024 : (⟨S_, .i32⟩ : BufTy).Contents (Elt F) → (⟨S1024, .i32⟩ : BufTy).Contents (Elt F)),
    binary main_v64 main_v67 main_v68 (addi : (⟨S1024, .i32⟩ : BufTy).Contents (Elt F) → (⟨S1024, .i32⟩ : BufTy).Contents (Elt F) → (⟨S1024, .i32⟩ : BufTy).Contents (Elt F)),
    ternary main_v66 main_v68 main_v64 main_v69 (select : (⟨S1024, .i1⟩ : BufTy).Contents (Elt F) → (⟨S1024, .i32⟩ : BufTy).Contents (Elt F) → (⟨S1024, .i32⟩ : BufTy).Contents (Elt F) → (⟨S1024, .i32⟩ : BufTy).Contents (Elt F)),
    unary main_v69 main_v70 (broadcastInDim S1024x1 ![0] bcast_S1024_S1024x1_0 : (⟨S1024, .i32⟩ : BufTy).Contents (Elt F) → (⟨S1024x1, .i32⟩ : BufTy).Contents (Elt F)),
    binary main_v53 main_v70 main_v71 ((fun x i => Host.gather gather_S10000x128_S1024x1_S1024x128_1_0_n_n_0_1_1128 x i) : (⟨S10000x128, .f32⟩ : BufTy).Contents (Elt F) → (⟨S1024x1, .i32⟩ : BufTy).Contents (Elt F) → (⟨S1024x128, .f32⟩ : BufTy).Contents (Elt F)),
    binary main_v62 main_v71 main_v72 (mulf : (⟨S1024x128, .f32⟩ : BufTy).Contents (Elt F) → (⟨S1024x128, .f32⟩ : BufTy).Contents (Elt F) → (⟨S1024x128, .f32⟩ : BufTy).Contents (Elt F)),
    binary main_v62 main_v71 main_v73 (addf : (⟨S1024x128, .f32⟩ : BufTy).Contents (Elt F) → (⟨S1024x128, .f32⟩ : BufTy).Contents (Elt F) → (⟨S1024x128, .f32⟩ : BufTy).Contents (Elt F)) ]

/-- Operations 98 to 108: product and sum side by side, the two affine layers (`main_v84`). -/
def s6 : List (HloOp τ sig (Elt F)) :=
  [ binary main_v72 main_v73 main_v74 ((fun a b => concatenate S1024x256 1 [⟨S1024x128, a⟩, ⟨S1024x128, b⟩] concatenates_S1024x128_S1024x128_S1024x256_d1) : (⟨S1024x128, .f32⟩ : BufTy).Contents (Elt F) → (⟨S1024x128, .f32⟩ : BufTy).Contents (Elt F) → (⟨S1024x256, .f32⟩ : BufTy).Contents (Elt F)),
    unary main_arg9 main_v75 ((transpose S256x128 [1, 0] · transposes_S128x256_S256x128_1_0) : (⟨S128x256, .f32⟩ : BufTy).Contents (Elt F) → (⟨S256x128, .f32⟩ : BufTy).Contents (Elt F)),
    binary main_v74 main_v75 main_v76 ((fun l r => Host.dotGeneral dot_S1024x256_S256x128_S1024x128_1_0_0_1_n_n none l r) : (⟨S1024x256, .f32⟩ : BufTy).Contents (Elt F) → (⟨S256x128, .f32⟩ : BufTy).Contents (Elt F) → (⟨S1024x128, .f32⟩ : BufTy).Contents (Elt F)),
    unary main_arg10 main_v77 (broadcastInDim S1x128 ![1] bcast_S128_S1x128_1 : (⟨S128, .f32⟩ : BufTy).Contents (Elt F) → (⟨S1x128, .f32⟩ : BufTy).Contents (Elt F)),
    unary main_v77 main_v78 (broadcastInDim S1024x128 ![0, 1] bcast_S1x128_S1024x128_0_1 : (⟨S1x128, .f32⟩ : BufTy).Contents (Elt F) → (⟨S1024x128, .f32⟩ : BufTy).Contents (Elt F)),
    binary main_v76 main_v78 main_v79 (addf : (⟨S1024x128, .f32⟩ : BufTy).Contents (Elt F) → (⟨S1024x128, .f32⟩ : BufTy).Contents (Elt F) → (⟨S1024x128, .f32⟩ : BufTy).Contents (Elt F)),
    unary main_arg11 main_v80 ((transpose S128x2 [1, 0] · transposes_S2x128_S128x2_1_0) : (⟨S2x128, .f32⟩ : BufTy).Contents (Elt F) → (⟨S128x2, .f32⟩ : BufTy).Contents (Elt F)),
    binary main_v79 main_v80 main_v81 ((fun l r => Host.dotGeneral dot_S1024x128_S128x2_S1024x2_1_0_0_1_n_n none l r) : (⟨S1024x128, .f32⟩ : BufTy).Contents (Elt F) → (⟨S128x2, .f32⟩ : BufTy).Contents (Elt F) → (⟨S1024x2, .f32⟩ : BufTy).Contents (Elt F)),
    unary main_arg12 main_v82 (broadcastInDim S1x2 ![1] bcast_S2_S1x2_1 : (⟨S2, .f32⟩ : BufTy).Contents (Elt F) → (⟨S1x2, .f32⟩ : BufTy).Contents (Elt F)),
    unary main_v82 main_v83 (broadcastInDim S1024x2 ![0, 1] bcast_S1x2_S1024x2_0_1 : (⟨S1x2, .f32⟩ : BufTy).Contents (Elt F) → (⟨S1024x2, .f32⟩ : BufTy).Contents (Elt F)),
    binary main_v81 main_v83 main_v84 (addf : (⟨S1024x2, .f32⟩ : BufTy).Contents (Elt F) → (⟨S1024x2, .f32⟩ : BufTy).Contents (Elt F) → (⟨S1024x2, .f32⟩ : BufTy).Contents (Elt F)) ]

/-- Operations 109 to 122: the last row softmax, of `main_v84` (`main_v95`, the result). -/
def s7 : List (HloOp τ sig (Elt F)) :=
  [ nullary main_cst_17 (constant S_ .f32 0xFF800000#32),
    binary main_v84 main_cst_17 main_v85 ((fun x v => Host.reduce FloatOps.maximumf x v reducesTo_S1024x2_S1024_d1 h_S_) : (⟨S1024x2, .f32⟩ : BufTy).Contents (Elt F) → (⟨S_, .f32⟩ : BufTy).Contents (Elt F) → (⟨S1024, .f32⟩ : BufTy).Contents (Elt F)),
    nullary main_cst_18 (constant S_ .f32 0xFF800000#32),
    unary main_cst_18 main_v86 (broadcastInDim S1024 ![] bcast_S_S1024 : (⟨S_, .f32⟩ : BufTy).Contents (Elt F) → (⟨S1024, .f32⟩ : BufTy).Contents (Elt F)),
    binary main_v86 main_v85 main_v87 (maximumf : (⟨S1024, .f32⟩ : BufTy).Contents (Elt F) → (⟨S1024, .f32⟩ : BufTy).Contents (Elt F) → (⟨S1024, .f32⟩ : BufTy).Contents (Elt F)),
    unary main_v87 main_v88 (broadcastInDim S1024x1 ![0] bcast_S1024_S1024x1_0 : (⟨S1024, .f32⟩ : BufTy).Contents (Elt F) → (⟨S1024x1, .f32⟩ : BufTy).Contents (Elt F)),
    unary main_v88 main_v89 (broadcastInDim S1024x2 ![0, 1] bcast_S1024x1_S1024x2_0_1 : (⟨S1024x1, .f32⟩ : BufTy).Contents (Elt F) → (⟨S1024x2, .f32⟩ : BufTy).Contents (Elt F)),
    binary main_v84 main_v89 main_v90 (subf : (⟨S1024x2, .f32⟩ : BufTy).Contents (Elt F) → (⟨S1024x2, .f32⟩ : BufTy).Contents (Elt F) → (⟨S1024x2, .f32⟩ : BufTy).Contents (Elt F)),
    unary main_v90 main_v91 (Host.exp : (⟨S1024x2, .f32⟩ : BufTy).Contents (Elt F) → (⟨S1024x2, .f32⟩ : BufTy).Contents (Elt F)),
    nullary main_cst_19 (constant S_ .f32 0x00000000#32),
    binary main_v91 main_cst_19 main_v92 ((fun x v => Host.reduceAdd x v reducesTo_S1024x2_S1024_d1 h_S_) : (⟨S1024x2, .f32⟩ : BufTy).Contents (Elt F) → (⟨S_, .f32⟩ : BufTy).Contents (Elt F) → (⟨S1024, .f32⟩ : BufTy).Contents (Elt F)),
    unary main_v92 main_v93 (broadcastInDim S1024x1 ![0] bcast_S1024_S1024x1_0 : (⟨S1024, .f32⟩ : BufTy).Contents (Elt F) → (⟨S1024x1, .f32⟩ : BufTy).Contents (Elt F)),
    unary main_v93 main_v94 (broadcastInDim S1024x2 ![0, 1] bcast_S1024x1_S1024x2_0_1 : (⟨S1024x1, .f32⟩ : BufTy).Contents (Elt F) → (⟨S1024x2, .f32⟩ : BufTy).Contents (Elt F)),
    binary main_v91 main_v94 main_v95 (Host.divf : (⟨S1024x2, .f32⟩ : BufTy).Contents (Elt F) → (⟨S1024x2, .f32⟩ : BufTy).Contents (Elt F) → (⟨S1024x2, .f32⟩ : BufTy).Contents (Elt F)) ]

/-- The list is the seven stretches in a row. -/
theorem ops_split : (ops : List (HloOp τ sig (Elt F))) = s1 ++ (s2 ++ (s3 ++ (s4 ++ (s5 ++ (s6 ++ s7))))) := rfl

/-! What each stretch finds on entry: the value the stretches before it made, at its stage of the arguments `x0 … x12`,
    and the arguments still to be read, unchanged. `I0` is the launch: every argument buffer at its `x`. -/

abbrev I0 (W : Valuation τ sig (Elt F)) (x0 : (⟨S1024x2, .i32⟩ : BufTy).Contents (Elt F)) (x1 : (⟨S10000x16, .i32⟩ : BufTy).Contents (Elt F)) (x2 : (⟨S10000x16x8, .i32⟩ : BufTy).Contents (Elt F)) (x3 : (⟨S10000x8, .i32⟩ : BufTy).Contents (Elt F)) (x4 : (⟨S100000x128, .f32⟩ : BufTy).Contents (Elt F)) (x5 : (⟨S128x128, .f32⟩ : BufTy).Contents (Elt F)) (x6 : (⟨S128x128, .f32⟩ : BufTy).Contents (Elt F)) (x7 : (⟨S128x128, .f32⟩ : BufTy).Contents (Elt F)) (x8 : (⟨S128x128, .f32⟩ : BufTy).Contents (Elt F)) (x9 : (⟨S128x256, .f32⟩ : BufTy).Contents (Elt F)) (x10 : (⟨S128, .f32⟩ : BufTy).Contents (Elt F)) (x11 : (⟨S2x128, .f32⟩ : BufTy).Contents (Elt F)) (x12 : (⟨S2, .f32⟩ : BufTy).Contents (Elt F)) : Prop :=
  W (Proc.devRef .tc main_arg0) = x0
    ∧ W (Proc.devRef .tc main_arg1) = x1
    ∧ W (Proc.devRef .tc main_arg2) = x2
    ∧ W (Proc.devRef .tc main_arg3) = x3
    ∧ W (Proc.devRef .tc main_arg4) = x4
    ∧ W (Proc.devRef .tc main_arg5) = x5
    ∧ W (Proc.devRef .tc main_arg6) = x6
    ∧ W (Proc.devRef .tc main_arg7) = x7
    ∧ W (Proc.devRef .tc main_arg8) = x8
    ∧ W (Proc.devRef .tc main_arg9) = x9
    ∧ W (Proc.devRef .tc main_arg10) = x10
    ∧ W (Proc.devRef .tc main_arg11) = x11
    ∧ W (Proc.devRef .tc main_arg12) = x12

abbrev I1 (W : Valuation τ sig (Elt F)) (x0 : (⟨S1024x2, .i32⟩ : BufTy).Contents (Elt F)) (x1 : (⟨S10000x16, .i32⟩ : BufTy).Contents (Elt F)) (x2 : (⟨S10000x16x8, .i32⟩ : BufTy).Contents (Elt F)) (x3 : (⟨S10000x8, .i32⟩ : BufTy).Contents (Elt F)) (x4 : (⟨S100000x128, .f32⟩ : BufTy).Contents (Elt F)) (x5 : (⟨S128x128, .f32⟩ : BufTy).Contents (Elt F)) (x6 : (⟨S128x128, .f32⟩ : BufTy).Contents (Elt F)) (x7 : (⟨S128x128, .f32⟩ : BufTy).Contents (Elt F)) (x8 : (⟨S128x128, .f32⟩ : BufTy).Contents (Elt F)) (x9 : (⟨S128x256, .f32⟩ : BufTy).Contents (Elt F)) (x10 : (⟨S128, .f32⟩ : BufTy).Contents (Elt F)) (x11 : (⟨S2x128, .f32⟩ : BufTy).Contents (Elt F)) (x12 : (⟨S2, .f32⟩ : BufTy).Contents (Elt F)) : Prop :=
  W (Proc.devRef .tc main_v19) = val_main_v19 x1 x2 x4 x5 x6
    ∧ W (Proc.devRef .tc main_arg0) = x0
    ∧ W (Proc.devRef .tc main_arg3) = x3
    ∧ W (Proc.devRef .tc main_arg7) = x7
    ∧ W (Proc.devRef .tc main_arg8) = x8
    ∧ W (Proc.devRef .tc main_arg9) = x9
    ∧ W (Proc.devRef .tc main_arg10) = x10
    ∧ W (Proc.devRef .tc main_arg11) = x11
    ∧ W (Proc.devRef .tc main_arg12) = x12

abbrev I2 (W : Valuation τ sig (Elt F)) (x0 : (⟨S1024x2, .i32⟩ : BufTy).Contents (Elt F)) (x1 : (⟨S10000x16, .i32⟩ : BufTy).Contents (Elt F)) (x2 : (⟨S10000x16x8, .i32⟩ : BufTy).Contents (Elt F)) (x3 : (⟨S10000x8, .i32⟩ : BufTy).Contents (Elt F)) (x4 : (⟨S100000x128, .f32⟩ : BufTy).Contents (Elt F)) (x5 : (⟨S128x128, .f32⟩ : BufTy).Contents (Elt F)) (x6 : (⟨S128x128, .f32⟩ : BufTy).Contents (Elt F)) (x7 : (⟨S128x128, .f32⟩ : BufTy).Contents (Elt F)) (x8 : (⟨S128x128, .f32⟩ : BufTy).Contents (Elt F)) (x9 : (⟨S128x256, .f32⟩ : BufTy).Contents (Elt F)) (x10 : (⟨S128, .f32⟩ : BufTy).Contents (Elt F)) (x11 : (⟨S2x128, .f32⟩ : BufTy).Contents (Elt F)) (x12 : (⟨S2, .f32⟩ : BufTy).Contents (Elt F)) : Prop :=
  W (Proc.devRef .tc main_v30) = val_main_v30 x1 x2 x4 x5 x6
    ∧ W (Proc.devRef .tc main_arg0) = x0
    ∧ W (Proc.devRef .tc main_arg3) = x3
    ∧ W (Proc.devRef .tc main_arg7) = x7
    ∧ W (Proc.devRef .tc main_arg8) = x8
    ∧ W (Proc.devRef .tc main_arg9) = x9
    ∧ W (Proc.devRef .tc main_arg10) = x10
    ∧ W (Proc.devRef .tc main_arg11) = x11
    ∧ W (Proc.devRef .tc main_arg12) = x12

abbrev I3 (W : Valuation τ sig (Elt F)) (x0 : (⟨S1024x2, .i32⟩ : BufTy).Contents (Elt F)) (x1 : (⟨S10000x16, .i32⟩ : BufTy).Contents (Elt F)) (x2 : (⟨S10000x16x8, .i32⟩ : BufTy).Contents (Elt F)) (x3 : (⟨S10000x8, .i32⟩ : BufTy).Contents (Elt F)) (x4 : (⟨S100000x128, .f32⟩ : BufTy).Contents (Elt F)) (x5 : (⟨S128x128, .f32⟩ : BufTy).Contents (Elt F)) (x6 : (⟨S128x128, .f32⟩ : BufTy).Contents (Elt F)) (x7 : (⟨S128x128, .f32⟩ : BufTy).Contents (Elt F)) (x8 : (⟨S128x128, .f32⟩ : BufTy).Contents (Elt F)) (x9 : (⟨S128x256, .f32⟩ : BufTy).Contents (Elt F)) (x10 : (⟨S128, .f32⟩ : BufTy).Contents (Elt F)) (x11 : (⟨S2x128, .f32⟩ : BufTy).Contents (Elt F)) (x12 : (⟨S2, .f32⟩ : BufTy).Contents (Elt F)) : Prop :=
  W (Proc.devRef .tc main_v42) = val_main_v42 x1 x2 x3 x4 x5 x6 x7 x8
    ∧ W (Proc.devRef .tc main_arg0) = x0
    ∧ W (Proc.devRef .tc main_arg9) = x9
    ∧ W (Proc.devRef .tc main_arg10) = x10
    ∧ W (Proc.devRef .tc main_arg11) = x11
    ∧ W (Proc.devRef .tc main_arg12) = x12

abbrev I4 (W : Valuation τ sig (Elt F)) (x0 : (⟨S1024x2, .i32⟩ : BufTy).Contents (Elt F)) (x1 : (⟨S10000x16, .i32⟩ : BufTy).Contents (Elt F)) (x2 : (⟨S10000x16x8, .i32⟩ : BufTy).Contents (Elt F)) (x3 : (⟨S10000x8, .i32⟩ : BufTy).Contents (Elt F)) (x4 : (⟨S100000x128, .f32⟩ : BufTy).Contents (Elt F)) (x5 : (⟨S128x128, .f32⟩ : BufTy).Contents (Elt F)) (x6 : (⟨S128x128, .f32⟩ : BufTy).Contents (Elt F)) (x7 : (⟨S128x128, .f32⟩ : BufTy).Contents (Elt F)) (x8 : (⟨S128x128, .f32⟩ : BufTy).Contents (Elt F)) (x9 : (⟨S128x256, .f32⟩ : BufTy).Contents (Elt F)) (x10 : (⟨S128, .f32⟩ : BufTy).Contents (Elt F)) (x11 : (⟨S2x128, .f32⟩ : BufTy).Contents (Elt F)) (x12 : (⟨S2, .f32⟩ : BufTy).Contents (Elt F)) : Prop :=
  W (Proc.devRef .tc main_v53) = val_main_v53 x1 x2 x3 x4 x5 x6 x7 x8
    ∧ W (Proc.devRef .tc main_arg0) = x0
    ∧ W (Proc.devRef .tc main_arg9) = x9
    ∧ W (Proc.devRef .tc main_arg10) = x10
    ∧ W (Proc.devRef .tc main_arg11) = x11
    ∧ W (Proc.devRef .tc main_arg12) = x12

abbrev I5 (W : Valuation τ sig (Elt F)) (x0 : (⟨S1024x2, .i32⟩ : BufTy).Contents (Elt F)) (x1 : (⟨S10000x16, .i32⟩ : BufTy).Contents (Elt F)) (x2 : (⟨S10000x16x8, .i32⟩ : BufTy).Contents (Elt F)) (x3 : (⟨S10000x8, .i32⟩ : BufTy).Contents (Elt F)) (x4 : (⟨S100000x128, .f32⟩ : BufTy).Contents (Elt F)) (x5 : (⟨S128x128, .f32⟩ : BufTy).Contents (Elt F)) (x6 : (⟨S128x128, .f32⟩ : BufTy).Contents (Elt F)) (x7 : (⟨S128x128, .f32⟩ : BufTy).Contents (Elt F)) (x8 : (⟨S128x128, .f32⟩ : BufTy).Contents (Elt F)) (x9 : (⟨S128x256, .f32⟩ : BufTy).Contents (Elt F)) (x10 : (⟨S128, .f32⟩ : BufTy).Contents (Elt F)) (x11 : (⟨S2x128, .f32⟩ : BufTy).Contents (Elt F)) (x12 : (⟨S2, .f32⟩ : BufTy).Contents (Elt F)) : Prop :=
  W (Proc.devRef .tc main_v72) = val_main_v72 x0 x1 x2 x3 x4 x5 x6 x7 x8
    ∧ W (Proc.devRef .tc main_v73) = val_main_v73 x0 x1 x2 x3 x4 x5 x6 x7 x8
    ∧ W (Proc.devRef .tc main_arg9) = x9
    ∧ W (Proc.devRef .tc main_arg10) = x10
    ∧ W (Proc.devRef .tc main_arg11) = x11
    ∧ W (Proc.devRef .tc main_arg12) = x12

abbrev I6 (W : Valuation τ sig (Elt F)) (x0 : (⟨S1024x2, .i32⟩ : BufTy).Contents (Elt F)) (x1 : (⟨S10000x16, .i32⟩ : BufTy).Contents (Elt F)) (x2 : (⟨S10000x16x8, .i32⟩ : BufTy).Contents (Elt F)) (x3 : (⟨S10000x8, .i32⟩ : BufTy).Contents (Elt F)) (x4 : (⟨S100000x128, .f32⟩ : BufTy).Contents (Elt F)) (x5 : (⟨S128x128, .f32⟩ : BufTy).Contents (Elt F)) (x6 : (⟨S128x128, .f32⟩ : BufTy).Contents (Elt F)) (x7 : (⟨S128x128, .f32⟩ : BufTy).Contents (Elt F)) (x8 : (⟨S128x128, .f32⟩ : BufTy).Contents (Elt F)) (x9 : (⟨S128x256, .f32⟩ : BufTy).Contents (Elt F)) (x10 : (⟨S128, .f32⟩ : BufTy).Contents (Elt F)) (x11 : (⟨S2x128, .f32⟩ : BufTy).Contents (Elt F)) (x12 : (⟨S2, .f32⟩ : BufTy).Contents (Elt F)) : Prop :=
  W (Proc.devRef .tc main_v84) = val_main_v84 x0 x1 x2 x3 x4 x5 x6 x7 x8 x9 x10 x11 x12

/-! One step per stretch: from what it finds on entry (for any entry contents `W`) to what the next finds. The value
    conjunct: the stretch's operations composed, read at the entry contents, is the stage's definition unfolded down to the
    previous cut and no further. The other conjuncts: the stretch writes none of those buffers. -/

theorem T1 {W : Valuation τ sig (Elt F)} {x0 : (⟨S1024x2, .i32⟩ : BufTy).Contents (Elt F)} {x1 : (⟨S10000x16, .i32⟩ : BufTy).Contents (Elt F)} {x2 : (⟨S10000x16x8, .i32⟩ : BufTy).Contents (Elt F)} {x3 : (⟨S10000x8, .i32⟩ : BufTy).Contents (Elt F)} {x4 : (⟨S100000x128, .f32⟩ : BufTy).Contents (Elt F)} {x5 : (⟨S128x128, .f32⟩ : BufTy).Contents (Elt F)} {x6 : (⟨S128x128, .f32⟩ : BufTy).Contents (Elt F)} {x7 : (⟨S128x128, .f32⟩ : BufTy).Contents (Elt F)} {x8 : (⟨S128x128, .f32⟩ : BufTy).Contents (Elt F)} {x9 : (⟨S128x256, .f32⟩ : BufTy).Contents (Elt F)} {x10 : (⟨S128, .f32⟩ : BufTy).Contents (Elt F)} {x11 : (⟨S2x128, .f32⟩ : BufTy).Contents (Elt F)} {x12 : (⟨S2, .f32⟩ : BufTy).Contents (Elt F)}
    (h : I0 W x0 x1 x2 x3 x4 x5 x6 x7 x8 x9 x10 x11 x12) : I1 (after s1 W) x0 x1 x2 x3 x4 x5 x6 x7 x8 x9 x10 x11 x12 := by
  obtain ⟨a0, a1, a2, a3, a4, a5, a6, a7, a8, a9, a10, a11, a12⟩ := h
  unfold s1
  refine ⟨?_, ?_, ?_, ?_, ?_, ?_, ?_, ?_, ?_⟩
  · after_results_simp
    rw [a1, a2, a4, a5, a6]
    unfold val_main_v19 val_main_cst_3 val_main_v18 val_main_call0_v0 val_main_call0_cst val_main_v17 val_main_v16 val_main_v15 val_main_v14 val_main_cst val_main_v13 val_main_v12 val_main_v11 val_main_v10 val_main_v9 val_main_c_2 val_main_v8 val_main_v7 val_main_c_1 val_main_v6 val_main_v5 val_main_v4 val_main_v3 val_main_v2 val_main_c_0 val_main_v1 val_main_v0 val_main_c
    rfl
  all_goals (after_results_simp; assumption)

theorem T2 {W : Valuation τ sig (Elt F)} {x0 : (⟨S1024x2, .i32⟩ : BufTy).Contents (Elt F)} {x1 : (⟨S10000x16, .i32⟩ : BufTy).Contents (Elt F)} {x2 : (⟨S10000x16x8, .i32⟩ : BufTy).Contents (Elt F)} {x3 : (⟨S10000x8, .i32⟩ : BufTy).Contents (Elt F)} {x4 : (⟨S100000x128, .f32⟩ : BufTy).Contents (Elt F)} {x5 : (⟨S128x128, .f32⟩ : BufTy).Contents (Elt F)} {x6 : (⟨S128x128, .f32⟩ : BufTy).Contents (Elt F)} {x7 : (⟨S128x128, .f32⟩ : BufTy).Contents (Elt F)} {x8 : (⟨S128x128, .f32⟩ : BufTy).Contents (Elt F)} {x9 : (⟨S128x256, .f32⟩ : BufTy).Contents (Elt F)} {x10 : (⟨S128, .f32⟩ : BufTy).Contents (Elt F)} {x11 : (⟨S2x128, .f32⟩ : BufTy).Contents (Elt F)} {x12 : (⟨S2, .f32⟩ : BufTy).Contents (Elt F)}
    (h : I1 W x0 x1 x2 x3 x4 x5 x6 x7 x8 x9 x10 x11 x12) : I2 (after s2 W) x0 x1 x2 x3 x4 x5 x6 x7 x8 x9 x10 x11 x12 := by
  obtain ⟨h19, a0, a3, a7, a8, a9, a10, a11, a12⟩ := h
  unfold s2
  refine ⟨?_, ?_, ?_, ?_, ?_, ?_, ?_, ?_, ?_⟩
  · after_results_simp
    rw [h19]
    unfold val_main_v30 val_main_v29 val_main_v28 val_main_v27 val_main_cst_6 val_main_v26 val_main_v25 val_main_v24 val_main_v23 val_main_v22 val_main_v21 val_main_cst_5 val_main_v20 val_main_cst_4
    rfl
  all_goals (after_results_simp; assumption)

theorem T3 {W : Valuation τ sig (Elt F)} {x0 : (⟨S1024x2, .i32⟩ : BufTy).Contents (Elt F)} {x1 : (⟨S10000x16, .i32⟩ : BufTy).Contents (Elt F)} {x2 : (⟨S10000x16x8, .i32⟩ : BufTy).Contents (Elt F)} {x3 : (⟨S10000x8, .i32⟩ : BufTy).Contents (Elt F)} {x4 : (⟨S100000x128, .f32⟩ : BufTy).Contents (Elt F)} {x5 : (⟨S128x128, .f32⟩ : BufTy).Contents (Elt F)} {x6 : (⟨S128x128, .f32⟩ : BufTy).Contents (Elt F)} {x7 : (⟨S128x128, .f32⟩ : BufTy).Contents (Elt F)} {x8 : (⟨S128x128, .f32⟩ : BufTy).Contents (Elt F)} {x9 : (⟨S128x256, .f32⟩ : BufTy).Contents (Elt F)} {x10 : (⟨S128, .f32⟩ : BufTy).Contents (Elt F)} {x11 : (⟨S2x128, .f32⟩ : BufTy).Contents (Elt F)} {x12 : (⟨S2, .f32⟩ : BufTy).Contents (Elt F)}
    (h : I2 W x0 x1 x2 x3 x4 x5 x6 x7 x8 x9 x10 x11 x12) : I3 (after s3 W) x0 x1 x2 x3 x4 x5 x6 x7 x8 x9 x10 x11 x12 := by
  obtain ⟨h30, a0, a3, a7, a8, a9, a10, a11, a12⟩ := h
  unfold s3
  refine ⟨?_, ?_, ?_, ?_, ?_, ?_⟩
  · after_results_simp
    rw [h30, a3, a7, a8]
    unfold val_main_v42 val_main_call1_v0 val_main_call1_cst val_main_v41 val_main_v40 val_main_v39 val_main_cst_9 val_main_v38 val_main_v37 val_main_v36 val_main_v35 val_main_v34 val_main_c_8 val_main_v33 val_main_v32 val_main_c_7 val_main_v31
    rfl
  all_goals (after_results_simp; assumption)

theorem T4 {W : Valuation τ sig (Elt F)} {x0 : (⟨S1024x2, .i32⟩ : BufTy).Contents (Elt F)} {x1 : (⟨S10000x16, .i32⟩ : BufTy).Contents (Elt F)} {x2 : (⟨S10000x16x8, .i32⟩ : BufTy).Contents (Elt F)} {x3 : (⟨S10000x8, .i32⟩ : BufTy).Contents (Elt F)} {x4 : (⟨S100000x128, .f32⟩ : BufTy).Contents (Elt F)} {x5 : (⟨S128x128, .f32⟩ : BufTy).Contents (Elt F)} {x6 : (⟨S128x128, .f32⟩ : BufTy).Contents (Elt F)} {x7 : (⟨S128x128, .f32⟩ : BufTy).Contents (Elt F)} {x8 : (⟨S128x128, .f32⟩ : BufTy).Contents (Elt F)} {x9 : (⟨S128x256, .f32⟩ : BufTy).Contents (Elt F)} {x10 : (⟨S128, .f32⟩ : BufTy).Contents (Elt F)} {x11 : (⟨S2x128, .f32⟩ : BufTy).Contents (Elt F)} {x12 : (⟨S2, .f32⟩ : BufTy).Contents (Elt F)}
    (h : I3 W x0 x1 x2 x3 x4 x5 x6 x7 x8 x9 x10 x11 x12) : I4 (after s4 W) x0 x1 x2 x3 x4 x5 x6 x7 x8 x9 x10 x11 x12 := by
  obtain ⟨h42, a0, a9, a10, a11, a12⟩ := h
  unfold s4
  refine ⟨?_, ?_, ?_, ?_, ?_, ?_⟩
  · after_results_simp
    rw [h42]
    unfold val_main_v53 val_main_v52 val_main_v51 val_main_v50 val_main_cst_12 val_main_v49 val_main_v48 val_main_v47 val_main_v46 val_main_v45 val_main_v44 val_main_cst_11 val_main_v43 val_main_cst_10
    rfl
  all_goals (after_results_simp; assumption)

theorem T5 {W : Valuation τ sig (Elt F)} {x0 : (⟨S1024x2, .i32⟩ : BufTy).Contents (Elt F)} {x1 : (⟨S10000x16, .i32⟩ : BufTy).Contents (Elt F)} {x2 : (⟨S10000x16x8, .i32⟩ : BufTy).Contents (Elt F)} {x3 : (⟨S10000x8, .i32⟩ : BufTy).Contents (Elt F)} {x4 : (⟨S100000x128, .f32⟩ : BufTy).Contents (Elt F)} {x5 : (⟨S128x128, .f32⟩ : BufTy).Contents (Elt F)} {x6 : (⟨S128x128, .f32⟩ : BufTy).Contents (Elt F)} {x7 : (⟨S128x128, .f32⟩ : BufTy).Contents (Elt F)} {x8 : (⟨S128x128, .f32⟩ : BufTy).Contents (Elt F)} {x9 : (⟨S128x256, .f32⟩ : BufTy).Contents (Elt F)} {x10 : (⟨S128, .f32⟩ : BufTy).Contents (Elt F)} {x11 : (⟨S2x128, .f32⟩ : BufTy).Contents (Elt F)} {x12 : (⟨S2, .f32⟩ : BufTy).Contents (Elt F)}
    (h : I4 W x0 x1 x2 x3 x4 x5 x6 x7 x8 x9 x10 x11 x12) : I5 (after s5 W) x0 x1 x2 x3 x4 x5 x6 x7 x8 x9 x10 x11 x12 := by
  obtain ⟨h53, a0, a9, a10, a11, a12⟩ := h
  unfold s5
  refine ⟨?_, ?_, ?_, ?_, ?_, ?_⟩
  · after_results_simp
    rw [h53, a0]
    unfold val_main_v72 val_main_v71 val_main_v70 val_main_v69 val_main_v68 val_main_v67 val_main_c_16 val_main_v66 val_main_v65 val_main_c_15 val_main_v64 val_main_v63 val_main_v62 val_main_v61 val_main_v60 val_main_v59 val_main_v58 val_main_c_14 val_main_v57 val_main_v56 val_main_c_13 val_main_v55 val_main_v54
    rfl
  · after_results_simp
    rw [h53, a0]
    unfold val_main_v73 val_main_v71 val_main_v70 val_main_v69 val_main_v68 val_main_v67 val_main_c_16 val_main_v66 val_main_v65 val_main_c_15 val_main_v64 val_main_v63 val_main_v62 val_main_v61 val_main_v60 val_main_v59 val_main_v58 val_main_c_14 val_main_v57 val_main_v56 val_main_c_13 val_main_v55 val_main_v54
    rfl
  all_goals (after_results_simp; assumption)

theorem T6 {W : Valuation τ sig (Elt F)} {x0 : (⟨S1024x2, .i32⟩ : BufTy).Contents (Elt F)} {x1 : (⟨S10000x16, .i32⟩ : BufTy).Contents (Elt F)} {x2 : (⟨S10000x16x8, .i32⟩ : BufTy).Contents (Elt F)} {x3 : (⟨S10000x8, .i32⟩ : BufTy).Contents (Elt F)} {x4 : (⟨S100000x128, .f32⟩ : BufTy).Contents (Elt F)} {x5 : (⟨S128x128, .f32⟩ : BufTy).Contents (Elt F)} {x6 : (⟨S128x128, .f32⟩ : BufTy).Contents (Elt F)} {x7 : (⟨S128x128, .f32⟩ : BufTy).Contents (Elt F)} {x8 : (⟨S128x128, .f32⟩ : BufTy).Contents (Elt F)} {x9 : (⟨S128x256, .f32⟩ : BufTy).Contents (Elt F)} {x10 : (⟨S128, .f32⟩ : BufTy).Contents (Elt F)} {x11 : (⟨S2x128, .f32⟩ : BufTy).Contents (Elt F)} {x12 : (⟨S2, .f32⟩ : BufTy).Contents (Elt F)}
    (h : I5 W x0 x1 x2 x3 x4 x5 x6 x7 x8 x9 x10 x11 x12) : I6 (after s6 W) x0 x1 x2 x3 x4 x5 x6 x7 x8 x9 x10 x11 x12 := by
  obtain ⟨h72, h73, a9, a10, a11, a12⟩ := h
  unfold s6
  show after _ W (Proc.devRef .tc main_v84) = _
  after_results_simp
  rw [h72, h73, a9, a10, a11, a12]
  unfold val_main_v84 val_main_v83 val_main_v82 val_main_v81 val_main_v80 val_main_v79 val_main_v78 val_main_v77 val_main_v76 val_main_v75 val_main_v74
  rfl

theorem T7 {W : Valuation τ sig (Elt F)} {x0 : (⟨S1024x2, .i32⟩ : BufTy).Contents (Elt F)} {x1 : (⟨S10000x16, .i32⟩ : BufTy).Contents (Elt F)} {x2 : (⟨S10000x16x8, .i32⟩ : BufTy).Contents (Elt F)} {x3 : (⟨S10000x8, .i32⟩ : BufTy).Contents (Elt F)} {x4 : (⟨S100000x128, .f32⟩ : BufTy).Contents (Elt F)} {x5 : (⟨S128x128, .f32⟩ : BufTy).Contents (Elt F)} {x6 : (⟨S128x128, .f32⟩ : BufTy).Contents (Elt F)} {x7 : (⟨S128x128, .f32⟩ : BufTy).Contents (Elt F)} {x8 : (⟨S128x128, .f32⟩ : BufTy).Contents (Elt F)} {x9 : (⟨S128x256, .f32⟩ : BufTy).Contents (Elt F)} {x10 : (⟨S128, .f32⟩ : BufTy).Contents (Elt F)} {x11 : (⟨S2x128, .f32⟩ : BufTy).Contents (Elt F)} {x12 : (⟨S2, .f32⟩ : BufTy).Contents (Elt F)}
    (h : I6 W x0 x1 x2 x3 x4 x5 x6 x7 x8 x9 x10 x11 x12) : after s7 W (Proc.devRef .tc main_v95) = val_main_v95 x0 x1 x2 x3 x4 x5 x6 x7 x8 x9 x10 x11 x12 := by
  unfold s7
  after_results_simp
  rw [show W (Proc.devRef .tc main_v84) = _ from h]
  unfold val_main_v95 val_main_v94 val_main_v93 val_main_v92 val_main_cst_19 val_main_v91 val_main_v90 val_main_v89 val_main_v88 val_main_v87 val_main_v86 val_main_cst_18 val_main_v85 val_main_cst_17
  rfl

/-- The whole list's value at the result buffer, from any entry contents: the last stage of the entry contents of the
    thirteen arguments. -/
theorem value (W : Valuation τ sig (Elt F)) :
    after ops W (Proc.devRef .tc main_v95) = val_main_v95 (W (Proc.devRef .tc main_arg0)) (W (Proc.devRef .tc main_arg1)) (W (Proc.devRef .tc main_arg2)) (W (Proc.devRef .tc main_arg3)) (W (Proc.devRef .tc main_arg4)) (W (Proc.devRef .tc main_arg5)) (W (Proc.devRef .tc main_arg6)) (W (Proc.devRef .tc main_arg7)) (W (Proc.devRef .tc main_arg8)) (W (Proc.devRef .tc main_arg9)) (W (Proc.devRef .tc main_arg10)) (W (Proc.devRef .tc main_arg11)) (W (Proc.devRef .tc main_arg12)) := by
  rw [ops_split, after_append, after_append, after_append, after_append, after_append, after_append]
  exact T7 (T6 (T5 (T4 (T3 (T2 (T1 (W := W) ⟨rfl, rfl, rfl, rfl, rfl, rfl, rfl, rfl, rfl, rfl, rfl, rfl, rfl⟩))))))

end Walk

set_option maxRecDepth 8192 in
set_option maxHeartbeats 4000000 in
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v95) = val_main_v95 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12) :=
  (θ_run defs _ _).mono (fun _ h c => ⟨(h c main_v95).trans (Walk.value _),
      (h c main_arg0).trans (by after_results_simp <;> rfl),
      (h c main_arg1).trans (by after_results_simp <;> rfl),
      (h c main_arg2).trans (by after_results_simp <;> rfl),
      (h c main_arg3).trans (by after_results_simp <;> rfl),
      (h c main_arg4).trans (by after_results_simp <;> rfl),
      (h c main_arg5).trans (by after_results_simp <;> rfl),
      (h c main_arg6).trans (by after_results_simp <;> rfl),
      (h c main_arg7).trans (by after_results_simp <;> rfl),
      (h c main_arg8).trans (by after_results_simp <;> rfl),
      (h c main_arg9).trans (by after_results_simp <;> rfl),
      (h c main_arg10).trans (by after_results_simp <;> rfl),
      (h c main_arg11).trans (by after_results_simp <;> rfl),
      (h c main_arg12).trans (by after_results_simp <;> rfl)⟩)
    (run_seq scopedRefs_eq scopedSems_eq defs main (fun _ => ops) main_eq (fun _ => ops_sub) m ρ)

end Cert.ReferenceIdeal.RunH

end
-- ==== Proof.RefA.lean ====
/-
  The reference's first layer, read stage by stage at an index: its [10000,128] array after the softmax is
  `Spec.intEnc` of the two looked-up arrays and the two weight matrices transposed (the reference contracts a
  matrix's second axis, which is the transposed matrix's first).
-/
import proofs.«161755_j63118839382588_1_alg».proof.Proof.RefRead
import proofs.«161755_j63118839382588_1_alg».proof.Proof.Spec
import proofs.«161755_j63118839382588_1_alg».proof.Proof.Glue
import proofs.«161755_j63118839382588_1_alg».proof.Proof.LibSoftmax
import Idealize.ShloMosaic.Lib.Pipeline.Value
import Idealize.ShloMosaic.Lib.ValueIdx
import Idealize.ShloMosaic.PureOps.Ideal.Laws

noncomputable section

namespace Cert.ReferenceIdeal.RefA

open Cert.ReferenceIdeal Cert.ReferenceIdeal.Gen Cert.ReferenceIdeal.ReadP Idealize.ShloMosaic Idealize.ShloMosaic.TcCoe Idealize.ShloMosaic.ValueIdx Idealize.SL.Sem Idealize.ShloMosaic.StableHlo

/-- The first layer before its softmax, read at `(n, d)`: the zero initial value drops, each slot's term is the relu of
    the two contractions' sum, and a weight matrix read at `(d, e)` is its transpose at `(e, d)`. -/
theorem conv_apply (x1 : (⟨S10000x16, .i32⟩ : BufTy).Contents (Elt Ideal)) (x2 : (⟨S10000x16x8, .i32⟩ : BufTy).Contents (Elt Ideal)) (x4 : (⟨S100000x128, .f32⟩ : BufTy).Contents (Elt Ideal)) (x5 x6 : (⟨S128x128, .f32⟩ : BufTy).Contents (Elt Ideal)) (n : Fin 10000) (d : Fin 128) :
    val_main_v19 (F := Ideal) x1 x2 x4 x5 x6 (ix2 n d)
      = Spec.convA (N := 10000) (Glue.nodeE x1 x4) (Glue.neighSum x2 x4) (Spec.tr x5) (Spec.tr x6) n d := by
  rw [val_main_v19_apply, val_main_cst_3_apply, Ideal.ofBits_def, Ideal.ofBits_zero_f32, zero_add]
  unfold Spec.convA
  refine Finset.sum_congr rfl fun k _ => ?_
  rw [val_main_v18_apply, val_main_v17_apply, val_main_v15_apply, val_main_v16_apply, val_main_call0_v0_apply,
    val_main_call0_cst_apply]
  simp only [Ideal.maximumf_def, Ideal.addf_def, Ideal.ofBits_def, Ideal.ofBits_zero_f32]
  -- slot k of row n: the looked-up arrays are read at (n, k, e), the matrices at (d, e)
  have hl15 : ∀ e : Fin 128, lidx_main_v15 (idx_main_v19 (ix2 n d) k) e = ix3 n k e := fun e =>
    funext fun a => Fin.ext (by match a with | ⟨0, _⟩ => rfl | ⟨1, _⟩ => rfl | ⟨2, _⟩ => rfl)
  have hr15 : ∀ e : Fin 128, ridx_main_v15 (idx_main_v19 (ix2 n d) k) e = ix2 d e := fun e =>
    funext fun a => Fin.ext (by match a with | ⟨0, _⟩ => rfl | ⟨1, _⟩ => rfl)
  have hl16 : ∀ e : Fin 128, lidx_main_v16 (idx_main_v19 (ix2 n d) k) e = ix3 n k e := fun e =>
    funext fun a => Fin.ext (by match a with | ⟨0, _⟩ => rfl | ⟨1, _⟩ => rfl | ⟨2, _⟩ => rfl)
  have hr16 : ∀ e : Fin 128, ridx_main_v16 (idx_main_v19 (ix2 n d) k) e = ix2 d e := fun e =>
    funext fun a => Fin.ext (by match a with | ⟨0, _⟩ => rfl | ⟨1, _⟩ => rfl)
  simp only [hl15, hr15, hl16, hr16, Spec.tr_apply]

/-- The row maximum the reference subtracts, read at row `n`: the fold of `max` from -∞ over the row, joined once more
    with -∞. -/
theorem rowmax_apply (x1 : (⟨S10000x16, .i32⟩ : BufTy).Contents (Elt Ideal)) (x2 : (⟨S10000x16x8, .i32⟩ : BufTy).Contents (Elt Ideal)) (x4 : (⟨S100000x128, .f32⟩ : BufTy).Contents (Elt Ideal)) (x5 x6 : (⟨S128x128, .f32⟩ : BufTy).Contents (Elt Ideal)) (n : Fin 10000) :
    val_main_v22 (F := Ideal) x1 x2 x4 x5 x6 (ix1 n)
      = Spec.rowMax (fun d' : Fin 128 => val_main_v19 (F := Ideal) x1 x2 x4 x5 x6 (ix2 n d')) := by
  rw [val_main_v22_apply, val_main_v21_apply, val_main_cst_5_apply]
  unfold val_main_v20
  rw [LibSoftmax.host_rowmax_apply (R := 10000) (C := 128), val_main_cst_4_apply]
  simp only [Ideal.maximumf_def, Ideal.ofBits_def]
  rfl

/-- The exponential of an entry less its row's maximum, read at `(n, d)`. -/
theorem exp_apply (x1 : (⟨S10000x16, .i32⟩ : BufTy).Contents (Elt Ideal)) (x2 : (⟨S10000x16x8, .i32⟩ : BufTy).Contents (Elt Ideal)) (x4 : (⟨S100000x128, .f32⟩ : BufTy).Contents (Elt Ideal)) (x5 x6 : (⟨S128x128, .f32⟩ : BufTy).Contents (Elt Ideal)) (n : Fin 10000) (d : Fin 128) :
    val_main_v26 (F := Ideal) x1 x2 x4 x5 x6 (ix2 n d)
      = Ideal.exp (val_main_v19 (F := Ideal) x1 x2 x4 x5 x6 (ix2 n d)
          - Spec.rowMax (fun d' : Fin 128 => val_main_v19 (F := Ideal) x1 x2 x4 x5 x6 (ix2 n d'))) := by
  rw [val_main_v26_apply, val_main_v25_apply, val_main_v24_apply, val_main_v23_apply]
  have h : idx_main_v23 (idx_main_v24 (ix2 n d)) = ix1 n :=
    funext fun a => Fin.ext (by match a with | ⟨0, _⟩ => rfl)
  rw [h, rowmax_apply]
  simp only [Ideal.hostUnary_exp_def, Ideal.subf_def]

theorem ie_eq (x1 : (⟨S10000x16, .i32⟩ : BufTy).Contents (Elt Ideal)) (x2 : (⟨S10000x16x8, .i32⟩ : BufTy).Contents (Elt Ideal)) (x4 : (⟨S100000x128, .f32⟩ : BufTy).Contents (Elt Ideal)) (x5 x6 : (⟨S128x128, .f32⟩ : BufTy).Contents (Elt Ideal)) :
    val_main_v30 (F := Ideal) x1 x2 x4 x5 x6 = Glue.ie x1 x2 x4 x5 x6 := by
  funext i
  obtain ⟨n, d, rfl⟩ : ∃ (n : Fin 10000) (d : Fin 128), i = ix2 n d := ⟨i 0, i 1, eq_ix2 i⟩
  rw [val_main_v30_apply, val_main_v29_apply, val_main_v28_apply]
  -- the divisor is the row's sum, whatever the column
  have h : idx_main_v28 (idx_main_v29 (ix2 n d)) = ix1 n :=
    funext fun a => Fin.ext (by match a with | ⟨0, _⟩ => rfl)
  rw [h, val_main_v27_apply, val_main_cst_6_apply, Ideal.ofBits_def, Ideal.ofBits_zero_f32, zero_add]
  have h27 : ∀ k : Fin 128, idx_main_v27 (ix1 n) k = ix2 n k := fun k =>
    funext fun a => Fin.ext (by match a with | ⟨0, _⟩ => rfl | ⟨1, _⟩ => rfl)
  simp only [h27, exp_apply, Ideal.hostDivf_def, conv_apply]
  -- what is left is the softmax of the row of `Spec.convA`, which is `Spec.intEnc` at `(n, d)` by definition
  rfl

end Cert.ReferenceIdeal.RefA

end
-- ==== Proof.RefB.lean ====
/-
  The reference's second layer, read stage by stage at an index: its [10000,128] array after the softmax is
  `Spec.extEnc` of the first layer's array, that array's rows at the external neighbours summed, and the two weight
  matrices transposed.
-/
import proofs.«161755_j63118839382588_1_alg».proof.Proof.RefRead
import proofs.«161755_j63118839382588_1_alg».proof.Proof.Spec
import proofs.«161755_j63118839382588_1_alg».proof.Proof.Glue
import proofs.«161755_j63118839382588_1_alg».proof.Proof.LibSoftmax
import Idealize.ShloMosaic.Lib.Pipeline.Value
import Idealize.ShloMosaic.Lib.ValueIdx
import Idealize.ShloMosaic.PureOps.Ideal.Laws

noncomputable section

namespace Cert.ReferenceIdeal.RefB

open Cert.ReferenceIdeal Cert.ReferenceIdeal.Gen Cert.ReferenceIdeal.ReadP Idealize.ShloMosaic Idealize.ShloMosaic.TcCoe Idealize.ShloMosaic.ValueIdx Idealize.SL.Sem Idealize.ShloMosaic.StableHlo

/-- The first layer's rows at the external neighbours, summed: the reference's stage is the shared look-up itself. -/
theorem v39_eq (x1 : (⟨S10000x16, .i32⟩ : BufTy).Contents (Elt Ideal)) (x2 : (⟨S10000x16x8, .i32⟩ : BufTy).Contents (Elt Ideal)) (x3 : (⟨S10000x8, .i32⟩ : BufTy).Contents (Elt Ideal)) (x4 : (⟨S100000x128, .f32⟩ : BufTy).Contents (Elt Ideal)) (x5 x6 : (⟨S128x128, .f32⟩ : BufTy).Contents (Elt Ideal)) :
    val_main_v39 (F := Ideal) x1 x2 x3 x4 x5 x6 = Glue.neighExt (F := Ideal) (val_main_v30 (F := Ideal) x1 x2 x4 x5 x6) x3 := rfl

/-- Before the softmax, at row `n` and column `d`: relu of the two products' sum. The reference contracts each weight
    matrix's second axis, which is the transposed matrix's first. -/
theorem v42_at (x1 : (⟨S10000x16, .i32⟩ : BufTy).Contents (Elt Ideal)) (x2 : (⟨S10000x16x8, .i32⟩ : BufTy).Contents (Elt Ideal)) (x3 : (⟨S10000x8, .i32⟩ : BufTy).Contents (Elt Ideal)) (x4 : (⟨S100000x128, .f32⟩ : BufTy).Contents (Elt Ideal)) (x5 x6 x7 x8 : (⟨S128x128, .f32⟩ : BufTy).Contents (Elt Ideal)) (n : Fin 10000) (d : Fin 128) :
    val_main_v42 (F := Ideal) x1 x2 x3 x4 x5 x6 x7 x8 (ix2 n d) = Spec.convB (N := 10000) (val_main_v30 (F := Ideal) x1 x2 x4 x5 x6) (Glue.neighExt (F := Ideal) (val_main_v30 (F := Ideal) x1 x2 x4 x5 x6) x3) (Spec.tr x7) (Spec.tr x8) n d := by
  rw [val_main_v42_apply, val_main_v41_apply, val_main_v31_apply, val_main_v40_apply, val_main_call1_v0_apply,
    val_main_call1_cst_apply, v39_eq]
  have hl31 : ∀ k : Fin 128, lidx_main_v31 (ix2 n d) k = ix2 n k := fun k =>
    funext fun a => Fin.ext (by match a with | ⟨0, _⟩ => rfl | ⟨1, _⟩ => rfl)
  have hr31 : ∀ k : Fin 128, ridx_main_v31 (ix2 n d) k = ix2 d k := fun k =>
    funext fun a => Fin.ext (by match a with | ⟨0, _⟩ => rfl | ⟨1, _⟩ => rfl)
  have hl40 : ∀ k : Fin 128, lidx_main_v40 (ix2 n d) k = ix2 n k := fun k =>
    funext fun a => Fin.ext (by match a with | ⟨0, _⟩ => rfl | ⟨1, _⟩ => rfl)
  have hr40 : ∀ k : Fin 128, ridx_main_v40 (ix2 n d) k = ix2 d k := fun k =>
    funext fun a => Fin.ext (by match a with | ⟨0, _⟩ => rfl | ⟨1, _⟩ => rfl)
  simp only [hl31, hr31, hl40, hr40, Ideal.maximumf_def, Ideal.addf_def, Ideal.ofBits_def, Ideal.ofBits_zero_f32]
  unfold Spec.convB
  simp only [Spec.tr_apply]

/-- The row maximum the reference subtracts, at row `n`: the fold of `max` from -∞ over the row, joined once more
    with -∞. -/
theorem v45_at (x1 : (⟨S10000x16, .i32⟩ : BufTy).Contents (Elt Ideal)) (x2 : (⟨S10000x16x8, .i32⟩ : BufTy).Contents (Elt Ideal)) (x3 : (⟨S10000x8, .i32⟩ : BufTy).Contents (Elt Ideal)) (x4 : (⟨S100000x128, .f32⟩ : BufTy).Contents (Elt Ideal)) (x5 x6 x7 x8 : (⟨S128x128, .f32⟩ : BufTy).Contents (Elt Ideal)) (n : Fin 10000) :
    val_main_v45 (F := Ideal) x1 x2 x3 x4 x5 x6 x7 x8 (ix1 n)
      = Spec.rowMax (fun d' : Fin 128 => val_main_v42 (F := Ideal) x1 x2 x3 x4 x5 x6 x7 x8 (ix2 n d')) := by
  rw [val_main_v45_apply, val_main_v44_apply, val_main_cst_11_apply]
  unfold val_main_v43
  rw [LibSoftmax.host_rowmax_apply (R := 10000) (C := 128), val_main_cst_10_apply]
  simp only [Ideal.maximumf_def, Ideal.ofBits_def]
  rfl

/-- The exponential stage at row `n` and column `d`: `exp` of the entry less its row's maximum. -/
theorem v49_at (x1 : (⟨S10000x16, .i32⟩ : BufTy).Contents (Elt Ideal)) (x2 : (⟨S10000x16x8, .i32⟩ : BufTy).Contents (Elt Ideal)) (x3 : (⟨S10000x8, .i32⟩ : BufTy).Contents (Elt Ideal)) (x4 : (⟨S100000x128, .f32⟩ : BufTy).Contents (Elt Ideal)) (x5 x6 x7 x8 : (⟨S128x128, .f32⟩ : BufTy).Contents (Elt Ideal)) (n : Fin 10000) (d : Fin 128) :
    val_main_v49 (F := Ideal) x1 x2 x3 x4 x5 x6 x7 x8 (ix2 n d)
      = Ideal.exp (Spec.convB (N := 10000) (val_main_v30 (F := Ideal) x1 x2 x4 x5 x6) (Glue.neighExt (F := Ideal) (val_main_v30 (F := Ideal) x1 x2 x4 x5 x6) x3) (Spec.tr x7) (Spec.tr x8) n d - Spec.rowMax (Spec.convB (N := 10000) (val_main_v30 (F := Ideal) x1 x2 x4 x5 x6) (Glue.neighExt (F := Ideal) (val_main_v30 (F := Ideal) x1 x2 x4 x5 x6) x3) (Spec.tr x7) (Spec.tr x8) n)) := by
  rw [val_main_v49_apply, val_main_v48_apply, val_main_v47_apply, val_main_v46_apply]
  have hi : idx_main_v46 (idx_main_v47 (ix2 n d)) = ix1 n :=
    funext fun a => Fin.ext (by match a with | ⟨0, _⟩ => rfl)
  rw [hi, v45_at]
  simp only [v42_at, Ideal.hostUnary_exp_def, Ideal.subf_def]

/-- The reference's second layer is `Spec.extEnc` of the first layer's array, its rows at the external neighbours
    summed, and the two weight matrices transposed. -/
theorem ee_rel (x1 : (⟨S10000x16, .i32⟩ : BufTy).Contents (Elt Ideal)) (x2 : (⟨S10000x16x8, .i32⟩ : BufTy).Contents (Elt Ideal)) (x3 : (⟨S10000x8, .i32⟩ : BufTy).Contents (Elt Ideal)) (x4 : (⟨S100000x128, .f32⟩ : BufTy).Contents (Elt Ideal)) (x5 x6 x7 x8 : (⟨S128x128, .f32⟩ : BufTy).Contents (Elt Ideal)) :
    val_main_v53 (F := Ideal) x1 x2 x3 x4 x5 x6 x7 x8
      = Spec.extEnc (N := 10000) (val_main_v30 (F := Ideal) x1 x2 x4 x5 x6)
          (Glue.neighExt (F := Ideal) (val_main_v30 (F := Ideal) x1 x2 x4 x5 x6) x3) (Spec.tr x7) (Spec.tr x8) := by
  funext i
  obtain ⟨n, d, rfl⟩ : ∃ (n : Fin 10000) (d : Fin 128), i = ix2 n d := ⟨i 0, i 1, eq_ix2 i⟩
  rw [val_main_v53_apply, val_main_v52_apply, val_main_v51_apply, val_main_v50_apply, val_main_cst_12_apply]
  have hi : ∀ k : Fin 128, idx_main_v50 (idx_main_v51 (idx_main_v52 (ix2 n d))) k = ix2 n k := fun k =>
    funext fun a => Fin.ext (by match a with | ⟨0, _⟩ => rfl | ⟨1, _⟩ => rfl)
  simp only [hi, v49_at, Ideal.hostDivf_def, Ideal.ofBits_def, Ideal.ofBits_zero_f32, zero_add]
  rfl

end Cert.ReferenceIdeal.RefB

end
-- ==== Proof.RefC.lean ====
/-
  The reference's third layer, read stage by stage at an index: its [1024,2] result is `Spec.linkOut` of the pairs'
  joined features (taken from the second layer's array), the two weight matrices transposed, and the two biases.
-/
import proofs.«161755_j63118839382588_1_alg».proof.Proof.RefRead
import proofs.«161755_j63118839382588_1_alg».proof.Proof.Spec
import proofs.«161755_j63118839382588_1_alg».proof.Proof.Glue
import proofs.«161755_j63118839382588_1_alg».proof.Proof.LibSoftmax
import Idealize.ShloMosaic.Lib.Pipeline.Value
import Idealize.ShloMosaic.Lib.ValueIdx
import Idealize.ShloMosaic.PureOps.Ideal.Laws

noncomputable section

namespace Cert.ReferenceIdeal.RefC

open Cert.ReferenceIdeal Cert.ReferenceIdeal.Gen Cert.ReferenceIdeal.ReadP Idealize.ShloMosaic Idealize.ShloMosaic.TcCoe Idealize.ShloMosaic.ValueIdx Idealize.SL.Sem Idealize.ShloMosaic.StableHlo

section Stages

variable (x0 : (⟨S1024x2, .i32⟩ : BufTy).Contents (Elt Ideal)) (x1 : (⟨S10000x16, .i32⟩ : BufTy).Contents (Elt Ideal))
  (x2 : (⟨S10000x16x8, .i32⟩ : BufTy).Contents (Elt Ideal)) (x3 : (⟨S10000x8, .i32⟩ : BufTy).Contents (Elt Ideal))
  (x4 : (⟨S100000x128, .f32⟩ : BufTy).Contents (Elt Ideal)) (x5 x6 x7 x8 : (⟨S128x128, .f32⟩ : BufTy).Contents (Elt Ideal))
  (x9 : (⟨S128x256, .f32⟩ : BufTy).Contents (Elt Ideal)) (x10 : (⟨S128, .f32⟩ : BufTy).Contents (Elt Ideal))
  (x11 : (⟨S2x128, .f32⟩ : BufTy).Contents (Elt Ideal)) (x12 : (⟨S2, .f32⟩ : BufTy).Contents (Elt Ideal))

/-- The joined features: the product and the sum of a pair's two rows of the second layer's array, side by side. -/
theorem feat_eq :
    val_main_v74 (F := Ideal) x0 x1 x2 x3 x4 x5 x6 x7 x8
      = Glue.featOf (F := Ideal) (Glue.pick0 (F := Ideal) (val_main_v53 (F := Ideal) x1 x2 x3 x4 x5 x6 x7 x8) x0)
          (Glue.pick1 (F := Ideal) (val_main_v53 (F := Ideal) x1 x2 x3 x4 x5 x6 x7 x8) x0) := by
  unfold val_main_v74 val_main_v73 val_main_v72 val_main_v71 val_main_v62 Glue.featOf Glue.pick0 Glue.pick1
  rfl

/-- The first weight matrix with its axes swapped. -/
theorem tr9 : val_main_v75 (F := Ideal) x9 = Spec.tr x9 := by
  funext i
  rw [val_main_v75_apply]
  exact congrArg x9 (funext fun a => Fin.ext (by match a with | ⟨0, _⟩ => rfl | ⟨1, _⟩ => rfl))

/-- The second weight matrix with its axes swapped. -/
theorem tr11 : val_main_v80 (F := Ideal) x11 = Spec.tr x11 := by
  funext i
  rw [val_main_v80_apply]
  exact congrArg x11 (funext fun a => Fin.ext (by match a with | ⟨0, _⟩ => rfl | ⟨1, _⟩ => rfl))

/-- The hidden layer at row `r`, column `d`: the 256 features against column `d` of the swapped matrix, plus the bias. -/
theorem hidden_at (r : Fin 1024) (d : Fin 128) :
    val_main_v79 (F := Ideal) x0 x1 x2 x3 x4 x5 x6 x7 x8 x9 x10 (ix2 r d)
      = Spec.hidden (B := 1024) (val_main_v74 (F := Ideal) x0 x1 x2 x3 x4 x5 x6 x7 x8) (Spec.tr x9) x10 r d := by
  rw [val_main_v79_apply, val_main_v76_apply, val_main_v78_apply, val_main_v77_apply, tr9]
  unfold Spec.hidden
  simp only [Ideal.addf_def]
  refine congrArg₂ (· + ·) (Finset.sum_congr rfl fun k _ => ?_) (congrArg x10 ?_)
  · have hl : lidx_main_v76 (ix2 r d) k = ix2 r k := funext fun a => Fin.ext (by match a with | ⟨0, _⟩ => rfl | ⟨1, _⟩ => rfl)
    have hr : ridx_main_v76 (ix2 r d) k = ix2 k d := funext fun a => Fin.ext (by match a with | ⟨0, _⟩ => rfl | ⟨1, _⟩ => rfl)
    rw [hl, hr]
  · exact funext fun a => Fin.ext (by match a with | ⟨0, _⟩ => rfl)

/-- The two logits at row `r`: the hidden layer against column `j` of the second swapped matrix, plus the bias. -/
theorem logits_at (r : Fin 1024) (j : Fin 2) :
    val_main_v84 (F := Ideal) x0 x1 x2 x3 x4 x5 x6 x7 x8 x9 x10 x11 x12 (ix2 r j)
      = Spec.logits (B := 1024) (val_main_v74 (F := Ideal) x0 x1 x2 x3 x4 x5 x6 x7 x8) (Spec.tr x9) x10 (Spec.tr x11) x12 r j := by
  rw [val_main_v84_apply, val_main_v81_apply, val_main_v83_apply, val_main_v82_apply, tr11]
  unfold Spec.logits
  simp only [Ideal.addf_def]
  refine congrArg₂ (· + ·) (Finset.sum_congr rfl fun k _ => ?_) (congrArg x12 ?_)
  · have hl : lidx_main_v81 (ix2 r j) k = ix2 r k := funext fun a => Fin.ext (by match a with | ⟨0, _⟩ => rfl | ⟨1, _⟩ => rfl)
    have hr : ridx_main_v81 (ix2 r j) k = ix2 k j := funext fun a => Fin.ext (by match a with | ⟨0, _⟩ => rfl | ⟨1, _⟩ => rfl)
    rw [hl, hr, hidden_at]
  · exact funext fun a => Fin.ext (by match a with | ⟨0, _⟩ => rfl)

/-- The row maximum, broadcast back along the row: the fold of `max` from -∞ over the two logits, joined with -∞. -/
theorem rowmax_at (r : Fin 1024) (j : Fin 2) :
    val_main_v89 (F := Ideal) x0 x1 x2 x3 x4 x5 x6 x7 x8 x9 x10 x11 x12 (ix2 r j)
      = Spec.rowMax (fun j' : Fin 2 => (val_main_v84 (F := Ideal) x0 x1 x2 x3 x4 x5 x6 x7 x8 x9 x10 x11 x12) (ix2 r j')) := by
  rw [val_main_v89_apply, val_main_v88_apply, val_main_v87_apply, val_main_v86_apply, val_main_cst_18_apply]
  have hi : idx_main_v88 (idx_main_v89 (ix2 r j)) = ix1 r := funext fun a => Fin.ext (by match a with | ⟨0, _⟩ => rfl)
  rw [hi]
  unfold val_main_v85
  rw [LibSoftmax.host_rowmax_apply (R := 1024) (C := 2), val_main_cst_17_apply]
  simp only [Ideal.maximumf_def, Ideal.ofBits_def]
  rfl

/-- The exponential of a logit less its row's maximum. -/
theorem exp_at (r : Fin 1024) (j : Fin 2) :
    val_main_v91 (F := Ideal) x0 x1 x2 x3 x4 x5 x6 x7 x8 x9 x10 x11 x12 (ix2 r j)
      = Ideal.exp ((val_main_v84 (F := Ideal) x0 x1 x2 x3 x4 x5 x6 x7 x8 x9 x10 x11 x12) (ix2 r j) - Spec.rowMax (fun j' : Fin 2 => (val_main_v84 (F := Ideal) x0 x1 x2 x3 x4 x5 x6 x7 x8 x9 x10 x11 x12) (ix2 r j'))) := by
  rw [val_main_v91_apply, val_main_v90_apply, rowmax_at]
  simp only [Ideal.hostUnary_exp_def, Ideal.subf_def]

/-- The row's sum of exponentials, broadcast back along the row. -/
theorem sum_at (r : Fin 1024) (j : Fin 2) :
    val_main_v94 (F := Ideal) x0 x1 x2 x3 x4 x5 x6 x7 x8 x9 x10 x11 x12 (ix2 r j)
      = ∑ k : Fin 2, val_main_v91 (F := Ideal) x0 x1 x2 x3 x4 x5 x6 x7 x8 x9 x10 x11 x12 (ix2 r k) := by
  rw [val_main_v94_apply, val_main_v93_apply, val_main_v92_apply, val_main_cst_19_apply]
  simp only [Ideal.ofBits_def, Ideal.ofBits_zero_f32, zero_add]
  refine Finset.sum_congr rfl fun k _ => congrArg _ ?_
  exact funext fun a => Fin.ext (by match a with | ⟨0, _⟩ => rfl | ⟨1, _⟩ => rfl)

/-- The third layer's result at row `r`, column `j`: the softmax of the row's two logits. -/
theorem out_at (r : Fin 1024) (j : Fin 2) :
    val_main_v95 (F := Ideal) x0 x1 x2 x3 x4 x5 x6 x7 x8 x9 x10 x11 x12 (ix2 r j)
      = Spec.softmax (fun j' : Fin 2 => (val_main_v84 (F := Ideal) x0 x1 x2 x3 x4 x5 x6 x7 x8 x9 x10 x11 x12) (ix2 r j')) j := by
  rw [val_main_v95_apply, sum_at, exp_at]
  simp only [exp_at, Ideal.hostDivf_def]
  rfl

end Stages

theorem out_rel (x0 : (⟨S1024x2, .i32⟩ : BufTy).Contents (Elt Ideal)) (x1 : (⟨S10000x16, .i32⟩ : BufTy).Contents (Elt Ideal)) (x2 : (⟨S10000x16x8, .i32⟩ : BufTy).Contents (Elt Ideal)) (x3 : (⟨S10000x8, .i32⟩ : BufTy).Contents (Elt Ideal)) (x4 : (⟨S100000x128, .f32⟩ : BufTy).Contents (Elt Ideal)) (x5 x6 x7 x8 : (⟨S128x128, .f32⟩ : BufTy).Contents (Elt Ideal)) (x9 : (⟨S128x256, .f32⟩ : BufTy).Contents (Elt Ideal)) (x10 : (⟨S128, .f32⟩ : BufTy).Contents (Elt Ideal)) (x11 : (⟨S2x128, .f32⟩ : BufTy).Contents (Elt Ideal)) (x12 : (⟨S2, .f32⟩ : BufTy).Contents (Elt Ideal)) :
    val_main_v95 (F := Ideal) x0 x1 x2 x3 x4 x5 x6 x7 x8 x9 x10 x11 x12
      = Spec.linkOut (B := 1024)
          (Glue.featOf (F := Ideal) (Glue.pick0 (F := Ideal) (val_main_v53 (F := Ideal) x1 x2 x3 x4 x5 x6 x7 x8) x0)
            (Glue.pick1 (F := Ideal) (val_main_v53 (F := Ideal) x1 x2 x3 x4 x5 x6 x7 x8) x0))
          (Spec.tr x9) x10 (Spec.tr x11) x12 := by
  rw [← feat_eq x0 x1 x2 x3 x4 x5 x6 x7 x8]
  funext i
  obtain ⟨r, j, rfl⟩ : ∃ (r : Fin 1024) (j : Fin 2), i = ix2 r j := ⟨i 0, i 1, eq_ix2 i⟩
  rw [out_at]
  unfold Spec.linkOut
  exact congrArg (fun f => Spec.softmax f j) (funext fun j' => logits_at x0 x1 x2 x3 x4 x5 x6 x7 x8 x9 x10 x11 x12 r j')

end Cert.ReferenceIdeal.RefC

end
-- ==== Proof.RefValue.lean ====
/-
  The reference's result, as a function of @main's arguments, is `Glue.out`: its three layers one after the other.
-/
import proofs.«161755_j63118839382588_1_alg».proof.Proof.RefRead
import proofs.«161755_j63118839382588_1_alg».proof.Proof.Spec
import proofs.«161755_j63118839382588_1_alg».proof.Proof.Glue
import proofs.«161755_j63118839382588_1_alg».proof.Proof.RefA
import proofs.«161755_j63118839382588_1_alg».proof.Proof.RefB
import proofs.«161755_j63118839382588_1_alg».proof.Proof.RefC
import Idealize.ShloMosaic.Lib.Pipeline.Value
import Idealize.ShloMosaic.Lib.ValueIdx
import Idealize.ShloMosaic.PureOps.Ideal.Laws

noncomputable section

namespace Cert.ReferenceIdeal.RefValue

open Cert.ReferenceIdeal Cert.ReferenceIdeal.Gen Cert.ReferenceIdeal.ReadP Idealize.ShloMosaic Idealize.ShloMosaic.TcCoe Idealize.ShloMosaic.ValueIdx Idealize.SL.Sem Idealize.ShloMosaic.StableHlo

theorem out_eq (x0 : (⟨S1024x2, .i32⟩ : BufTy).Contents (Elt Ideal)) (x1 : (⟨S10000x16, .i32⟩ : BufTy).Contents (Elt Ideal)) (x2 : (⟨S10000x16x8, .i32⟩ : BufTy).Contents (Elt Ideal)) (x3 : (⟨S10000x8, .i32⟩ : BufTy).Contents (Elt Ideal)) (x4 : (⟨S100000x128, .f32⟩ : BufTy).Contents (Elt Ideal)) (x5 x6 x7 x8 : (⟨S128x128, .f32⟩ : BufTy).Contents (Elt Ideal)) (x9 : (⟨S128x256, .f32⟩ : BufTy).Contents (Elt Ideal)) (x10 : (⟨S128, .f32⟩ : BufTy).Contents (Elt Ideal)) (x11 : (⟨S2x128, .f32⟩ : BufTy).Contents (Elt Ideal)) (x12 : (⟨S2, .f32⟩ : BufTy).Contents (Elt Ideal)) :
    val_main_v95 (F := Ideal) x0 x1 x2 x3 x4 x5 x6 x7 x8 x9 x10 x11 x12 = Glue.out x0 x1 x2 x3 x4 x5 x6 x7 x8 x9 x10 x11 x12 := by
  rw [RefC.out_rel, RefB.ee_rel, RefA.ie_eq]
  rfl

end Cert.ReferenceIdeal.RefValue

end
-- ==== Proof.lean ====
/-
  The certificate of a three-layer graph network's link predictor: a kernel program of three pallas_calls against its
  jnp reference, equal over the extended reals.

  Both programs compute, from two integer index tables, an embedding table and the weight matrices W, M, U, V, W1, W2
  with biases b1, b2:
    1. for every node n the softmax over 128 columns of  Σ_k relu (Emb[nodes[n,k]]·Wᵀ + (Σ_j Emb[neigh[n,k,j]])·Mᵀ);
    2. for every node n the softmax over 128 columns of  relu (enc1[n]·Uᵀ + (Σ_j enc1[ext[n,j]])·Vᵀ);
    3. for every pair b the softmax over 2 columns of  ((enc2[p]·enc2[q] ‖ enc2[p]+enc2[q])·W1ᵀ + b1)·W2ᵀ + b2.
  The kernel does the three arithmetic layers in its three regions (rows in blocks of 1000, 2000 and all 1024 at once),
  the sixteen slots of layer 1 added one after the other, with the table look-ups and the transposes on the host between
  them; the reference does everything on the host, contracting each weight matrix's second axis instead of transposing.
  On the extended reals a change of float format is the identity, a matrix product is the textbook sum whichever unit
  forms it, and addition is commutative and associative, so both results are ONE function of the arguments,
  `Glue.out` — no law that fails at an infinity is used, and the precondition is never opened.

  The kernel's result array is read off its run region by region (each region's array is its layer applied to the
  arrays it entered with; the host operations between regions are the reference's own look-ups, carried unopened);
  the reference's result is read stage by stage. `preserves` holds trivially: the idealization rewrote nothing.
-/
import proofs.«161755_j63118839382588_1_alg».proof.Defs
import proofs.«161755_j63118839382588_1_alg».proof.Proof.Gen.Kernel
import proofs.«161755_j63118839382588_1_alg».proof.Proof.Gen.Kernel.Skeleton
import proofs.«161755_j63118839382588_1_alg».proof.Proof.Gen.Kernel.Launch
import proofs.«161755_j63118839382588_1_alg».proof.Proof.Gen.Kernel.Points
import proofs.«161755_j63118839382588_1_alg».proof.Proof.Gen.Kernel.Frame
import proofs.«161755_j63118839382588_1_alg».proof.Proof.Gen.KernelIdeal
import proofs.«161755_j63118839382588_1_alg».proof.Proof.Gen.KernelIdeal.Skeleton
import proofs.«161755_j63118839382588_1_alg».proof.Proof.Gen.KernelIdeal.Launch
import proofs.«161755_j63118839382588_1_alg».proof.Proof.Gen.KernelIdeal.Points
import proofs.«161755_j63118839382588_1_alg».proof.Proof.Gen.KernelIdeal.Frame
import proofs.«161755_j63118839382588_1_alg».proof.Proof.Gen.ReferenceIdeal
import proofs.«161755_j63118839382588_1_alg».proof.Proof.Gen.Pre_finite_inputs
import proofs.«161755_j63118839382588_1_alg».proof.Proof.KRun
import proofs.«161755_j63118839382588_1_alg».proof.Proof.KValue
import proofs.«161755_j63118839382588_1_alg».proof.Proof.RefRun
import proofs.«161755_j63118839382588_1_alg».proof.Proof.RefValue
import Idealize.ShloMosaic.Adequacy
import Idealize.ShloMosaic.Init

noncomputable section

namespace Cert.Proof

open Idealize.ShloMosaic Idealize.SL.Sem

/-- The word-level kernel program runs and leaves its arguments as launched. -/
theorem frame_kernel : Cert.frame_Kernel := fun m ρ _ => Cert.Kernel.Gen.frame m ρ

/-- The idealized kernel program runs and leaves its arguments as launched. -/
theorem frame_kernelIdeal : Cert.frame_KernelIdeal := fun m ρ _ => Cert.KernelIdeal.Gen.frame m ρ

/-- The reference runs and leaves its arguments as launched: its run with the result dropped. -/
theorem frame_referenceIdeal : Cert.frame_ReferenceIdeal := fun m ρ _ =>
  (θ_run Cert.ReferenceIdeal.defs _ _).mono (fun _ h c => (h c).2) (Cert.ReferenceIdeal.RunH.run (F := Ideal) m ρ)

/-- The idealization rewrote no operation. -/
theorem preserves : Cert.preserves_Kernel_KernelIdeal := trivial

/-- From memories that agree on the arguments both programs end with their result arrays at `Glue.out` of the
    arguments: the kernel's by its regions' layers, the reference's by its stages. -/
theorem algebraic : Cert.algebraic_KernelIdeal_ReferenceIdeal := by
  intro m ρ m' ρ' _ hagree
  refine ⟨fun c => Cert.Glue.out (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)), ?_, ?_⟩
  · exact (θ_run Cert.KernelIdeal.defs _ _).mono
      (fun _ h c => ⟨(h c).1.trans (Cert.KernelIdeal.KValue.result_eq m ρ c), (h c).2⟩)
      (Cert.KernelIdeal.GenP.run_named (F := Ideal) m ρ)
  · refine (θ_run Cert.ReferenceIdeal.defs _ _).mono (fun _ h c => ⟨(h c).1.trans ?_, (h c).2⟩)
      (Cert.ReferenceIdeal.RunH.run (F := Ideal) m' ρ')
    obtain ⟨h0, h1, h2, h3, h4, h5, h6, h7, h8, h9, h10, h11, h12⟩ := hagree c
    rw [Cert.ReferenceIdeal.RefValue.out_eq, h0, h1, h2, h3, h4, h5, h6, h7, h8, h9, h10, h11, h12]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
